-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  IdealRules.truncf_extf.Statement Cert.KernelIdeal.S3x512 .f32 .bf16
  ∧ IdealRules.truncf_extf.Statement Cert.KernelIdeal.S3x2048 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v114) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x512x3 : Shape := ⟨3, ![32, 512, 3]⟩
abbrev S32x32768x3 : Shape := ⟨3, ![32, 32768, 3]⟩
abbrev S64 : Shape := ⟨1, ![64]⟩
abbrev S8x64 : Shape := ⟨2, ![8, 64]⟩
abbrev S64x256 : Shape := ⟨2, ![64, 256]⟩
abbrev S256 : Shape := ⟨1, ![256]⟩
abbrev S256x1 : Shape := ⟨2, ![256, 1]⟩
abbrev S1 : Shape := ⟨1, ![1]⟩
abbrev S32 : Shape := ⟨1, ![32]⟩
abbrev S32x512 : Shape := ⟨2, ![32, 512]⟩
abbrev S2x32x32768 : Shape := ⟨3, ![2, 32, 32768]⟩
abbrev S_ : Shape := ⟨0, ![]⟩

class Facts : Prop where
  bcast_S_S32x512x3 : S_.BroadcastsInDim S32x512x3 (![] : Fin 0 → Fin S32x512x3.rank)
  reducesTo_S32x512x3_S_d0_1_2 : S32x512x3.ReducesTo [0, 1, 2] S_
  h_S_ : 0 < S_.numel
  bcast_S_S32x32768x3 : S_.BroadcastsInDim S32x32768x3 (![] : Fin 0 → Fin S32x32768x3.rank)
  reducesTo_S32x32768x3_S_d0_1_2 : S32x32768x3.ReducesTo [0, 1, 2] S_
  bcast_S_S64 : S_.BroadcastsInDim S64 (![] : Fin 0 → Fin S64.rank)
  reducesTo_S64_S_d0 : S64.ReducesTo [0] S_
  bcast_S_S8x64 : S_.BroadcastsInDim S8x64 (![] : Fin 0 → Fin S8x64.rank)
  reducesTo_S8x64_S_d0_1 : S8x64.ReducesTo [0, 1] S_
  bcast_S_S64x256 : S_.BroadcastsInDim S64x256 (![] : Fin 0 → Fin S64x256.rank)
  reducesTo_S64x256_S_d0_1 : S64x256.ReducesTo [0, 1] S_
  bcast_S_S256 : S_.BroadcastsInDim S256 (![] : Fin 0 → Fin S256.rank)
  reducesTo_S256_S_d0 : S256.ReducesTo [0] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_
  bcast_S_S32x512 : S_.BroadcastsInDim S32x512 (![] : Fin 0 → Fin S32x512.rank)
  reducesTo_S32x512_S_d0_1 : S32x512.ReducesTo [0, 1] S_
  bcast_S_S2x32x32768 : S_.BroadcastsInDim S2x32x32768 (![] : Fin 0 → Fin S2x32x32768.rank)
  reducesTo_S2x32x32768_S_d0_1_2 : S2x32x32768.ReducesTo [0, 1, 2] S_

variable [Facts]

def fn_part3 {F : FTy → Type} [FloatOps F] (main_arg11 : IVec S2x32x32768 32) (main_v47 : IVec S_ 1) (main_v49 : IVec S32x512 1) (main_c_19 : IVec S_ 1) : IVec S_ 1 :=
  let main_v50 : IVec S_ 1 := (fun x v => Host.reduce IntOp.andi x v reducesTo_S32x512_S_d0_1 h_S_) main_v49 main_c_19
  let main_v51 : IVec S_ 1 := andi main_v47 main_v50
  let main_c_20 : IVec S_ 32 := constantI S_ 32 0#32
  let main_v52 : IVec S2x32x32768 32 := broadcastInDim S2x32x32768 ![] bcast_S_S2x32x32768 main_c_20
  let main_v53 : IVec S2x32x32768 1 := cmpi .sge main_arg11 main_v52
  let main_c_21 : IVec S_ 1 := constantI S_ 1 1#1
  let main_v54 : IVec S_ 1 := (fun x v => Host.reduce IntOp.andi x v reducesTo_S2x32x32768_S_d0_1_2 h_S_) main_v53 main_c_21
  let main_v55 : IVec S_ 1 := andi main_v51 main_v54
  let main_c_22 : IVec S_ 32 := constantI S_ 32 512#32
  let main_v56 : IVec S2x32x32768 32 := broadcastInDim S2x32x32768 ![] bcast_S_S2x32x32768 main_c_22
  let main_v57 : IVec S2x32x32768 1 := cmpi .slt main_arg11 main_v56
  let main_c_23 : IVec S_ 1 := constantI S_ 1 1#1
  let main_v58 : IVec S_ 1 := (fun x v => Host.reduce IntOp.andi x v reducesTo_S2x32x32768_S_d0_1_2 h_S_) main_v57 main_c_23
  let main_v59 : IVec S_ 1 := andi main_v55 main_v58
  main_v59

def fn_part2 {F : FTy → Type} [FloatOps F] (main_arg7 : FVec F S256x1 .f32) (main_arg8 : FVec F S1 .f32) (main_arg10 : IVec S32x512 32) (main_arg11 : IVec S2x32x32768 32) (main_v33 : IVec S_ 1) : IVec S_ 1 :=
  let main_v34 : FVec F S256x1 .f32 := Host.absf main_arg7
  let main_cst_12 : FVec F S_ .f32 := constant S_ .f32 0x7F800000#32
  let main_v35 : FVec F S256x1 .f32 := broadcastInDim S256x1 ![] bcast_S_S256x1 main_cst_12
  let main_v36 : IVec S256x1 1 := cmpf .olt main_v34 main_v35
  let main_c_13 : IVec S_ 1 := constantI S_ 1 1#1
  let main_v37 : IVec S_ 1 := (fun x v => Host.reduce IntOp.andi x v reducesTo_S256x1_S_d0_1 h_S_) main_v36 main_c_13
  let main_v38 : IVec S_ 1 := andi main_v33 main_v37
  let main_v39 : FVec F S1 .f32 := Host.absf main_arg8
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  let main_c_16 : IVec S_ 32 := constantI S_ 32 0#32
  let main_v44 : IVec S32x512 32 := broadcastInDim S32x512 ![] bcast_S_S32x512 main_c_16
  let main_v45 : IVec S32x512 1 := cmpi .sge main_arg10 main_v44
  let main_c_17 : IVec S_ 1 := constantI S_ 1 1#1
  let main_v46 : IVec S_ 1 := (fun x v => Host.reduce IntOp.andi x v reducesTo_S32x512_S_d0_1 h_S_) main_v45 main_c_17
  let main_v47 : IVec S_ 1 := andi main_v43 main_v46
  let main_c_18 : IVec S_ 32 := constantI S_ 32 8#32
  let main_v48 : IVec S32x512 32 := broadcastInDim S32x512 ![] bcast_S_S32x512 main_c_18
  let main_v49 : IVec S32x512 1 := cmpi .slt main_arg10 main_v48
  let main_c_19 : IVec S_ 1 := constantI S_ 1 1#1
  fn_part3 (F := F) main_arg11 main_v47 main_v49 main_c_19

def fn_part1 {F : FTy → Type} [FloatOps F] (main_arg4 : FVec F S8x64 .f32) (main_arg5 : FVec F S64x256 .f32) (main_arg6 : FVec F S256 .f32) (main_arg7 : FVec F S256x1 .f32) (main_arg8 : FVec F S1 .f32) (main_arg10 : IVec S32x512 32) (main_arg11 : IVec S2x32x32768 32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S8x64 .f32 := Host.absf main_arg4
  let main_cst_6 : FVec F S_ .f32 := constant S_ .f32 0x7F800000#32
  let main_v20 : FVec F S8x64 .f32 := broadcastInDim S8x64 ![] bcast_S_S8x64 main_cst_6
  let main_v21 : IVec S8x64 1 := cmpf .olt main_v19 main_v20
  let main_c_7 : IVec S_ 1 := constantI S_ 1 1#1
  let main_v22 : IVec S_ 1 := (fun x v => Host.reduce IntOp.andi x v reducesTo_S8x64_S_d0_1 h_S_) main_v21 main_c_7
  let main_v23 : IVec S_ 1 := andi main_v18 main_v22
  let main_v24 : FVec F S64x256 .f32 := Host.absf main_arg5
  let main_cst_8 : FVec F S_ .f32 := constant S_ .f32 0x7F800000#32
  let main_v25 : FVec F S64x256 .f32 := broadcastInDim S64x256 ![] bcast_S_S64x256 main_cst_8
  let main_v26 : IVec S64x256 1 := cmpf .olt main_v24 main_v25
  let main_c_9 : IVec S_ 1 := constantI S_ 1 1#1
  let main_v27 : IVec S_ 1 := (fun x v => Host.reduce IntOp.andi x v reducesTo_S64x256_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_arg8 main_arg10 main_arg11 main_v33

def fn {F : FTy → Type} [FloatOps F] (main_arg0 : FVec F S32x512x3 .f32) (main_arg1 : FVec F S32x32768x3 .f32) (main_arg2 : FVec F S64 .f32) (main_arg3 : FVec F S64 .f32) (main_arg4 : FVec F S8x64 .f32) (main_arg5 : FVec F S64x256 .f32) (main_arg6 : FVec F S256 .f32) (main_arg7 : FVec F S256x1 .f32) (main_arg8 : FVec F S1 .f32) (main_arg9 : IVec S32 32) (main_arg10 : IVec S32x512 32) (main_arg11 : IVec S2x32x32768 32) : IVec S_ 1 :=
  let main_v0 : FVec F S32x512x3 .f32 := Host.absf main_arg0
  let main_cst : FVec F S_ .f32 := constant S_ .f32 0x7F800000#32
  let main_v1 : FVec F S32x512x3 .f32 := broadcastInDim S32x512x3 ![] bcast_S_S32x512x3 main_cst
  let main_v2 : IVec S32x512x3 1 := cmpf .olt main_v0 main_v1
  let main_c : IVec S_ 1 := constantI S_ 1 1#1
  let main_v3 : IVec S_ 1 := (fun x v => Host.reduce IntOp.andi x v reducesTo_S32x512x3_S_d0_1_2 h_S_) main_v2 main_c
  let main_v4 : FVec F S32x32768x3 .f32 := Host.absf main_arg1
  let main_cst_0 : FVec F S_ .f32 := constant S_ .f32 0x7F800000#32
  let main_v5 : FVec F S32x32768x3 .f32 := broadcastInDim S32x32768x3 ![] bcast_S_S32x32768x3 main_cst_0
  let main_v6 : IVec S32x32768x3 1 := cmpf .olt main_v4 main_v5
  let main_c_1 : IVec S_ 1 := constantI S_ 1 1#1
  let main_v7 : IVec S_ 1 := (fun x v => Host.reduce IntOp.andi x v reducesTo_S32x32768x3_S_d0_1_2 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_arg6 main_arg7 main_arg8 main_arg10 main_arg11 main_v13 main_v16
-- ==== Kernel.lean ====
abbrev S32x512x3 : Shape := ⟨3, ![32, 512, 3]⟩
abbrev S32x32768x3 : Shape := ⟨3, ![32, 32768, 3]⟩
abbrev S64 : Shape := ⟨1, ![64]⟩
abbrev S8x64 : Shape := ⟨2, ![8, 64]⟩
abbrev S64x256 : Shape := ⟨2, ![64, 256]⟩
abbrev S256 : Shape := ⟨1, ![256]⟩
abbrev S256x1 : Shape := ⟨2, ![256, 1]⟩
abbrev S1 : Shape := ⟨1, ![1]⟩
abbrev S32 : Shape := ⟨1, ![32]⟩
abbrev S32x512 : Shape := ⟨2, ![32, 512]⟩
abbrev S2x32x32768 : Shape := ⟨3, ![2, 32, 32768]⟩
abbrev S32x3x512 : Shape := ⟨3, ![32, 3, 512]⟩
abbrev S_ : Shape := ⟨0, ![]⟩
abbrev S32x512x1 : Shape := ⟨3, ![32, 512, 1]⟩
abbrev S1x1x1 : Shape := ⟨3, ![1, 1, 1]⟩
abbrev S32x512x64 : Shape := ⟨3, ![32, 512, 64]⟩
abbrev S32x64x512 : Shape := ⟨3, ![32, 64, 512]⟩
abbrev S1x32x32768 : Shape := ⟨3, ![1, 32, 32768]⟩
abbrev S32x32768 : Shape := ⟨2, ![32, 32768]⟩
abbrev S32x1x32768 : Shape := ⟨3, ![32, 1, 32768]⟩
abbrev S32x2x32768 : Shape := ⟨3, ![32, 2, 32768]⟩
abbrev S32x3x32768 : Shape := ⟨3, ![32, 3, 32768]⟩
abbrev S64x1 : Shape := ⟨2, ![64, 1]⟩
abbrev S32x1x3 : Shape := ⟨3, ![32, 1, 3]⟩
abbrev S1x3x512 : Shape := ⟨3, ![1, 3, 512]⟩
abbrev S1x64x512 : Shape := ⟨3, ![1, 64, 512]⟩
abbrev S1x2x2048 : Shape := ⟨3, ![1, 2, 2048]⟩
abbrev S1x3x2048 : Shape := ⟨3, ![1, 3, 2048]⟩
abbrev S1x1x3 : Shape := ⟨3, ![1, 1, 3]⟩
abbrev S64x512 : Shape := ⟨2, ![64, 512]⟩
abbrev S3x512 : Shape := ⟨2, ![3, 512]⟩
abbrev S1x1x2048 : Shape := ⟨3, ![1, 1, 2048]⟩
abbrev S2048 : Shape := ⟨1, ![2048]⟩
abbrev S512x1 : Shape := ⟨2, ![512, 1]⟩
abbrev S1x2048 : Shape := ⟨2, ![1, 2048]⟩
abbrev S512x2048 : Shape := ⟨2, ![512, 2048]⟩
abbrev S6x512 : Shape := ⟨2, ![6, 512]⟩
abbrev S6x2048 : Shape := ⟨2, ![6, 2048]⟩
abbrev S3x2048 : Shape := ⟨2, ![3, 2048]⟩
abbrev S64x2048 : Shape := ⟨2, ![64, 2048]⟩
abbrev S70x2048 : Shape := ⟨2, ![70, 2048]⟩
abbrev S70x512 : Shape := ⟨2, ![70, 512]⟩
abbrev S512x256 : Shape := ⟨2, ![512, 256]⟩
abbrev S1x256 : Shape := ⟨2, ![1, 256]⟩
abbrev S1x1 : Shape := ⟨2, ![1, 1]⟩
abbrev S512 : Shape := ⟨1, ![512]⟩
abbrev S1x512 : Shape := ⟨2, ![1, 512]⟩
abbrev S3 : Shape := ⟨1, ![3]⟩
abbrev S1x3 : Shape := ⟨2, ![1, 3]⟩
abbrev S32x3 : Shape := ⟨2, ![32, 3]⟩

abbrev nBuf : Space → Nat
  | .hbm => 50
  | .vmem => 18
  | .smem => 0
  | _ => 0

abbrev bufTy : (tb : Table) → Fin (tcTables nBuf tb) → BufTy
  | .hbm, ⟨0, _⟩ => ⟨S32x512x3, .f32⟩
  | .hbm, ⟨1, _⟩ => ⟨S32x32768x3, .f32⟩
  | .hbm, ⟨2, _⟩ => ⟨S64, .f32⟩
  | .hbm, ⟨3, _⟩ => ⟨S64, .f32⟩
  | .hbm, ⟨4, _⟩ => ⟨S8x64, .f32⟩
  | .hbm, ⟨5, _⟩ => ⟨S64x256, .f32⟩
  | .hbm, ⟨6, _⟩ => ⟨S256, .f32⟩
  | .hbm, ⟨7, _⟩ => ⟨S256x1, .f32⟩
  | .hbm, ⟨8, _⟩ => ⟨S1, .f32⟩
  | .hbm, ⟨9, _⟩ => ⟨S32, .i32⟩
  | .hbm, ⟨10, _⟩ => ⟨S32x512, .i32⟩
  | .hbm, ⟨11, _⟩ => ⟨S2x32x32768, .i32⟩
  | .hbm, ⟨12, _⟩ => ⟨S32x3x512, .f32⟩
  | .hbm, ⟨13, _⟩ => ⟨S_, .i32⟩
  | .hbm, ⟨14, _⟩ => ⟨S32x512, .i32⟩
  | .hbm, ⟨15, _⟩ => ⟨S32x512, .i1⟩
  | .hbm, ⟨16, _⟩ => ⟨S_, .i32⟩
  | .hbm, ⟨17, _⟩ => ⟨S32x512, .i32⟩
  | .hbm, ⟨18, _⟩ => ⟨S32x512, .i32⟩
  | .hbm, ⟨19, _⟩ => ⟨S32x512, .i32⟩
  | .hbm, ⟨20, _⟩ => ⟨S32x512x1, .i32⟩
  | .hbm, ⟨21, _⟩ => ⟨S1, .i32⟩
  | .hbm, ⟨22, _⟩ => ⟨S_, .i32⟩
  | .hbm, ⟨23, _⟩ => ⟨S32x512x1, .i32⟩
  | .hbm, ⟨24, _⟩ => ⟨S32x512x1, .i1⟩
  | .hbm, ⟨25, _⟩ => ⟨S1x1x1, .i32⟩
  | .hbm, ⟨26, _⟩ => ⟨S32x512x1, .i32⟩
  | .hbm, ⟨27, _⟩ => ⟨S32x512x1, .i1⟩
  | .hbm, ⟨28, _⟩ => ⟨S32x512x1, .i1⟩
  | .hbm, ⟨29, _⟩ => ⟨S_, .i1⟩
  | .hbm, ⟨30, _⟩ => ⟨S32x512, .i1⟩
  | .hbm, ⟨31, _⟩ => ⟨S32x512x64, .f32⟩
  | .hbm, ⟨32, _⟩ => ⟨S32x512x64, .i1⟩
  | .hbm, ⟨33, _⟩ => ⟨S_, .f32⟩
  | .hbm, ⟨34, _⟩ => ⟨S32x512x64, .f32⟩
  | .hbm, ⟨35, _⟩ => ⟨S32x512x64, .f32⟩
  | .hbm, ⟨36, _⟩ => ⟨S32x64x512, .f32⟩
  | .hbm, ⟨37, _⟩ => ⟨S32x64x512, .bf16⟩
  | .hbm, ⟨38, _⟩ => ⟨S1x32x32768, .i32⟩
  | .hbm, ⟨39, _⟩ => ⟨S32x32768, .i32⟩
  | .hbm, ⟨40, _⟩ => ⟨S1x32x32768, .i32⟩
  | .hbm, ⟨41, _⟩ => ⟨S32x32768, .i32⟩
  | .hbm, ⟨42, _⟩ => ⟨S32x1x32768, .i32⟩
  | .hbm, ⟨43, _⟩ => ⟨S32x1x32768, .i32⟩
  | .hbm, ⟨44, _⟩ => ⟨S32x2x32768, .i32⟩
  | .hbm, ⟨45, _⟩ => ⟨S32x3x32768, .f32⟩
  | .hbm, ⟨46, _⟩ => ⟨S64x1, .f32⟩
  | .hbm, ⟨47, _⟩ => ⟨S64x1, .f32⟩
  | .hbm, ⟨48, _⟩ => ⟨S32x1x3, .f32⟩
  | .hbm, ⟨49, _⟩ => ⟨S32x3, .f32⟩
  | .local _ .vmem, ⟨0, _⟩ => ⟨S1x3x512, .f32⟩
  | .local _ .vmem, ⟨1, _⟩ => ⟨S1x3x512, .f32⟩
  | .local _ .vmem, ⟨2, _⟩ => ⟨S1x64x512, .bf16⟩
  | .local _ .vmem, ⟨3, _⟩ => ⟨S1x64x512, .bf16⟩
  | .local _ .vmem, ⟨4, _⟩ => ⟨S1x2x2048, .i32⟩
  | .local _ .vmem, ⟨5, _⟩ => ⟨S1x2x2048, .i32⟩
  | .local _ .vmem, ⟨6, _⟩ => ⟨S1x3x2048, .f32⟩
  | .local _ .vmem, ⟨7, _⟩ => ⟨S1x3x2048, .f32⟩
  | .local _ .vmem, ⟨8, _⟩ => ⟨S64x1, .f32⟩
  | .local _ .vmem, ⟨9, _⟩ => ⟨S64x1, .f32⟩
  | .local _ .vmem, ⟨10, _⟩ => ⟨S64x256, .f32⟩
  | .local _ .vmem, ⟨11, _⟩ => ⟨S256, .f32⟩
  | .local _ .vmem, ⟨12, _⟩ => ⟨S256x1, .f32⟩
  | .local _ .vmem, ⟨13, _⟩ => ⟨S1, .f32⟩
  | .local _ .vmem, ⟨14, _⟩ => ⟨S1x1x3, .f32⟩
  | .local _ .vmem, ⟨15, _⟩ => ⟨S1x1x3, .f32⟩
  | .local _ .vmem, ⟨16, _⟩ => ⟨S64x512, .f32⟩
  | .local _ .vmem, ⟨17, _⟩ => ⟨S3x512, .f32⟩
  | _, _ => ⟨S32x512x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_call0_c : Ref sig .tc := ⟨.hbm, 13, rfl⟩
abbrev main_call0_v0 : Ref sig .tc := ⟨.hbm, 14, rfl⟩
abbrev main_call0_v1 : Ref sig .tc := ⟨.hbm, 15, rfl⟩
abbrev main_call0_c_0 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_c_1 : Ref sig .tc := ⟨.hbm, 21, rfl⟩
abbrev main_call0_c_2 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_3 : Ref sig .tc := ⟨.hbm, 29, rfl⟩
abbrev main_call0_v12 : Ref sig .tc := ⟨.hbm, 30, rfl⟩
abbrev main_call0_v13 : Ref sig .tc := ⟨.hbm, 31, rfl⟩
abbrev main_call0_v14 : Ref sig .tc := ⟨.hbm, 32, rfl⟩
abbrev main_call0_cst : Ref sig .tc := ⟨.hbm, 33, rfl⟩
abbrev main_call0_v15 : Ref sig .tc := ⟨.hbm, 34, rfl⟩
abbrev main_v1 : Ref sig .tc := ⟨.hbm, 35, rfl⟩
abbrev main_v2 : Ref sig .tc := ⟨.hbm, 36, rfl⟩
abbrev main_v3 : Ref sig .tc := ⟨.hbm, 37, rfl⟩
abbrev main_v4 : Ref sig .tc := ⟨.hbm, 38, rfl⟩
abbrev main_v5 : Ref sig .tc := ⟨.hbm, 39, rfl⟩
abbrev main_v6 : Ref sig .tc := ⟨.hbm, 40, rfl⟩
abbrev main_v7 : Ref sig .tc := ⟨.hbm, 41, rfl⟩
abbrev main_v8 : Ref sig .tc := ⟨.hbm, 42, rfl⟩
abbrev main_v9 : Ref sig .tc := ⟨.hbm, 43, rfl⟩
abbrev main_v10 : Ref sig .tc := ⟨.hbm, 44, rfl⟩
abbrev main_v11 : Ref sig .tc := ⟨.hbm, 45, rfl⟩
abbrev main_v12 : Ref sig .tc := ⟨.hbm, 46, rfl⟩
abbrev main_v13 : Ref sig .tc := ⟨.hbm, 47, rfl⟩
abbrev main_v14 : Ref sig .tc := ⟨.hbm, 48, rfl⟩
abbrev main_v15 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨2, ![32, 16], ![false, false]⟩

def k0_cond2 (i : grid0.Coords) : BitVec 1 :=
  let arg1 : BitVec 32 := BitVec.ofNat 32 (i 1).val
  let c15_i32 : BitVec 32 := 15#32
  let v112 : BitVec 1 := Scalar.cmpi .eq arg1 c15_i32
  let v113 : BitVec 32 := Scalar.extui v112
  let c0_i32_41 : BitVec 32 := 0#32
  let v114 : BitVec 1 := Scalar.cmpi .ne v113 c0_i32_41
  v114

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x3x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x64x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2x2048 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x3x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S64x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S64x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S64x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S256x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x1x3 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

class Facts₀ : Prop where
  transposes_S32x512x3_S32x3x512_0_2_1 : S32x512x3.Transposes [0, 2, 1] S32x3x512
  bcast_S_S32x512 : S_.BroadcastsInDim S32x512 (![] : Fin 0 → Fin S32x512.rank)
  bcast_S32x512_S32x512x1_0_1 : S32x512.BroadcastsInDim S32x512x1 (![0, 1] : Fin 2 → Fin S32x512x1.rank)
  bcast_S_S32x512x1 : S_.BroadcastsInDim S32x512x1 (![] : Fin 0 → Fin S32x512x1.rank)
  bcast_S1_S1x1x1_2 : S1.BroadcastsInDim S1x1x1 (![2] : Fin 1 → Fin S1x1x1.rank)
  bcast_S1x1x1_S32x512x1_0_1_2 : S1x1x1.BroadcastsInDim S32x512x1 (![0, 1, 2] : Fin 3 → Fin S32x512x1.rank)
  reducesTo_S32x512x1_S32x512_d2 : S32x512x1.ReducesTo [2] S32x512
  h_S_ : 0 < S_.numel
  bcast_S32x512_S32x512x64_0_1 : S32x512.BroadcastsInDim S32x512x64 (![0, 1] : Fin 2 → Fin S32x512x64.rank)
  bcast_S_S32x512x64 : S_.BroadcastsInDim S32x512x64 (![] : Fin 0 → Fin S32x512x64.rank)
  transposes_S32x512x64_S32x64x512_0_2_1 : S32x512x64.Transposes [0, 2, 1] S32x64x512
  bitsLt_bf16_f32 : FTy.bits .bf16 < FTy.bits .f32
  slices_S2x32x32768_S1x32x32768_0_0_0 : S2x32x32768.Slices ![0, 0, 0] S1x32x32768
  shapeCasts_S1x32x32768_S32x32768 : S1x32x32768.ShapeCasts S32x32768
  slices_S2x32x32768_S1x32x32768_1_0_0 : S2x32x32768.Slices ![1, 0, 0] S1x32x32768
  bcast_S32x32768_S32x1x32768_0_2 : S32x32768.BroadcastsInDim S32x1x32768 (![0, 2] : Fin 2 → Fin S32x1x32768.rank)
  concatenates_S32x1x32768_S32x1x32768_S32x2x32768_d1 : Shape.Concatenates [S32x1x32768, S32x1x32768] S32x2x32768 1
  transposes_S32x32768x3_S32x3x32768_0_2_1 : S32x32768x3.Transposes [0, 2, 1] S32x3x32768
  shapeCasts_S64_S64x1 : S64.ShapeCasts S64x1
  inb_S64x512_S64x512_0_0 : ∀ a, (![0, 0] : Fin 2 → Nat) a + S64x512.size a ≤ S64x512.size a
  h_S64x512 : 0 < S64x512.numel
  shapeCasts_S64x512_S64x512 : S64x512.ShapeCasts S64x512
  inb_S3x512_S3x512_0_0 : ∀ a, (![0, 0] : Fin 2 → Nat) a + S3x512.size a ≤ S3x512.size a
  h_S3x512 : 0 < S3x512.numel
  shapeCasts_S3x512_S3x512 : S3x512.ShapeCasts S3x512
  inb_S1x2x2048_S1x1x2048_0_0_0 : ∀ a, (![0, 0, 0] : Fin 3 → Nat) a + S1x1x2048.size a ≤ S1x2x2048.size a
  h_S1x1x2048 : 0 < S1x1x2048.numel
  shapeCasts_S1x1x2048_S2048 : S1x1x2048.ShapeCasts S2048
  inb_S1x2x2048_S1x1x2048_0_1_0 : ∀ a, (![0, 1, 0] : Fin 3 → Nat) a + S1x1x2048.size a ≤ S1x2x2048.size a
  iota_S512x1_d0_w32 : S512x1.Iotas .tc 32 [0]
  shapeCasts_S2048_S1x2048 : S2048.ShapeCasts S1x2048
  broadcasts_S512x1_S512x2048 : S512x1.Broadcasts S512x2048
  broadcasts_S1x2048_S512x2048 : S1x2048.Broadcasts S512x2048
  natLt_1_32 : 1 < 32
  inb_S1x3x512_S1x3x512_0_0_0 : ∀ a, (![0, 0, 0] : Fin 3 → Nat) a + S1x3x512.size a ≤ S1x3x512.size a
  h_S1x3x512 : 0 < S1x3x512.numel
  shapeCasts_S1x3x512_S3x512 : S1x3x512.ShapeCasts S3x512
  concatenates_S3x512_S3x512_S6x512_d0 : Shape.Concatenates [S3x512, S3x512] S6x512 0
  slices_S6x2048_o0_0_S3x2048 : S6x2048.Slices ![0, 0] S3x2048
  slices_S6x2048_o3_0_S3x2048 : S6x2048.Slices ![3, 0] S3x2048
  inb_S1x64x512_S1x64x512_0_0_0 : ∀ a, (![0, 0, 0] : Fin 3 → Nat) a + S1x64x512.size a ≤ S1x64x512.size a
  h_S1x64x512 : 0 < S1x64x512.numel
  shapeCasts_S1x64x512_S64x512 : S1x64x512.ShapeCasts S64x512
  inb_S1x3x2048_S1x3x2048_0_0_0 : ∀ a, (![0, 0, 0] : Fin 3 → Nat) a + S1x3x2048.size a ≤ S1x3x2048.size a
  h_S1x3x2048 : 0 < S1x3x2048.numel
  shapeCasts_S1x3x2048_S3x2048 : S1x3x2048.ShapeCasts S3x2048
  reduces_S3x2048_S2048 : S3x2048.Reduces [0] S2048
  broadcasts_S1x2048_S3x2048 : S1x2048.Broadcasts S3x2048
  inb_S64x1_S64x1_0_0 : ∀ a, (![0, 0] : Fin 2 → Nat) a + S64x1.size a ≤ S64x1.size a
  h_S64x1 : 0 < S64x1.numel
  shapeCasts_S64x1_S64x1 : S64x1.ShapeCasts S64x1
  broadcasts_S1x2048_S64x2048 : S1x2048.Broadcasts S64x2048
  broadcasts_S64x1_S64x2048 : S64x1.Broadcasts S64x2048
  concatenates_S64x2048_S3x2048_S3x2048_S70x2048_d0 : Shape.Concatenates [S64x2048, S3x2048, S3x2048] S70x2048 0
  slices_S70x512_o0_0_S64x512 : S70x512.Slices ![0, 0] S64x512
  slices_S70x512_o64_0_S3x512 : S70x512.Slices ![64, 0] S3x512
  slices_S70x512_o67_0_S3x512 : S70x512.Slices ![67, 0] S3x512
  inb_S64x256_S64x256_0_0 : ∀ a, (![0, 0] : Fin 2 → Nat) a + S64x256.size a ≤ S64x256.size a
  h_S64x256 : 0 < S64x256.numel
  inb_S256_S256_0 : ∀ a, (![0] : Fin 1 → Nat) a + S256.size a ≤ S256.size a
  h_S256 : 0 < S256.numel
  shapeCasts_S256_S1x256 : S256.ShapeCasts S1x256
  broadcasts_S1x256_S512x256 : S1x256.Broadcasts S512x256
  inb_S256x1_S256x1_0_0 : ∀ a, (![0, 0] : Fin 2 → Nat) a + S256x1.size a ≤ S256x1.size a
  h_S256x1 : 0 < S256x1.numel
  inb_S1_S1_0 : ∀ a, (![0] : Fin 1 → Nat) a + S1.size a ≤ S1.size a
  h_S1 : 0 < S1.numel
  shapeCasts_S1_S1x1 : S1.ShapeCasts S1x1
  broadcasts_S1x1_S512x1 : S1x1.Broadcasts S512x1
  shapeCasts_S512x1_S512 : S512x1.ShapeCasts S512
  shapeCasts_S512_S1x512 : S512.ShapeCasts S1x512
  broadcasts_S1x512_S3x512 : S1x512.Broadcasts S3x512
  reduces_S3x512_S3 : S3x512.Reduces [1] S3
  shapeCasts_S3_S1x3 : S3.ShapeCasts S1x3
  inb_S1x1x3_S1x1x3_0_0_0 : ∀ a, (![0, 0, 0] : Fin 3 → Nat) a + S1x1x3.size a ≤ S1x1x3.size a
  h_S1x1x3 : 0 < S1x1x3.numel
  shapeCasts_S1x1x3_S1x3 : S1x1x3.ShapeCasts S1x3
  shapeCasts_S1x3_S1x1x3 : S1x3.ShapeCasts S1x1x3
  shapeCasts_S32x1x3_S32x3 : S32x1x3.ShapeCasts S32x3
  gather_S8x64_S32x512x1_S32x512x64_2_0_n_n_0_2_164_wf : GatherDims.WF S8x64 S32x512x1 S32x512x64 [2] [0] [] [0] [] 2 ![1, 64]
  dot_S6x512_S512x2048_S6x2048_1_0_0_1_n_n_wf : DotDims.WF S6x512 S512x2048 S6x2048 [1] [0] [0] [1] [] []
  dot_S64x512_S512x2048_S64x2048_1_0_0_1_n_n_wf : DotDims.WF S64x512 S512x2048 S64x2048 [1] [0] [0] [1] [] []
  dot_S70x2048_S512x2048_S70x512_1_1_0_0_n_n_wf : DotDims.WF S70x2048 S512x2048 S70x512 [1] [1] [0] [0] [] []
  dot_S64x512_S64x256_S512x256_0_0_1_1_n_n_wf : DotDims.WF S64x512 S64x256 S512x256 [0] [0] [1] [1] [] []
  dot_S512x256_S256x1_S512x1_1_0_0_1_n_n_wf : DotDims.WF S512x256 S256x1 S512x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x3x512.size a ≤ S32x3x512.size a
  hwx0_0 : ∀ i : grid0.Coords, EltTy.bits .f32 = 32 ∨ (Rect.block (s := S32x3x512) S1x3x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x512.size a ≤ S32x64x512.size a
  hwx0_1 : ∀ i : grid0.Coords, EltTy.bits .bf16 = 32 ∨ (Rect.block (s := S32x64x512) S1x64x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2x2048.size a ≤ S32x2x32768.size a
  hwx0_2 : ∀ i : grid0.Coords, EltTy.bits .i32 = 32 ∨ (Rect.block (s := S32x2x32768) S1x2x2048.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x3x2048.size a ≤ S32x3x32768.size a
  hwx0_3 : ∀ i : grid0.Coords, EltTy.bits .f32 = 32 ∨ (Rect.block (s := S32x3x32768) S1x3x2048.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x1.size a ≤ S64x1.size a
  hwx0_4 : ∀ i : grid0.Coords, EltTy.bits .f32 = 32 ∨ (Rect.block (s := S64x1) S64x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x1.size a ≤ S64x1.size a
  hwx0_5 : ∀ i : grid0.Coords, EltTy.bits .f32 = 32 ∨ (Rect.block (s := S64x1) S64x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x256.size a ≤ S64x256.size a
  hwx0_6 : ∀ i : grid0.Coords, EltTy.bits .f32 = 32 ∨ (Rect.block (s := S64x256) S64x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256.size a ≤ S256.size a
  hwx0_7 : ∀ i : grid0.Coords, EltTy.bits .f32 = 32 ∨ (Rect.block (s := S256) S256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256x1.size a ≤ S256x1.size a
  hwx0_8 : ∀ i : grid0.Coords, EltTy.bits .f32 = 32 ∨ (Rect.block (s := S256x1) S256x1.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1.size a ≤ S1.size a
  hwx0_9 : ∀ i : grid0.Coords, EltTy.bits .f32 = 32 ∨ (Rect.block (s := S1) S1.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x1x3.size a ≤ S32x1x3.size a
  hwx0_10 : ∀ i : grid0.Coords, EltTy.bits .f32 = 32 ∨ (Rect.block (s := S32x1x3) S1x1x3.size (cc0_transform_10 i) (hinb0_10 i)).WholeWords (EltTy.packing .f32)

variable [Facts₀]

def gather_S8x64_S32x512x1_S32x512x64_2_0_n_n_0_2_164 : GatherDims S8x64 S32x512x1 S32x512x64 where
  offsetDims := [2]
  collapsedSliceDims := [0]
  operandBatchingDims := []
  startIndicesBatchingDims := []
  startIndexMap := [0]
  indexVectorDim := 2
  sliceSizes := ![1, 64]
  wf := gather_S8x64_S32x512x1_S32x512x64_2_0_n_n_0_2_164_wf
def dot_S6x512_S512x2048_S6x2048_1_0_0_1_n_n : DotDims S6x512 S512x2048 S6x2048 where
  lhsContracting := [1]
  rhsContracting := [0]
  lhsNonContracting := [0]
  rhsNonContracting := [1]
  lhsBatch := []
  rhsBatch := []
  wf := dot_S6x512_S512x2048_S6x2048_1_0_0_1_n_n_wf
def dot_S64x512_S512x2048_S64x2048_1_0_0_1_n_n : DotDims S64x512 S512x2048 S64x2048 where
  lhsContracting := [1]
  rhsContracting := [0]
  lhsNonContracting := [0]
  rhsNonContracting := [1]
  lhsBatch := []
  rhsBatch := []
  wf := dot_S64x512_S512x2048_S64x2048_1_0_0_1_n_n_wf
def dot_S70x2048_S512x2048_S70x512_1_1_0_0_n_n : DotDims S70x2048 S512x2048 S70x512 where
  lhsContracting := [1]
  rhsContracting := [1]
  lhsNonContracting := [0]
  rhsNonContracting := [0]
  lhsBatch := []
  rhsBatch := []
  wf := dot_S70x2048_S512x2048_S70x512_1_1_0_0_n_n_wf
def dot_S64x512_S64x256_S512x256_0_0_1_1_n_n : DotDims S64x512 S64x256 S512x256 where
  lhsContracting := [0]
  rhsContracting := [0]
  lhsNonContracting := [1]
  rhsNonContracting := [1]
  lhsBatch := []
  rhsBatch := []
  wf := dot_S64x512_S64x256_S512x256_0_0_1_1_n_n_wf
def dot_S512x256_S256x1_S512x1_1_0_0_1_n_n : DotDims S512x256 S256x1 S512x1 where
  lhsContracting := [1]
  rhsContracting := [0]
  lhsNonContracting := [0]
  rhsNonContracting := [1]
  lhsBatch := []
  rhsBatch := []
  wf := dot_S512x256_S256x1_S512x1_1_0_0_1_n_n_wf

abbrev win0_0 : Pipeline.Window sig grid0 :=
  Pipeline.Window.ofSpec (Memref.whole main_v0) S1x3x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1x64x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v10) S1x2x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v11) S1x3x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v12) S64x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v13) S64x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg5) S64x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg6) S256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg7) S256x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg8) S1.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v14) S1x1x3.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev idle0 : Fin 11 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun i => !(k0_cond2 i == 1#1) | ⟨_ + 11, h⟩ => absurd h (Nat.not_lt.2 (Nat.le_add_left _ _))

class Facts : Prop extends Facts₀ where

variable [Facts]
-- ==== ReferenceIdeal.lean ====
abbrev S32x512x3 : Shape := ⟨3, ![32, 512, 3]⟩
abbrev S32x32768x3 : Shape := ⟨3, ![32, 32768, 3]⟩
abbrev S64 : Shape := ⟨1, ![64]⟩
abbrev S8x64 : Shape := ⟨2, ![8, 64]⟩
abbrev S64x256 : Shape := ⟨2, ![64, 256]⟩
abbrev S256 : Shape := ⟨1, ![256]⟩
abbrev S256x1 : Shape := ⟨2, ![256, 1]⟩
abbrev S1 : Shape := ⟨1, ![1]⟩
abbrev S32 : Shape := ⟨1, ![32]⟩
abbrev S32x512 : Shape := ⟨2, ![32, 512]⟩
abbrev S2x32x32768 : Shape := ⟨3, ![2, 32, 32768]⟩
abbrev S16384 : Shape := ⟨1, ![16384]⟩
abbrev S16384x3 : Shape := ⟨2, ![16384, 3]⟩
abbrev S_ : Shape := ⟨0, ![]⟩
abbrev S32x1 : Shape := ⟨2, ![32, 1]⟩
abbrev S32x32768 : Shape := ⟨2, ![32, 32768]⟩
abbrev S1048576 : Shape := ⟨1, ![1048576]⟩
abbrev S2x1048576 : Shape := ⟨2, ![2, 1048576]⟩
abbrev S1x1048576 : Shape := ⟨2, ![1, 1048576]⟩
abbrev S1048576x3 : Shape := ⟨2, ![1048576, 3]⟩
abbrev S1048576x1 : Shape := ⟨2, ![1048576, 1]⟩
abbrev S1x64 : Shape := ⟨2, ![1, 64]⟩
abbrev S1048576x64 : Shape := ⟨2, ![1048576, 64]⟩
abbrev S16384x64 : Shape := ⟨2, ![16384, 64]⟩
abbrev S16384x256 : Shape := ⟨2, ![16384, 256]⟩
abbrev S1x256 : Shape := ⟨2, ![1, 256]⟩
abbrev S16384x1 : Shape := ⟨2, ![16384, 1]⟩
abbrev S1x1 : Shape := ⟨2, ![1, 1]⟩
abbrev S32x3 : Shape := ⟨2, ![32, 3]⟩

abbrev nBuf : Space → Nat
  | .hbm => 156
  | .vmem => 0
  | .smem => 0
  | _ => 0

abbrev hbmTy0_0 (i : Nat) : BufTy := match i % 128 with
  | 0 => ⟨S32x512x3, .f32⟩
  | 1 => ⟨S32x32768x3, .f32⟩
  | 2 => ⟨S64, .f32⟩
  | 3 => ⟨S64, .f32⟩
  | 4 => ⟨S8x64, .f32⟩
  | 5 => ⟨S64x256, .f32⟩
  | 6 => ⟨S256, .f32⟩
  | 7 => ⟨S256x1, .f32⟩
  | 8 => ⟨S1, .f32⟩
  | 9 => ⟨S32, .i32⟩
  | 10 => ⟨S32x512, .i32⟩
  | 11 => ⟨S2x32x32768, .i32⟩
  | 12 => ⟨S16384, .i32⟩
  | 13 => ⟨S16384x3, .f32⟩
  | 14 => ⟨S32, .i32⟩
  | 15 => ⟨S_, .i32⟩
  | 16 => ⟨S32, .i32⟩
  | 17 => ⟨S32, .i32⟩
  | 18 => ⟨S32x1, .i32⟩
  | 19 => ⟨S32x32768, .i32⟩
  | 20 => ⟨S1048576, .i32⟩
  | 21 => ⟨S2x1048576, .i32⟩
  | 22 => ⟨S1x1048576, .i32⟩
  | 23 => ⟨S2x1048576, .i32⟩
  | 24 => ⟨S2x1048576, .i32⟩
  | 25 => ⟨S1048576x3, .f32⟩
  | 26 => ⟨S_, .f32⟩
  | 27 => ⟨S1048576x3, .f32⟩
  | 28 => ⟨S1048576x3, .i1⟩
  | 29 => ⟨S_, .i1⟩
  | 30 => ⟨S1048576, .i1⟩
  | 31 => ⟨S1048576, .f32⟩
  | 32 => ⟨S1x1048576, .i32⟩
  | 33 => ⟨S1048576, .i32⟩
  | 34 => ⟨S_, .i32⟩
  | 35 => ⟨S1048576, .i32⟩
  | 36 => ⟨S1048576, .i1⟩
  | 37 => ⟨S_, .i32⟩
  | 38 => ⟨S1048576, .i32⟩
  | 39 => ⟨S1048576, .i32⟩
  | 40 => ⟨S1048576, .i32⟩
  | 41 => ⟨S1048576x1, .i32⟩
  | 42 => ⟨S1048576x3, .f32⟩
  | 43 => ⟨S1x1048576, .i32⟩
  | 44 => ⟨S1048576, .i32⟩
  | 45 => ⟨S_, .i32⟩
  | 46 => ⟨S1048576, .i32⟩
  | 47 => ⟨S1048576, .i1⟩
  | 48 => ⟨S_, .i32⟩
  | 49 => ⟨S1048576, .i32⟩
  | 50 => ⟨S1048576, .i32⟩
  | 51 => ⟨S1048576, .i32⟩
  | 52 => ⟨S1048576x1, .i32⟩
  | 53 => ⟨S1048576x3, .f32⟩
  | 54 => ⟨S1048576x3, .f32⟩
  | 55 => ⟨S1048576x3, .f32⟩
  | 56 => ⟨S1048576x1, .f32⟩
  | 57 => ⟨S1048576x3, .f32⟩
  | 58 => ⟨S1048576x3, .f32⟩
  | 59 => ⟨S1048576x3, .f32⟩
  | 60 => ⟨S_, .f32⟩
  | 61 => ⟨S1048576, .f32⟩
  | 62 => ⟨S_, .f32⟩
  | 63 => ⟨S1048576, .f32⟩
  | 64 => ⟨S1048576, .f32⟩
  | 65 => ⟨S1048576, .f32⟩
  | 66 => ⟨S1x64, .f32⟩
  | 67 => ⟨S1x64, .f32⟩
  | 68 => ⟨S1048576x1, .f32⟩
  | 69 => ⟨S1x64, .f32⟩
  | 70 => ⟨S1048576x64, .f32⟩
  | 71 => ⟨S1048576x64, .f32⟩
  | 72 => ⟨S1048576x64, .f32⟩
  | 73 => ⟨S1048576x64, .f32⟩
  | 74 => ⟨S1048576x64, .f32⟩
  | 75 => ⟨S1048576x64, .f32⟩
  | 76 => ⟨S1048576x64, .f32⟩
  | 77 => ⟨S_, .f32⟩
  | 78 => ⟨S1048576, .f32⟩
  | 79 => ⟨S1048576, .f32⟩
  | 80 => ⟨S_, .f32⟩
  | 81 => ⟨S1048576, .f32⟩
  | 82 => ⟨S1048576, .f32⟩
  | 83 => ⟨S1048576, .f32⟩
  | 84 => ⟨S_, .f32⟩
  | 85 => ⟨S1048576, .f32⟩
  | 86 => ⟨S1048576, .f32⟩
  | 87 => ⟨S_, .f32⟩
  | 88 => ⟨S1048576, .f32⟩
  | 89 => ⟨S1048576, .f32⟩
  | 90 => ⟨S_, .f32⟩
  | 91 => ⟨S1048576, .f32⟩
  | 92 => ⟨S1048576, .i1⟩
  | 93 => ⟨S1048576, .f32⟩
  | 94 => ⟨S1048576, .f32⟩
  | 95 => ⟨S1048576, .f32⟩
  | 96 => ⟨S1048576x1, .f32⟩
  | 97 => ⟨S1048576x64, .f32⟩
  | 98 => ⟨S1048576x64, .f32⟩
  | 99 => ⟨S1x1048576, .i32⟩
  | 100 => ⟨S1048576, .i32⟩
  | 101 => ⟨S_, .i32⟩
  | 102 => ⟨S1048576, .i32⟩
  | 103 => ⟨S1048576, .i1⟩
  | 104 => ⟨S_, .i32⟩
  | 105 => ⟨S1048576, .i32⟩
  | 106 => ⟨S1048576, .i32⟩
  | 107 => ⟨S1048576, .i32⟩
  | 108 => ⟨S1048576x1, .i32⟩
  | 109 => ⟨S1048576, .i32⟩
  | 110 => ⟨S_, .i32⟩
  | 111 => ⟨S1048576, .i32⟩
  | 112 => ⟨S1048576, .i1⟩
  | 113 => ⟨S_, .i32⟩
  | 114 => ⟨S1048576, .i32⟩
  | 115 => ⟨S1048576, .i32⟩
  | 116 => ⟨S1048576, .i32⟩
  | 117 => ⟨S1048576x1, .i32⟩
  | 118 => ⟨S1048576x64, .f32⟩
  | 119 => ⟨S1048576x64, .f32⟩
  | 120 => ⟨S1x1048576, .i32⟩
  | 121 => ⟨S1048576, .i32⟩
  | 122 => ⟨S_, .f32⟩
  | 123 => ⟨S16384x64, .f32⟩
  | 124 => ⟨S1048576x1, .i32⟩
  | 125 => ⟨S16384x64, .f32⟩
  | 126 => ⟨S16384x256, .f32⟩
  | 127 => ⟨S1x256, .f32⟩
  | _ => ⟨S32x512x3, .f32⟩

abbrev hbmTy0_1 (i : Nat) : BufTy := match i % 128 with
  | 0 => ⟨S16384x256, .f32⟩
  | 1 => ⟨S16384x256, .f32⟩
  | 2 => ⟨S16384x256, .f32⟩
  | 3 => ⟨S16384x256, .f32⟩
  | 4 => ⟨S_, .f32⟩
  | 5 => ⟨S16384x256, .f32⟩
  | 6 => ⟨S16384x256, .f32⟩
  | 7 => ⟨S_, .f32⟩
  | 8 => ⟨S16384x256, .f32⟩
  | 9 => ⟨S16384x256, .f32⟩
  | 10 => ⟨S16384x256, .f32⟩
  | 11 => ⟨S16384x1, .f32⟩
  | 12 => ⟨S1x1, .f32⟩
  | 13 => ⟨S16384x1, .f32⟩
  | 14 => ⟨S16384x1, .f32⟩
  | 15 => ⟨S16384, .f32⟩
  | 16 => ⟨S1x1048576, .i32⟩
  | 17 => ⟨S1048576, .i32⟩
  | 18 => ⟨S_, .f32⟩
  | 19 => ⟨S16384x3, .f32⟩
  | 20 => ⟨S1048576x1, .i32⟩
  | 21 => ⟨S16384x3, .f32⟩
  | 22 => ⟨S16384x1, .f32⟩
  | 23 => ⟨S16384x3, .f32⟩
  | 24 => ⟨S16384x3, .f32⟩
  | 25 => ⟨S32x512x3, .f32⟩
  | 26 => ⟨S_, .f32⟩
  | 27 => ⟨S32x3, .f32⟩
  | _ => ⟨S32x512x3, .f32⟩

abbrev hbmTy (i : Nat) : BufTy := match i / 128 with
  | 0 => hbmTy0_0 i
  | 1 => hbmTy0_1 i
  | _ => ⟨S32x512x3, .f32⟩

abbrev bufTy : (tb : Table) → Fin (tcTables nBuf tb) → BufTy
  | .hbm, ⟨i, _⟩ => hbmTy i
  | _, _ => ⟨S32x512x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_c : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst : Ref sig .tc := ⟨.hbm, 26, rfl⟩
abbrev main_v13 : Ref sig .tc := ⟨.hbm, 27, rfl⟩
abbrev main_v14 : Ref sig .tc := ⟨.hbm, 28, rfl⟩
abbrev main_c_0 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_c_1 : Ref sig .tc := ⟨.hbm, 34, rfl⟩
abbrev main_v19 : Ref sig .tc := ⟨.hbm, 35, rfl⟩
abbrev main_v20 : Ref sig .tc := ⟨.hbm, 36, rfl⟩
abbrev main_c_2 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_c_3 : Ref sig .tc := ⟨.hbm, 45, rfl⟩
abbrev main_v28 : Ref sig .tc := ⟨.hbm, 46, rfl⟩
abbrev main_v29 : Ref sig .tc := ⟨.hbm, 47, rfl⟩
abbrev main_c_4 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_5 : Ref sig .tc := ⟨.hbm, 60, rfl⟩
abbrev main_v41 : Ref sig .tc := ⟨.hbm, 61, rfl⟩
abbrev main_cst_6 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_7 : Ref sig .tc := ⟨.hbm, 77, rfl⟩
abbrev main_v56 : Ref sig .tc := ⟨.hbm, 78, rfl⟩
abbrev main_v57 : Ref sig .tc := ⟨.hbm, 79, rfl⟩
abbrev main_cst_8 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_cst_9 : Ref sig .tc := ⟨.hbm, 84, rfl⟩
abbrev main_v61 : Ref sig .tc := ⟨.hbm, 85, rfl⟩
abbrev main_v62 : Ref sig .tc := ⟨.hbm, 86, rfl⟩
abbrev main_cst_10 : Ref sig .tc := ⟨.hbm, 87, rfl⟩
abbrev main_v63 : Ref sig .tc := ⟨.hbm, 88, rfl⟩
abbrev main_v64 : Ref sig .tc := ⟨.hbm, 89, rfl⟩
abbrev main_cst_11 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_c_12 : Ref sig .tc := ⟨.hbm, 101, rfl⟩
abbrev main_v75 : Ref sig .tc := ⟨.hbm, 102, rfl⟩
abbrev main_v76 : Ref sig .tc := ⟨.hbm, 103, rfl⟩
abbrev main_c_13 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_c_14 : Ref sig .tc := ⟨.hbm, 110, rfl⟩
abbrev main_v82 : Ref sig .tc := ⟨.hbm, 111, rfl⟩
abbrev main_v83 : Ref sig .tc := ⟨.hbm, 112, rfl⟩
abbrev main_c_15 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_cst_16 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_call0_v0 : Ref sig .tc := ⟨.hbm, 130, rfl⟩
abbrev main_call0_v1 : Ref sig .tc := ⟨.hbm, 131, rfl⟩
abbrev main_call0_cst : Ref sig .tc := ⟨.hbm, 132, rfl⟩
abbrev main_call0_v2 : Ref sig .tc := ⟨.hbm, 133, rfl⟩
abbrev main_call0_v3 : Ref sig .tc := ⟨.hbm, 134, rfl⟩
abbrev main_call0_cst_0 : Ref sig .tc := ⟨.hbm, 135, rfl⟩
abbrev main_call0_v4 : Ref sig .tc := ⟨.hbm, 136, rfl⟩
abbrev main_call0_v5 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_cst_17 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_cst_18 : Ref sig .tc := ⟨.hbm, 154, rfl⟩
abbrev main_v114 : Ref sig .tc := ⟨.hbm, 155, rfl⟩

abbrev nD : Nat := 1
abbrev τ : Topo := Topo.v7x

variable {F : FTy → Type} [FloatOps F]

class Facts₀ : Prop where
  shapeCasts_S32x512_S16384 : S32x512.ShapeCasts S16384
  shapeCasts_S32x512x3_S16384x3 : S32x512x3.ShapeCasts S16384x3
  bcast_S_S32 : S_.BroadcastsInDim S32 (![] : Fin 0 → Fin S32.rank)
  bcast_S32_S32x1_0 : S32.BroadcastsInDim S32x1 (![0] : Fin 1 → Fin S32x1.rank)
  bcast_S32x1_S32x32768_0_1 : S32x1.BroadcastsInDim S32x32768 (![0, 1] : Fin 2 → Fin S32x32768.rank)
  shapeCasts_S32x32768_S1048576 : S32x32768.ShapeCasts S1048576
  shapeCasts_S2x32x32768_S2x1048576 : S2x32x32768.ShapeCasts S2x1048576
  bcast_S1048576_S1x1048576_1 : S1048576.BroadcastsInDim S1x1048576 (![1] : Fin 1 → Fin S1x1048576.rank)
  bcast_S1x1048576_S2x1048576_0_1 : S1x1048576.BroadcastsInDim S2x1048576 (![0, 1] : Fin 2 → Fin S2x1048576.rank)
  shapeCasts_S32x32768x3_S1048576x3 : S32x32768x3.ShapeCasts S1048576x3
  bcast_S_S1048576x3 : S_.BroadcastsInDim S1048576x3 (![] : Fin 0 → Fin S1048576x3.rank)
  reducesTo_S1048576x3_S1048576_d1 : S1048576x3.ReducesTo [1] S1048576
  h_S_ : 0 < S_.numel
  slices_S2x1048576_S1x1048576_0_0 : S2x1048576.Slices ![0, 0] S1x1048576
  shapeCasts_S1x1048576_S1048576 : S1x1048576.ShapeCasts S1048576
  bcast_S_S1048576 : S_.BroadcastsInDim S1048576 (![] : Fin 0 → Fin S1048576.rank)
  bcast_S1048576_S1048576x1_0 : S1048576.BroadcastsInDim S1048576x1 (![0] : Fin 1 → Fin S1048576x1.rank)
  slices_S2x1048576_S1x1048576_1_0 : S2x1048576.Slices ![1, 0] S1x1048576
  bcast_S1048576x1_S1048576x3_0_1 : S1048576x1.BroadcastsInDim S1048576x3 (![0, 1] : Fin 2 → Fin S1048576x3.rank)
  bcast_S64_S1x64_1 : S64.BroadcastsInDim S1x64 (![1] : Fin 1 → Fin S1x64.rank)
  bcast_S1048576x1_S1048576x64_0_1 : S1048576x1.BroadcastsInDim S1048576x64 (![0, 1] : Fin 2 → Fin S1048576x64.rank)
  bcast_S1x64_S1048576x64_0_1 : S1x64.BroadcastsInDim S1048576x64 (![0, 1] : Fin 2 → Fin S1048576x64.rank)
  bcast_S_S16384x64 : S_.BroadcastsInDim S16384x64 (![] : Fin 0 → Fin S16384x64.rank)
  bcast_S256_S1x256_1 : S256.BroadcastsInDim S1x256 (![1] : Fin 1 → Fin S1x256.rank)
  bcast_S1x256_S16384x256_0_1 : S1x256.BroadcastsInDim S16384x256 (![0, 1] : Fin 2 → Fin S16384x256.rank)
  bcast_S_S16384x256 : S_.BroadcastsInDim S16384x256 (![] : Fin 0 → Fin S16384x256.rank)
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  shapeCasts_S16384x1_S16384 : S16384x1.ShapeCasts S16384
  bcast_S_S16384x3 : S_.BroadcastsInDim S16384x3 (![] : Fin 0 → Fin S16384x3.rank)
  bcast_S16384_S16384x1_0 : S16384.BroadcastsInDim S16384x1 (![0] : Fin 1 → Fin S16384x1.rank)
  bcast_S16384x1_S16384x3_0_1 : S16384x1.BroadcastsInDim S16384x3 (![0, 1] : Fin 2 → Fin S16384x3.rank)
  shapeCasts_S16384x3_S32x512x3 : S16384x3.ShapeCasts S32x512x3
  reducesTo_S32x512x3_S32x3_d1 : S32x512x3.ReducesTo [1] S32x3
  gather_S16384x3_S1048576x1_S1048576x3_1_0_n_n_0_1_13_wf : GatherDims.WF S16384x3 S1048576x1 S1048576x3 [1] [0] [] [0] [] 1 ![1, 3]
  gather_S16384_S1048576x1_S1048576_n_0_n_n_0_1_1_wf : GatherDims.WF S16384 S1048576x1 S1048576 [] [0] [] [0] [] 1 ![1]
  gather_S8x64_S1048576x1_S1048576x64_1_0_n_n_0_1_164_wf : GatherDims.WF S8x64 S1048576x1 S1048576x64 [1] [0] [] [0] [] 1 ![1, 64]
  scatter_S16384x64_S1048576x1_S1048576x64_1_0_0_1_wf : ScatterDims.WF S16384x64 S1048576x1 S1048576x64 [1] [0] [0] 1
  dot_S16384x64_S64x256_S16384x256_1_0_0_1_n_n_wf : DotDims.WF S16384x64 S64x256 S16384x256 [1] [0] [0] [1] [] []
  dot_S16384x256_S256x1_S16384x1_1_0_0_1_n_n_wf : DotDims.WF S16384x256 S256x1 S16384x1 [1] [0] [0] [1] [] []
  scatter_S16384x3_S1048576x1_S1048576x3_1_0_0_1_wf : ScatterDims.WF S16384x3 S1048576x1 S1048576x3 [1] [0] [0] 1

variable [Facts₀]

def gather_S16384x3_S1048576x1_S1048576x3_1_0_n_n_0_1_13 : GatherDims S16384x3 S1048576x1 S1048576x3 where
  offsetDims := [1]
  collapsedSliceDims := [0]
  operandBatchingDims := []
  startIndicesBatchingDims := []
  startIndexMap := [0]
  indexVectorDim := 1
  sliceSizes := ![1, 3]
  wf := gather_S16384x3_S1048576x1_S1048576x3_1_0_n_n_0_1_13_wf
def gather_S16384_S1048576x1_S1048576_n_0_n_n_0_1_1 : GatherDims S16384 S1048576x1 S1048576 where
  offsetDims := []
  collapsedSliceDims := [0]
  operandBatchingDims := []
  startIndicesBatchingDims := []
  startIndexMap := [0]
  indexVectorDim := 1
  sliceSizes := ![1]
  wf := gather_S16384_S1048576x1_S1048576_n_0_n_n_0_1_1_wf
def gather_S8x64_S1048576x1_S1048576x64_1_0_n_n_0_1_164 : GatherDims S8x64 S1048576x1 S1048576x64 where
  offsetDims := [1]
  collapsedSliceDims := [0]
  operandBatchingDims := []
  startIndicesBatchingDims := []
  startIndexMap := [0]
  indexVectorDim := 1
  sliceSizes := ![1, 64]
  wf := gather_S8x64_S1048576x1_S1048576x64_1_0_n_n_0_1_164_wf
def scatter_S16384x64_S1048576x1_S1048576x64_1_0_0_1 : ScatterDims S16384x64 S1048576x1 S1048576x64 where
  updateWindowDims := [1]
  insertedWindowDims := [0]
  scatterDimsToOperandDims := [0]
  indexVectorDim := 1
  wf := scatter_S16384x64_S1048576x1_S1048576x64_1_0_0_1_wf
def dot_S16384x64_S64x256_S16384x256_1_0_0_1_n_n : DotDims S16384x64 S64x256 S16384x256 where
  lhsContracting := [1]
  rhsContracting := [0]
  lhsNonContracting := [0]
  rhsNonContracting := [1]
  lhsBatch := []
  rhsBatch := []
  wf := dot_S16384x64_S64x256_S16384x256_1_0_0_1_n_n_wf
def dot_S16384x256_S256x1_S16384x1_1_0_0_1_n_n : DotDims S16384x256 S256x1 S16384x1 where
  lhsContracting := [1]
  rhsContracting := [0]
  lhsNonContracting := [0]
  rhsNonContracting := [1]
  lhsBatch := []
  rhsBatch := []
  wf := dot_S16384x256_S256x1_S16384x1_1_0_0_1_n_n_wf
def scatter_S16384x3_S1048576x1_S1048576x3_1_0_0_1 : ScatterDims S16384x3 S1048576x1 S1048576x3 where
  updateWindowDims := [1]
  insertedWindowDims := [0]
  scatterDimsToOperandDims := [0]
  indexVectorDim := 1
  wf := scatter_S16384x3_S1048576x1_S1048576x3_1_0_0_1_wf

class Facts : Prop extends Facts₀ where

variable [Facts]
-- ==== Proof.PreFacts.lean ====
/-
  What the precondition says of the inputs: the coordinates and the shifts are real numbers, every species word is the
  word of a number below 8, every atom index word the word of a number below 512. The precondition is a conjunction of
  "all entries satisfy a comparison" tests; each conjunct is opened to its entries, a strict bound |x| < +∞ on an
  extended real makes it a real, and a signed word in [0, n) is the word of its own unsigned value.
-/
import proofs.«426414_j9629316677964_3_alg».proof.Pre_finite_inputs
import Idealize.ShloMosaic.Lib.ReduceAll
import Idealize.ShloMosaic.Lib.ValueIdx
import Idealize.ShloMosaic.Lib.Affine
import Idealize.ShloMosaic.PureOps.Ideal

noncomputable section
namespace Cert.PreFacts
open Idealize.ShloMosaic Idealize.ShloMosaic.ValueIdx Cert.Pre_finite_inputs

theorem finite_of_lt {s : Shape} (a : FVec Ideal s .f32) (hb : S_.BroadcastsInDim s (![] : Fin 0 → Fin s.rank)) (i : s.Idx)
    (h : cmpf .olt (Host.absf a) (broadcastInDim s ![] hb (constant S_ .f32 0x7F800000#32)) i = 1#1) :
    ∃ r : ℝ, a i = (r : EReal) := by
  have h' : Ideal.cmp .olt (max (a i) (-(a i))) (Ideal.ofBits .f32 0x7F800000#32) = 1#1 := h
  have htop : Ideal.ofBits .f32 0x7F800000#32 = (⊤ : EReal) := by
    simp [Ideal.ofBits, Ideal.ieee]
  rw [htop] at h'
  simp only [Ideal.cmp] at h'
  have h2 : a i < ⊤ ∧ -a i < ⊤ := by
    rcases Bool.eq_false_or_eq_true (decide (max (a i) (-a i) < ⊤)) with hh | hh
    · simpa using hh
    · rw [hh] at h'
      exact absurd h' (by decide)
  have hnt : a i ≠ ⊤ := ne_of_lt h2.1
  have hnb : a i ≠ ⊥ := by
    intro hb'
    rw [hb'] at h2
    simp at h2
  exact ⟨(a i).toReal, (EReal.coe_toReal hnt hnb).symm⟩

theorem ge_of_cmp {s : Shape} (a : IVec s 32) (hb : S_.BroadcastsInDim s (![] : Fin 0 → Fin s.rank)) (i : s.Idx) (n : BitVec 32)
    (h : cmpi .sge a (broadcastInDim s ![] hb (constantI S_ 32 n)) i = 1#1) : n.toInt ≤ (a i).toInt := by
  have h' : IntOp.cmpi .sge (a i) n = 1#1 := h
  exact IntOp.cmpi_sge.1 h'

theorem lt_of_cmp {s : Shape} (a : IVec s 32) (hb : S_.BroadcastsInDim s (![] : Fin 0 → Fin s.rank)) (i : s.Idx) (n : BitVec 32)
    (h : cmpi .slt a (broadcastInDim s ![] hb (constantI S_ 32 n)) i = 1#1) : (a i).toInt < n.toInt := by
  have h' : IntOp.cmpi .slt (a i) n = 1#1 := h
  exact IntOp.cmpi_slt.1 h'

/-- A 32-bit word whose signed value lies in [0, n) is the word of a number below n. -/
theorem word_of_range (x : BitVec 32) (n : Nat) (hn : n < 2 ^ 31) (h0 : 0 ≤ x.toInt) (h1 : x.toInt < (n : Int)) :
    ∃ j : Fin n, x = BitVec.ofNat 32 j.val := by
  have hx : x.toInt = (x.toNat : Int) := by
    rw [BitVec.toInt_eq_toNat_cond] at h0 ⊢
    split_ifs with hc
    · rfl
    · exfalso
      rw [if_neg hc] at h0
      have := x.isLt
      omega
  refine ⟨⟨x.toNat, by omega⟩, ?_⟩
  simp

instance : Subsingleton S_.Idx := ⟨fun a b => funext fun d => d.elim0⟩

variable [Facts]

theorem decode (a0 : FVec Ideal S32x512x3 .f32) (a1 : FVec Ideal S32x32768x3 .f32) (a2 a3 : FVec Ideal S64 .f32) (a4 : FVec Ideal S8x64 .f32)
    (a5 : FVec Ideal S64x256 .f32) (a6 : FVec Ideal S256 .f32) (a7 : FVec Ideal S256x1 .f32) (a8 : FVec Ideal S1 .f32)
    (a9 : IVec S32 32) (a10 : IVec S32x512 32) (a11 : IVec S2x32x32768 32)
    (h : fn (F := Ideal) a0 a1 a2 a3 a4 a5 a6 a7 a8 a9 a10 a11 = fun _ => 1#1) :
    (∀ i, ∃ r : ℝ, a0 i = (r : EReal)) ∧ (∀ i, ∃ r : ℝ, a1 i = (r : EReal))
      ∧ (∀ i, ∃ j : Fin 8, a10 i = BitVec.ofNat 32 j.val) ∧ (∀ i, ∃ j : Fin 512, a11 i = BitVec.ofNat 32 j.val) := by
  have h0 := congrFun h ValueIdx.ix0
  dsimp only [fn, fn_part1, fn_part2, fn_part3] at h0
  obtain ⟨h0, hd⟩ := IntOp.andi_eq_one.1 h0
  obtain ⟨h0, hc⟩ := IntOp.andi_eq_one.1 h0
  obtain ⟨h0, hb⟩ := IntOp.andi_eq_one.1 h0
  obtain ⟨h0, ha⟩ := IntOp.andi_eq_one.1 h0
  obtain ⟨h0, -⟩ := IntOp.andi_eq_one.1 h0
  obtain ⟨h0, -⟩ := IntOp.andi_eq_one.1 h0
  obtain ⟨h0, -⟩ := IntOp.andi_eq_one.1 h0
  obtain ⟨h0, -⟩ := IntOp.andi_eq_one.1 h0
  obtain ⟨h0, -⟩ := IntOp.andi_eq_one.1 h0
  obtain ⟨h0, -⟩ := IntOp.andi_eq_one.1 h0
  obtain ⟨h0, -⟩ := IntOp.andi_eq_one.1 h0
  obtain ⟨hx0, hx1⟩ := IntOp.andi_eq_one.1 h0
  refine ⟨fun i => finite_of_lt a0 _ i (Host.reduce_andi_all _ _ _ _ _ hx0 i),
    fun i => finite_of_lt a1 _ i (Host.reduce_andi_all _ _ _ _ _ hx1 i), fun i => ?_, fun i => ?_⟩
  · have g0 := ge_of_cmp a10 _ i _ (Host.reduce_andi_all _ _ _ _ _ ha i)
    have g1 := lt_of_cmp a10 _ i _ (Host.reduce_andi_all _ _ _ _ _ hb i)
    exact word_of_range _ 8 (by norm_num) (by simpa using g0) (by simpa using g1)
  · have g0 := ge_of_cmp a11 _ i _ (Host.reduce_andi_all _ _ _ _ _ hc i)
    have g1 := lt_of_cmp a11 _ i _ (Host.reduce_andi_all _ _ _ _ _ hd i)
    exact word_of_range _ 512 (by norm_num) (by simpa using g0) (by simpa using g1)

/-- The index words as numbers: functions into Fin 8 and Fin 512 whose words the integer inputs are. -/
theorem tables (a0 : FVec Ideal S32x512x3 .f32) (a1 : FVec Ideal S32x32768x3 .f32) (a2 a3 : FVec Ideal S64 .f32) (a4 : FVec Ideal S8x64 .f32)
    (a5 : FVec Ideal S64x256 .f32) (a6 : FVec Ideal S256 .f32) (a7 : FVec Ideal S256x1 .f32) (a8 : FVec Ideal S1 .f32)
    (a9 : IVec S32 32) (a10 : IVec S32x512 32) (a11 : IVec S2x32x32768 32)
    (h : fn (F := Ideal) a0 a1 a2 a3 a4 a5 a6 a7 a8 a9 a10 a11 = fun _ => 1#1) :
    ∃ (sp : Fin 32 → Fin 512 → Fin 8) (i0 i1 : Fin 32 → Fin 32768 → Fin 512),
      (∀ mm a, a10 (ix2 mm a) = BitVec.ofNat 32 (sp mm a).val)
      ∧ (∀ mm p, a11 (ix3 (0 : Fin 2) mm p) = BitVec.ofNat 32 (i0 mm p).val)
      ∧ (∀ mm p, a11 (ix3 (1 : Fin 2) mm p) = BitVec.ofNat 32 (i1 mm p).val) := by
  obtain ⟨-, -, hs, hi⟩ := decode a0 a1 a2 a3 a4 a5 a6 a7 a8 a9 a10 a11 h
  choose fs hfs using hs
  choose fi hfi using hi
  exact ⟨fun mm a => fs (ix2 mm a), fun mm p => fi (ix3 (0 : Fin 2) mm p), fun mm p => fi (ix3 (1 : Fin 2) mm p),
    fun mm a => hfs _, fun mm p => hfi _, fun mm p => hfi _⟩

end Cert.PreFacts
end
-- ==== Proof.KStep.lean ====
/-
  One chunk of 2048 pairs, as the kernel's body computes it from the blocks it loads: what it leaves in the two
  accumulators. `stepD` is the density accumulator [64, 512] after the chunk (basis row, atom column), `stepT` the
  vector accumulator [3, 512] (component row, atom column), each as a function of the blocks of the point
  (coordinates, embedding rows, the chunk's two index rows, shifts, centers, widths) and of the accumulator before.
-/
import proofs.«426414_j9629316677964_3_alg».proof.Proof.Gen.KernelIdeal.Skeleton

noncomputable section

namespace Cert.KernelIdeal.KStep

open Idealize.ShloMosaic Cert.KernelIdeal.Gen

variable {F : FTy → Type} [FloatOps F]

/-- The density accumulator after one chunk. -/
def stepD (x0 : Vec F S1x3x512 .f32) (x1 : Vec F S1x64x512 .bf16) (v3 v5 : Vec F S1x1x2048 .i32)
    (x3 : Vec F S1x3x2048 .f32) (x4 x5 : Vec F S64x1 .f32) (xs0 : Vec F S64x512 .f32) : FVec F S64x512 .f32 :=
  k0_pay2 (k0_pay7 v3) (k0_pay10 v5 x1) (k0_pay12 x3) (k0_pay13 (k0_pay9 v3 v5 x0) x3)
    (k0_pay14 (k0_pay9 v3 v5 x0) x3) (k0_pay15 (k0_pay9 v3 v5 x0) x3 x4 x5) (k0_pay16 (k0_pay9 v3 v5 x0) x3)
    (Scalar.ofBits .f32 0x40A00000#32) xs0

/-- The vector accumulator after one chunk. -/
def stepT (x0 : Vec F S1x3x512 .f32) (x1 : Vec F S1x64x512 .bf16) (v3 v5 : Vec F S1x1x2048 .i32)
    (x3 : Vec F S1x3x2048 .f32) (x4 x5 : Vec F S64x1 .f32) (xs1 : Vec F S3x512 .f32) : FVec F S3x512 .f32 :=
  k0_pay3 (k0_pay7 v3) (k0_pay10 v5 x1) (k0_pay12 x3) (k0_pay13 (k0_pay9 v3 v5 x0) x3)
    (k0_pay14 (k0_pay9 v3 v5 x0) x3) (k0_pay15 (k0_pay9 v3 v5 x0) x3 x4 x5) (k0_pay16 (k0_pay9 v3 v5 x0) x3)
    (Scalar.ofBits .f32 0x40A00000#32) xs1

end Cert.KernelIdeal.KStep

end
-- ==== Proof.KFramePieces.lean ====
/-
  What the body leaves, case by case, as the chunk step and the head of the payloads.

  At every grid point the body adds the chunk's contribution into the two carried accumulators (density [64, 512] and
  vector [3, 512]): the step stepD / stepT of what it found there — at the first chunk of a molecule of the zero blocks
  it has just stored. At the last chunk it also stores the molecule's dipole, the head of the payloads applied to the two
  accumulators as this point leaves them. The two index rows of the chunk are the two unit-height slices of the [1, 2, 2048]
  index block.
-/
import proofs.«426414_j9629316677964_3_alg».proof.Proof.Gen.KernelIdeal.Frame
import proofs.«426414_j9629316677964_3_alg».proof.Proof.KStep
import Idealize.ShloMosaic.Lib.Pipeline.Value
import Idealize.ShloMosaic.Lib.ValueIdx
import Idealize.ShloMosaic.Lib.Tactic

noncomputable section

namespace Cert.KernelIdeal.KFramePieces

open Idealize.ShloMosaic Idealize.ShloMosaic.TcCoe Idealize.ShloMosaic.Tactic Idealize.SL.Sem
open Idealize.ShloMosaic.ValueIdx
open Cert.KernelIdeal Cert.KernelIdeal.Gen Cert.KernelIdeal.KStep

variable {F : FTy → Type} [FloatOps F]

theorem hz1 : (![0] : Fin 1 → Nat) = fun _ => 0 := funext fun a => by fin_cases a; rfl
theorem hz2 : (![0, 0] : Fin 2 → Nat) = fun _ => 0 := funext fun a => by fin_cases a <;> rfl
theorem hz3 : (![0, 0, 0] : Fin 3 → Nat) = fun _ => 0 := funext fun a => by fin_cases a <;> rfl

/-- The first index row of the chunk: row 0 of the [1, 2, 2048] index block. -/
def idxRow0 (x2 : Vec F S1x2x2048 .i32) : Vec F S1x1x2048 .i32 :=
  View.ld x2 (Rect.unit ![0, 0, 0] S1x1x2048.size inb_S1x2x2048_S1x1x2048_0_0_0)

/-- The second index row of the chunk: row 1 of the index block. -/
def idxRow1 (x2 : Vec F S1x2x2048 .i32) : Vec F S1x1x2048 .i32 :=
  View.ld x2 (Rect.unit ![0, 1, 0] S1x1x2048.size inb_S1x2x2048_S1x1x2048_0_1_0)

theorem idxRow0_apply (x2 : Vec F S1x2x2048 .i32) (q : Fin 2048) : idxRow0 x2 (ix3 0 0 q) = x2 (ix3 0 0 q) := by
  show x2 _ = x2 _
  congr 1
  funext a
  refine Fin.ext ?_
  match a with
  | ⟨0, _⟩ => rfl
  | ⟨1, _⟩ => rfl
  | ⟨2, _⟩ => show 0 + 1 * q.val = q.val; omega

theorem idxRow1_apply (x2 : Vec F S1x2x2048 .i32) (q : Fin 2048) : idxRow1 x2 (ix3 0 0 q) = x2 (ix3 0 1 q) := by
  show x2 _ = x2 _
  congr 1
  funext a
  refine Fin.ext ?_
  match a with
  | ⟨0, _⟩ => rfl
  | ⟨1, _⟩ => rfl
  | ⟨2, _⟩ => show 0 + 1 * q.val = q.val; omega

theorem sA0 (c : Dev nD) (i : grid0.Coords) (arg2 : Memref sig .tc .vmem S1x3x512 .f32) (harg2 : arg2.IsWhole) (arg3 : Memref sig .tc .vmem S1x64x512 .bf16) (harg3 : arg3.IsWhole) (arg4 : Memref sig .tc .vmem S1x2x2048 .i32) (harg4 : arg4.IsWhole) (arg5 : Memref sig .tc .vmem S1x3x2048 .f32) (harg5 : arg5.IsWhole) (arg6 : Memref sig .tc .vmem S64x1 .f32) (harg6 : arg6.IsWhole) (arg7 : Memref sig .tc .vmem S64x1 .f32) (harg7 : arg7.IsWhole) (arg8 : Memref sig .tc .vmem S64x256 .f32) (harg8 : arg8.IsWhole) (arg9 : Memref sig .tc .vmem S256 .f32) (harg9 : arg9.IsWhole) (arg10 : Memref sig .tc .vmem S256x1 .f32) (harg10 : arg10.IsWhole) (arg11 : Memref sig .tc .vmem S1 .f32) (harg11 : arg11.IsWhole) (arg12 : Memref sig .tc .vmem S1x1x3 .f32) (harg12 : arg12.IsWhole) (arg13 : Memref sig .tc .vmem S64x512 .f32) (harg13 : arg13.IsWhole) (arg14 : Memref sig .tc .vmem S3x512 .f32) (harg14 : arg14.IsWhole) (hc0 : cond0_0 i) (hc1 : ¬cond0_1 i) (x0 : Vec F S1x3x512 .f32) (x1 : Vec F S1x64x512 .bf16) (x2 : Vec F S1x2x2048 .i32) (x3 : Vec F S1x3x2048 .f32) (x4 : Vec F S64x1 .f32) (x5 : Vec F S64x1 .f32) (x6 : Vec F S64x256 .f32) (x7 : Vec F S256 .f32) (x8 : Vec F S256x1 .f32) (x9 : Vec F S1 .f32) :
    sout0_A_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 = stepD x0 x1 (idxRow0 x2) (idxRow1 x2) x3 x4 x5 k0_pay5 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9)]
  unfold kernelRun0_A
  dsimp only
  sl_unfold_words
  rw [View.canon_cons_unit_zero (S := S64x512) hz2, View.readCov_unit_zero (S := S64x512) _ hz2]
  unfold stepD idxRow0 idxRow1
  simp only [View.readAt_eq_ld, harg2.read_unread, harg3.read_unread, harg4.read_unread, harg5.read_unread, harg6.read_unread, harg7.read_unread, harg8.read_unread, harg9.read_unread, harg10.read_unread, harg11.read_unread, harg13.read_unread, harg14.read_unread, View.ld_unit_zero (S := S1x3x512) hz3, View.ld_unit_zero (S := S1x64x512) hz3, View.ld_unit_zero (S := S1x3x2048) hz3, View.ld_unit_zero (S := S64x1) hz2, View.ld_unit_zero (S := S64x512) hz2, View.ld_unit_zero (S := S3x512) hz2, View.ld_unit_zero (S := S64x256) hz2, View.ld_unit_zero (S := S256) hz1, View.ld_unit_zero (S := S256x1) hz2, View.ld_unit_zero (S := S1) hz1, View.readCov_unit_zero (S := S64x512) _ hz2, View.readCov_unit_zero (S := S3x512) _ hz2]

theorem sA1 (c : Dev nD) (i : grid0.Coords) (arg2 : Memref sig .tc .vmem S1x3x512 .f32) (harg2 : arg2.IsWhole) (arg3 : Memref sig .tc .vmem S1x64x512 .bf16) (harg3 : arg3.IsWhole) (arg4 : Memref sig .tc .vmem S1x2x2048 .i32) (harg4 : arg4.IsWhole) (arg5 : Memref sig .tc .vmem S1x3x2048 .f32) (harg5 : arg5.IsWhole) (arg6 : Memref sig .tc .vmem S64x1 .f32) (harg6 : arg6.IsWhole) (arg7 : Memref sig .tc .vmem S64x1 .f32) (harg7 : arg7.IsWhole) (arg8 : Memref sig .tc .vmem S64x256 .f32) (harg8 : arg8.IsWhole) (arg9 : Memref sig .tc .vmem S256 .f32) (harg9 : arg9.IsWhole) (arg10 : Memref sig .tc .vmem S256x1 .f32) (harg10 : arg10.IsWhole) (arg11 : Memref sig .tc .vmem S1 .f32) (harg11 : arg11.IsWhole) (arg12 : Memref sig .tc .vmem S1x1x3 .f32) (harg12 : arg12.IsWhole) (arg13 : Memref sig .tc .vmem S64x512 .f32) (harg13 : arg13.IsWhole) (arg14 : Memref sig .tc .vmem S3x512 .f32) (harg14 : arg14.IsWhole) (hc0 : cond0_0 i) (hc1 : ¬cond0_1 i) (x0 : Vec F S1x3x512 .f32) (x1 : Vec F S1x64x512 .bf16) (x2 : Vec F S1x2x2048 .i32) (x3 : Vec F S1x3x2048 .f32) (x4 : Vec F S64x1 .f32) (x5 : Vec F S64x1 .f32) (x6 : Vec F S64x256 .f32) (x7 : Vec F S256 .f32) (x8 : Vec F S256x1 .f32) (x9 : Vec F S1 .f32) :
    sout0_A_1 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 = stepT x0 x1 (idxRow0 x2) (idxRow1 x2) x3 x4 x5 k0_pay6 := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9)]
  unfold kernelRun0_A
  dsimp only
  sl_unfold_words
  rw [View.canon_cons_unit_zero (S := S3x512) hz2, View.readCov_unit_zero (S := S3x512) _ hz2]
  unfold stepT idxRow0 idxRow1
  simp only [View.readAt_eq_ld, harg2.read_unread, harg3.read_unread, harg4.read_unread, harg5.read_unread, harg6.read_unread, harg7.read_unread, harg8.read_unread, harg9.read_unread, harg10.read_unread, harg11.read_unread, harg13.read_unread, harg14.read_unread, View.ld_unit_zero (S := S1x3x512) hz3, View.ld_unit_zero (S := S1x64x512) hz3, View.ld_unit_zero (S := S1x3x2048) hz3, View.ld_unit_zero (S := S64x1) hz2, View.ld_unit_zero (S := S64x512) hz2, View.ld_unit_zero (S := S3x512) hz2, View.ld_unit_zero (S := S64x256) hz2, View.ld_unit_zero (S := S256) hz1, View.ld_unit_zero (S := S256x1) hz2, View.ld_unit_zero (S := S1) hz1, View.readCov_unit_zero (S := S64x512) _ hz2, View.readCov_unit_zero (S := S3x512) _ hz2]

theorem sB0 (c : Dev nD) (i : grid0.Coords) (arg2 : Memref sig .tc .vmem S1x3x512 .f32) (harg2 : arg2.IsWhole) (arg3 : Memref sig .tc .vmem S1x64x512 .bf16) (harg3 : arg3.IsWhole) (arg4 : Memref sig .tc .vmem S1x2x2048 .i32) (harg4 : arg4.IsWhole) (arg5 : Memref sig .tc .vmem S1x3x2048 .f32) (harg5 : arg5.IsWhole) (arg6 : Memref sig .tc .vmem S64x1 .f32) (harg6 : arg6.IsWhole) (arg7 : Memref sig .tc .vmem S64x1 .f32) (harg7 : arg7.IsWhole) (arg8 : Memref sig .tc .vmem S64x256 .f32) (harg8 : arg8.IsWhole) (arg9 : Memref sig .tc .vmem S256 .f32) (harg9 : arg9.IsWhole) (arg10 : Memref sig .tc .vmem S256x1 .f32) (harg10 : arg10.IsWhole) (arg11 : Memref sig .tc .vmem S1 .f32) (harg11 : arg11.IsWhole) (arg12 : Memref sig .tc .vmem S1x1x3 .f32) (harg12 : arg12.IsWhole) (arg13 : Memref sig .tc .vmem S64x512 .f32) (harg13 : arg13.IsWhole) (arg14 : Memref sig .tc .vmem S3x512 .f32) (harg14 : arg14.IsWhole) (hc0 : ¬cond0_0 i) (hc1 : ¬cond0_1 i) (x0 : Vec F S1x3x512 .f32) (x1 : Vec F S1x64x512 .bf16) (x2 : Vec F S1x2x2048 .i32) (x3 : Vec F S1x3x2048 .f32) (x4 : Vec F S64x1 .f32) (x5 : Vec F S64x1 .f32) (x6 : Vec F S64x256 .f32) (x7 : Vec F S256 .f32) (x8 : Vec F S256x1 .f32) (x9 : Vec F S1 .f32) (xs0 : Vec F S64x512 .f32) (xs1 : Vec F S3x512 .f32) :
    sout0_B_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 xs0 xs1 = stepD x0 x1 (idxRow0 x2) (idxRow1 x2) x3 x4 x5 xs0 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 xs0 xs1)]
  unfold kernelRun0_B
  dsimp only
  sl_unfold_words
  rw [View.canon_unit_zero (S := S64x512) hz2]
  unfold stepD idxRow0 idxRow1
  simp only [View.readAt_eq_ld, harg2.read_unread, harg3.read_unread, harg4.read_unread, harg5.read_unread, harg6.read_unread, harg7.read_unread, harg8.read_unread, harg9.read_unread, harg10.read_unread, harg11.read_unread, harg13.read_unread, harg14.read_unread, View.ld_unit_zero (S := S1x3x512) hz3, View.ld_unit_zero (S := S1x64x512) hz3, View.ld_unit_zero (S := S1x3x2048) hz3, View.ld_unit_zero (S := S64x1) hz2, View.ld_unit_zero (S := S64x512) hz2, View.ld_unit_zero (S := S3x512) hz2, View.ld_unit_zero (S := S64x256) hz2, View.ld_unit_zero (S := S256) hz1, View.ld_unit_zero (S := S256x1) hz2, View.ld_unit_zero (S := S1) hz1, View.readCov_unit_zero (S := S64x512) _ hz2, View.readCov_unit_zero (S := S3x512) _ hz2]

theorem sB1 (c : Dev nD) (i : grid0.Coords) (arg2 : Memref sig .tc .vmem S1x3x512 .f32) (harg2 : arg2.IsWhole) (arg3 : Memref sig .tc .vmem S1x64x512 .bf16) (harg3 : arg3.IsWhole) (arg4 : Memref sig .tc .vmem S1x2x2048 .i32) (harg4 : arg4.IsWhole) (arg5 : Memref sig .tc .vmem S1x3x2048 .f32) (harg5 : arg5.IsWhole) (arg6 : Memref sig .tc .vmem S64x1 .f32) (harg6 : arg6.IsWhole) (arg7 : Memref sig .tc .vmem S64x1 .f32) (harg7 : arg7.IsWhole) (arg8 : Memref sig .tc .vmem S64x256 .f32) (harg8 : arg8.IsWhole) (arg9 : Memref sig .tc .vmem S256 .f32) (harg9 : arg9.IsWhole) (arg10 : Memref sig .tc .vmem S256x1 .f32) (harg10 : arg10.IsWhole) (arg11 : Memref sig .tc .vmem S1 .f32) (harg11 : arg11.IsWhole) (arg12 : Memref sig .tc .vmem S1x1x3 .f32) (harg12 : arg12.IsWhole) (arg13 : Memref sig .tc .vmem S64x512 .f32) (harg13 : arg13.IsWhole) (arg14 : Memref sig .tc .vmem S3x512 .f32) (harg14 : arg14.IsWhole) (hc0 : ¬cond0_0 i) (hc1 : ¬cond0_1 i) (x0 : Vec F S1x3x512 .f32) (x1 : Vec F S1x64x512 .bf16) (x2 : Vec F S1x2x2048 .i32) (x3 : Vec F S1x3x2048 .f32) (x4 : Vec F S64x1 .f32) (x5 : Vec F S64x1 .f32) (x6 : Vec F S64x256 .f32) (x7 : Vec F S256 .f32) (x8 : Vec F S256x1 .f32) (x9 : Vec F S1 .f32) (xs0 : Vec F S64x512 .f32) (xs1 : Vec F S3x512 .f32) :
    sout0_B_1 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 xs0 xs1 = stepT x0 x1 (idxRow0 x2) (idxRow1 x2) x3 x4 x5 xs1 := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 xs0 xs1)]
  unfold kernelRun0_B
  dsimp only
  sl_unfold_words
  rw [View.canon_unit_zero (S := S3x512) hz2]
  unfold stepT idxRow0 idxRow1
  simp only [View.readAt_eq_ld, harg2.read_unread, harg3.read_unread, harg4.read_unread, harg5.read_unread, harg6.read_unread, harg7.read_unread, harg8.read_unread, harg9.read_unread, harg10.read_unread, harg11.read_unread, harg13.read_unread, harg14.read_unread, View.ld_unit_zero (S := S1x3x512) hz3, View.ld_unit_zero (S := S1x64x512) hz3, View.ld_unit_zero (S := S1x3x2048) hz3, View.ld_unit_zero (S := S64x1) hz2, View.ld_unit_zero (S := S64x512) hz2, View.ld_unit_zero (S := S3x512) hz2, View.ld_unit_zero (S := S64x256) hz2, View.ld_unit_zero (S := S256) hz1, View.ld_unit_zero (S := S256x1) hz2, View.ld_unit_zero (S := S1) hz1, View.readCov_unit_zero (S := S64x512) _ hz2, View.readCov_unit_zero (S := S3x512) _ hz2]

theorem sC0 (c : Dev nD) (i : grid0.Coords) (arg2 : Memref sig .tc .vmem S1x3x512 .f32) (harg2 : arg2.IsWhole) (arg3 : Memref sig .tc .vmem S1x64x512 .bf16) (harg3 : arg3.IsWhole) (arg4 : Memref sig .tc .vmem S1x2x2048 .i32) (harg4 : arg4.IsWhole) (arg5 : Memref sig .tc .vmem S1x3x2048 .f32) (harg5 : arg5.IsWhole) (arg6 : Memref sig .tc .vmem S64x1 .f32) (harg6 : arg6.IsWhole) (arg7 : Memref sig .tc .vmem S64x1 .f32) (harg7 : arg7.IsWhole) (arg8 : Memref sig .tc .vmem S64x256 .f32) (harg8 : arg8.IsWhole) (arg9 : Memref sig .tc .vmem S256 .f32) (harg9 : arg9.IsWhole) (arg10 : Memref sig .tc .vmem S256x1 .f32) (harg10 : arg10.IsWhole) (arg11 : Memref sig .tc .vmem S1 .f32) (harg11 : arg11.IsWhole) (arg12 : Memref sig .tc .vmem S1x1x3 .f32) (harg12 : arg12.IsWhole) (arg13 : Memref sig .tc .vmem S64x512 .f32) (harg13 : arg13.IsWhole) (arg14 : Memref sig .tc .vmem S3x512 .f32) (harg14 : arg14.IsWhole) (hc0 : ¬cond0_0 i) (hc1 : cond0_1 i) (x0 : Vec F S1x3x512 .f32) (x1 : Vec F S1x64x512 .bf16) (x2 : Vec F S1x2x2048 .i32) (x3 : Vec F S1x3x2048 .f32) (x4 : Vec F S64x1 .f32) (x5 : Vec F S64x1 .f32) (x6 : Vec F S64x256 .f32) (x7 : Vec F S256 .f32) (x8 : Vec F S256x1 .f32) (x9 : Vec F S1 .f32) (xs0 : Vec F S64x512 .f32) (xs1 : Vec F S3x512 .f32) :
    sout0_C_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 xs0 xs1 = stepD x0 x1 (idxRow0 x2) (idxRow1 x2) x3 x4 x5 xs0 := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 xs0 xs1)]
  unfold kernelRun0_C
  dsimp only
  sl_unfold_words
  rw [View.canon_unit_zero (S := S64x512) hz2]
  unfold stepD idxRow0 idxRow1
  simp only [View.readAt_eq_ld, harg2.read_unread, harg3.read_unread, harg4.read_unread, harg5.read_unread, harg6.read_unread, harg7.read_unread, harg8.read_unread, harg9.read_unread, harg10.read_unread, harg11.read_unread, harg13.read_unread, harg14.read_unread, View.ld_unit_zero (S := S1x3x512) hz3, View.ld_unit_zero (S := S1x64x512) hz3, View.ld_unit_zero (S := S1x3x2048) hz3, View.ld_unit_zero (S := S64x1) hz2, View.ld_unit_zero (S := S64x512) hz2, View.ld_unit_zero (S := S3x512) hz2, View.ld_unit_zero (S := S64x256) hz2, View.ld_unit_zero (S := S256) hz1, View.ld_unit_zero (S := S256x1) hz2, View.ld_unit_zero (S := S1) hz1, View.readCov_unit_zero (S := S64x512) _ hz2, View.readCov_unit_zero (S := S3x512) _ hz2]

theorem sC1 (c : Dev nD) (i : grid0.Coords) (arg2 : Memref sig .tc .vmem S1x3x512 .f32) (harg2 : arg2.IsWhole) (arg3 : Memref sig .tc .vmem S1x64x512 .bf16) (harg3 : arg3.IsWhole) (arg4 : Memref sig .tc .vmem S1x2x2048 .i32) (harg4 : arg4.IsWhole) (arg5 : Memref sig .tc .vmem S1x3x2048 .f32) (harg5 : arg5.IsWhole) (arg6 : Memref sig .tc .vmem S64x1 .f32) (harg6 : arg6.IsWhole) (arg7 : Memref sig .tc .vmem S64x1 .f32) (harg7 : arg7.IsWhole) (arg8 : Memref sig .tc .vmem S64x256 .f32) (harg8 : arg8.IsWhole) (arg9 : Memref sig .tc .vmem S256 .f32) (harg9 : arg9.IsWhole) (arg10 : Memref sig .tc .vmem S256x1 .f32) (harg10 : arg10.IsWhole) (arg11 : Memref sig .tc .vmem S1 .f32) (harg11 : arg11.IsWhole) (arg12 : Memref sig .tc .vmem S1x1x3 .f32) (harg12 : arg12.IsWhole) (arg13 : Memref sig .tc .vmem S64x512 .f32) (harg13 : arg13.IsWhole) (arg14 : Memref sig .tc .vmem S3x512 .f32) (harg14 : arg14.IsWhole) (hc0 : ¬cond0_0 i) (hc1 : cond0_1 i) (x0 : Vec F S1x3x512 .f32) (x1 : Vec F S1x64x512 .bf16) (x2 : Vec F S1x2x2048 .i32) (x3 : Vec F S1x3x2048 .f32) (x4 : Vec F S64x1 .f32) (x5 : Vec F S64x1 .f32) (x6 : Vec F S64x256 .f32) (x7 : Vec F S256 .f32) (x8 : Vec F S256x1 .f32) (x9 : Vec F S1 .f32) (xs0 : Vec F S64x512 .f32) (xs1 : Vec F S3x512 .f32) :
    sout0_C_1 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 xs0 xs1 = stepT x0 x1 (idxRow0 x2) (idxRow1 x2) x3 x4 x5 xs1 := by
  unfold sout0_C_1
  rw [View.read_writes_eq_canon _ _ _ (scover0_C_1 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 xs0 xs1)]
  unfold kernelRun0_C
  dsimp only
  sl_unfold_words
  rw [View.canon_unit_zero (S := S3x512) hz2]
  unfold stepT idxRow0 idxRow1
  simp only [View.readAt_eq_ld, harg2.read_unread, harg3.read_unread, harg4.read_unread, harg5.read_unread, harg6.read_unread, harg7.read_unread, harg8.read_unread, harg9.read_unread, harg10.read_unread, harg11.read_unread, harg13.read_unread, harg14.read_unread, View.ld_unit_zero (S := S1x3x512) hz3, View.ld_unit_zero (S := S1x64x512) hz3, View.ld_unit_zero (S := S1x3x2048) hz3, View.ld_unit_zero (S := S64x1) hz2, View.ld_unit_zero (S := S64x512) hz2, View.ld_unit_zero (S := S3x512) hz2, View.ld_unit_zero (S := S64x256) hz2, View.ld_unit_zero (S := S256) hz1, View.ld_unit_zero (S := S256x1) hz2, View.ld_unit_zero (S := S1) hz1, View.readCov_unit_zero (S := S64x512) _ hz2, View.readCov_unit_zero (S := S3x512) _ hz2]

theorem oC (c : Dev nD) (i : grid0.Coords) (arg2 : Memref sig .tc .vmem S1x3x512 .f32) (harg2 : arg2.IsWhole) (arg3 : Memref sig .tc .vmem S1x64x512 .bf16) (harg3 : arg3.IsWhole) (arg4 : Memref sig .tc .vmem S1x2x2048 .i32) (harg4 : arg4.IsWhole) (arg5 : Memref sig .tc .vmem S1x3x2048 .f32) (harg5 : arg5.IsWhole) (arg6 : Memref sig .tc .vmem S64x1 .f32) (harg6 : arg6.IsWhole) (arg7 : Memref sig .tc .vmem S64x1 .f32) (harg7 : arg7.IsWhole) (arg8 : Memref sig .tc .vmem S64x256 .f32) (harg8 : arg8.IsWhole) (arg9 : Memref sig .tc .vmem S256 .f32) (harg9 : arg9.IsWhole) (arg10 : Memref sig .tc .vmem S256x1 .f32) (harg10 : arg10.IsWhole) (arg11 : Memref sig .tc .vmem S1 .f32) (harg11 : arg11.IsWhole) (arg12 : Memref sig .tc .vmem S1x1x3 .f32) (harg12 : arg12.IsWhole) (arg13 : Memref sig .tc .vmem S64x512 .f32) (harg13 : arg13.IsWhole) (arg14 : Memref sig .tc .vmem S3x512 .f32) (harg14 : arg14.IsWhole) (hc0 : ¬cond0_0 i) (hc1 : cond0_1 i) (x0 : Vec F S1x3x512 .f32) (x1 : Vec F S1x64x512 .bf16) (x2 : Vec F S1x2x2048 .i32) (x3 : Vec F S1x3x2048 .f32) (x4 : Vec F S64x1 .f32) (x5 : Vec F S64x1 .f32) (x6 : Vec F S64x256 .f32) (x7 : Vec F S256 .f32) (x8 : Vec F S256x1 .f32) (x9 : Vec F S1 .f32) (xs0 : Vec F S64x512 .f32) (xs1 : Vec F S3x512 .f32) :
    out0_C_10 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 xs0 xs1 = k0_pay4 (stepD x0 x1 (idxRow0 x2) (idxRow1 x2) x3 x4 x5 xs0) x6 x7 x8 x9 (stepT x0 x1 (idxRow0 x2) (idxRow1 x2) x3 x4 x5 xs1) := by
  unfold out0_C_10
  rw [View.read_writes_eq_canon _ _ _ (cover0_C_10 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 xs0 xs1)]
  unfold kernelRun0_C
  dsimp only
  sl_unfold_words
  rw [View.canon_unit_zero (S := S1x1x3) hz3]
  unfold stepD stepT idxRow0 idxRow1
  simp only [View.readAt_eq_ld, harg2.read_unread, harg3.read_unread, harg4.read_unread, harg5.read_unread, harg6.read_unread, harg7.read_unread, harg8.read_unread, harg9.read_unread, harg10.read_unread, harg11.read_unread, harg13.read_unread, harg14.read_unread, View.ld_unit_zero (S := S1x3x512) hz3, View.ld_unit_zero (S := S1x64x512) hz3, View.ld_unit_zero (S := S1x3x2048) hz3, View.ld_unit_zero (S := S64x1) hz2, View.ld_unit_zero (S := S64x512) hz2, View.ld_unit_zero (S := S3x512) hz2, View.ld_unit_zero (S := S64x256) hz2, View.ld_unit_zero (S := S256) hz1, View.ld_unit_zero (S := S256x1) hz2, View.ld_unit_zero (S := S1) hz1, View.readCov_unit_zero (S := S64x512) _ hz2, View.readCov_unit_zero (S := S3x512) _ hz2]

end Cert.KernelIdeal.KFramePieces

end
-- ==== Proof.KFrameSteps.lean ====
/-
  The carried accumulators and the output block, point by point.

  With S t, T t the density and vector accumulators as grid point t leaves them and O t the output block: at the first
  chunk of a molecule (t ≡ 0 mod 16) S t and T t are the chunk step of the zero blocks; at every other point the chunk
  step of what the point before left; and at the last chunk (t ≡ 15 mod 16) O t is the head applied to S t and T t.
-/
import proofs.«426414_j9629316677964_3_alg».proof.Proof.Gen.KernelIdeal.Frame
import proofs.«426414_j9629316677964_3_alg».proof.Proof.KStep
import proofs.«426414_j9629316677964_3_alg».proof.Proof.KFramePieces

noncomputable section

namespace Cert.KernelIdeal.KFrameSteps

open Idealize.ShloMosaic Idealize.ShloMosaic.TcCoe Idealize.SL.Sem
open Cert.KernelIdeal Cert.KernelIdeal.Gen Cert.KernelIdeal.KStep Cert.KernelIdeal.KFramePieces

variable {F : FTy → Type} [FloatOps F]
variable (m : (ℓ : Loc nD τ sig) → Buf (Elt F) ℓ)

/-- First chunk of a molecule: the density accumulator is the chunk step of the zero block. -/
theorem dens_first (c : Dev nD) (t : Fin cfg0.N) (h0 : t.val % 16 = 0) :
    (outsAt0 m c t.val t.isLt).2.1 = stepD (iblk m c 0 t) (iblk m c 1 t) (idxRow0 (iblk m c 2 t)) (idxRow1 (iblk m c 2 t)) (iblk m c 3 t) (iblk m c 4 t) (iblk m c 5 t) k0_pay5 := by
  have h1 : ¬t.val % 16 = 15 := by omega
  rw [outsAt0_A m c t h0 h1]
  dsimp only
  exact sA0 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t)

/-- First chunk of a molecule: the vector accumulator is the chunk step of the zero block. -/
theorem tot_first (c : Dev nD) (t : Fin cfg0.N) (h0 : t.val % 16 = 0) :
    (outsAt0 m c t.val t.isLt).2.2 = stepT (iblk m c 0 t) (iblk m c 1 t) (idxRow0 (iblk m c 2 t)) (idxRow1 (iblk m c 2 t)) (iblk m c 3 t) (iblk m c 4 t) (iblk m c 5 t) k0_pay6 := by
  have h1 : ¬t.val % 16 = 15 := by omega
  rw [outsAt0_A m c t h0 h1]
  dsimp only
  exact sA1 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t)

/-- A later chunk: the density accumulator is the chunk step of what the point before left. -/
theorem dens_next (c : Dev nD) (t : Fin cfg0.N) (h0 : ¬t.val % 16 = 0) :
    (outsAt0 m c t.val t.isLt).2.1 = stepD (iblk m c 0 t) (iblk m c 1 t) (idxRow0 (iblk m c 2 t)) (idxRow1 (iblk m c 2 t)) (iblk m c 3 t) (iblk m c 4 t) (iblk m c 5 t) (outsAt0 m c (t.val - 1) (Nat.lt_of_le_of_lt (Nat.sub_le _ _) t.isLt)).2.1 := by
  by_cases h1 : t.val % 16 = 15
  · rw [outsAt0_C m c t h0 h1]
    dsimp only
    exact sC0 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2.1 (outsAt0 m c (t.val - 1) (Nat.lt_of_le_of_lt (Nat.sub_le _ _) t.isLt)).2.2
  · rw [outsAt0_B m c t h0 h1]
    dsimp only
    exact sB0 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2.1 (outsAt0 m c (t.val - 1) (Nat.lt_of_le_of_lt (Nat.sub_le _ _) t.isLt)).2.2

/-- A later chunk: the vector accumulator is the chunk step of what the point before left. -/
theorem tot_next (c : Dev nD) (t : Fin cfg0.N) (h0 : ¬t.val % 16 = 0) :
    (outsAt0 m c t.val t.isLt).2.2 = stepT (iblk m c 0 t) (iblk m c 1 t) (idxRow0 (iblk m c 2 t)) (idxRow1 (iblk m c 2 t)) (iblk m c 3 t) (iblk m c 4 t) (iblk m c 5 t) (outsAt0 m c (t.val - 1) (Nat.lt_of_le_of_lt (Nat.sub_le _ _) t.isLt)).2.2 := by
  by_cases h1 : t.val % 16 = 15
  · rw [outsAt0_C m c t h0 h1]
    dsimp only
    exact sC1 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2.1 (outsAt0 m c (t.val - 1) (Nat.lt_of_le_of_lt (Nat.sub_le _ _) t.isLt)).2.2
  · rw [outsAt0_B m c t h0 h1]
    dsimp only
    exact sB1 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2.1 (outsAt0 m c (t.val - 1) (Nat.lt_of_le_of_lt (Nat.sub_le _ _) t.isLt)).2.2

/-- Last chunk of a molecule: the output block is the head applied to the two accumulators as this point leaves them. -/
theorem out_last (c : Dev nD) (t : Fin cfg0.N) (h1 : t.val % 16 = 15) :
    (outsAt0 m c t.val t.isLt).1
      = k0_pay4 (outsAt0 m c t.val t.isLt).2.1 (iblk m c 6 t) (iblk m c 7 t) (iblk m c 8 t) (iblk m c 9 t) (outsAt0 m c t.val t.isLt).2.2 := by
  have h0 : ¬t.val % 16 = 0 := by omega
  rw [dens_next m c t h0, tot_next m c t h0, outsAt0_C m c t h0 h1]
  dsimp only
  exact oC (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2.1 (outsAt0 m c (t.val - 1) (Nat.lt_of_le_of_lt (Nat.sub_le _ _) t.isLt)).2.2

end Cert.KernelIdeal.KFrameSteps

end
-- ==== Proof.KFrameRun.lean ====
/-
  The kernel program's run with its result named.

  The region writes its output array [32, 1, 3] one block [1, 1, 3] per molecule, and only at the last chunk of a
  molecule (grid point 16·mm + 15: the only points that write the output block back); the host then reshapes the array
  to [32, 3]. So entry (mm, k) of the program's result is entry (0, 0, k) of what the body leaves in the output block at
  point 16·mm + 15.
-/
import proofs.«426414_j9629316677964_3_alg».proof.Proof.Gen.KernelIdeal.Frame
import Idealize.ShloMosaic.Lib.Pipeline.Value
import Idealize.ShloMosaic.Lib.ValueIdx
import Idealize.ShloMosaic.Lib.Tactic

noncomputable section

namespace Cert.KernelIdeal.KFrameRun

open Idealize.ShloMosaic Idealize.ShloMosaic.TcCoe Idealize.SL.Sem
open Idealize.ShloMosaic.Pipeline (Dat)
open Idealize.ShloMosaic.ValueIdx
open Cert.KernelIdeal Cert.KernelIdeal.Gen

variable {F : FTy → Type} [FloatOps F]
variable (m : (ℓ : Loc nD τ sig) → Buf (Elt F) ℓ) (ρ : Dev nD → PrngReg)

theorem hN : cfg0.N = 512 := N_0

/-- The grid point of the last chunk of molecule mm. -/
def lastPt (mm : Fin 32) : Fin cfg0.N := ⟨16 * mm.val + 15, by rw [hN]; have := mm.isLt; omega⟩

/-- What the run's contents depend on is the point's number only. -/
theorem outsAt0_congr (c : Dev nD) {n n' : ℕ} (h : n = n') (hn : n < cfg0.N) (hn' : n' < cfg0.N) :
    outsAt0 m c n hn = outsAt0 m c n' hn' := by
  subst h; rfl

/-- What the last chunk of molecule mm leaves in the output block. -/
def outRow (c : Dev nD) (mm : Fin 32) : Vec F S1x1x3 .f32 := (outsAt0 m c (lastPt mm).val (lastPt mm).isLt).1

/-- The output array after the region: row mm is the block the last chunk of molecule mm left. -/
def outArr (c : Dev nD) : Vec F S32x1x3 .f32 := fun i => outRow m c (i 0) (ix3 0 0 (i 2))

/-- The program's result: entry (mm, k) is entry (0, 0, k) of the block the last chunk of molecule mm left. -/
def res (c : Dev nD) : Vec F S32x3 .f32 := fun i => outRow m c (i 0) (ix3 0 0 (i 1))

theorem res_apply (c : Dev nD) (mm : Fin 32) (k : Fin 3) :
    res m c (ix2 mm k) = (outsAt0 m c (lastPt mm).val (lastPt mm).isLt).1 (ix3 0 0 k) := rfl

/-- The output window's block index at a point: the molecule's number on the first axis. -/
theorem idx10 : ∀ t : Fin cfg0.N, win0_10.index t (0 : Fin 3) = t.val / 16 ∧ win0_10.index t (1 : Fin 3) = 0
    ∧ win0_10.index t (2 : Fin 3) = 0 :=
  (by decide +kernel : ∀ t : Fin grid0.N, _)

/-- An entry of the output array under the block of a point that writes back is that point's entry. -/
theorem outArr_of_pt (c : Dev nD) (t : Fin cfg0.N) (h15 : t.val % 16 = 15) (i : S32x1x3.Idx) (y : S1x1x3.Idx)
    (h0 : (i 0).val = t.val / 16) (h2 : (i 2).val = (y 2).val) :
    outArr m c i = (outsAt0 m c t.val t.isLt).1 y := by
  have hv : (lastPt (i 0)).val = t.val := by
    show 16 * (i 0).val + 15 = t.val
    omega
  have hy : (ix3 0 0 (i 2) : S1x1x3.Idx) = y := by
    funext a
    refine Fin.ext ?_
    match a with
    | ⟨0, _⟩ => have : (y 0).val < 1 := (y 0).isLt; show 0 = (y 0).val; omega
    | ⟨1, _⟩ => have : (y 1).val < 1 := (y 1).isLt; show 0 = (y 1).val; omega
    | ⟨2, _⟩ => exact h2
  show (outsAt0 m c (lastPt (i 0)).val (lastPt (i 0)).isLt).1 (ix3 0 0 (i 2)) = _
  rw [outsAt0_congr m c hv _ t.isLt, hy]

/-- What a point that writes back writes is its block of the output array. -/
theorem flushed_eq (c : Dev nD) (t : Fin cfg0.N) (hf : (cfg0.win 10).flush t = true) :
    (dats m 0 c).flushed 10 t = ((cfg0.win 10).blk t).view.read (Elt F) (outArr m c) := by
  have h15 : t.val % 16 = 15 := (flush0_10 t).mp hf
  obtain ⟨e0, e1, e2⟩ := idx10 t
  show (cfg0.win 10).cut (grid0.coords t) ((dats m 0 c).after 10 t) = _
  rw [after0_10]
  funext y
  show (outsAt0 m c t.val t.isLt).1 y = outArr m c (((cfg0.win 10).blk t).view.emb y)
  refine (outArr_of_pt m c t h15 _ y ?_ ?_).symm
  · show win0_10.index t (0 : Fin 3) * 1 + 1 * (y 0).val = t.val / 16
    have : (y 0).val < 1 := (y 0).isLt
    omega
  · show win0_10.index t (2 : Fin 3) * 3 + 1 * (y 2).val = (y 2).val
    omega

/-- Every entry of the output array lies in the block of its molecule's last point. -/
theorem cover (i : S32x1x3.Idx) :
    ∃ t : Fin cfg0.N, (cfg0.win 10).flush t = true ∧ i ∈ ((cfg0.win 10).blk t).view.set := by
  have h0 : (i 0).val < 32 := (i 0).isLt
  have h1 : (i 1).val < 1 := (i 1).isLt
  have h2 : (i 2).val < 3 := (i 2).isLt
  obtain ⟨e0, e1, e2⟩ := idx10 (lastPt (i 0))
  have ev : (lastPt (i 0)).val = 16 * (i 0).val + 15 := rfl
  refine ⟨lastPt (i 0), (flush0_10 _).mpr (by rw [ev]; omega), ?_⟩
  show i ∈ ((View.whole main_v14).slice (win0_10.rect (lastPt (i 0)))).set
  rw [View.set_slice_whole, Rect.mem_set_unit]
  intro a
  match a with
  | ⟨0, _⟩ =>
    show win0_10.index (lastPt (i 0)) (0 : Fin 3) * 1 ≤ (i 0).val ∧ (i 0).val < win0_10.index (lastPt (i 0)) (0 : Fin 3) * 1 + 1
    rw [e0, ev]; omega
  | ⟨1, _⟩ =>
    show win0_10.index (lastPt (i 0)) (1 : Fin 3) * 1 ≤ (i 1).val ∧ (i 1).val < win0_10.index (lastPt (i 0)) (1 : Fin 3) * 1 + 1
    rw [e1]; omega
  | ⟨2, _⟩ =>
    show win0_10.index (lastPt (i 0)) (2 : Fin 3) * 3 ≤ (i 2).val ∧ (i 2).val < win0_10.index (lastPt (i 0)) (2 : Fin 3) * 3 + 3
    rw [e2]; omega

/-- The output array after the region. -/
theorem final10 (c : Dev nD) : (dats m 0 c).arrAt 10 cfg0.N = outArr m c :=
  (dats m 0 c).arrAt_eq_of_cover 10 (outArr m c) (flushed_eq m c) cover

/-- The host's reshape of the output array is the result. -/
theorem tail_eq (c : Dev nD) :
    Pipeline.afterTail₀ cfgs (dats m) 0 (V0 m) [hostOps1] c main_v15 = res m c := by
  unfold Pipeline.afterTail₀
  show StableHlo.after hostOps1 _ (Proc.devRef .tc main_v15) = _
  after_results
  funext i
  have hw : Pipeline.withArrays (cfgs 0).spec c (V0 m c) (fun w => (dats m 0 c).arrAt w (cfgs 0).N)
      (Proc.devRef .tc main_v14) = outArr m c :=
    (Pipeline.withArrays_arr spec0 launch0.win.arr_inj c _ _ 10).trans (final10 m c)
  show shapeCast S32x3 (Pipeline.withArrays (cfgs 0).spec c (V0 m c) (fun w => (dats m 0 c).arrAt w (cfgs 0).N)
      (Proc.devRef .tc main_v14)) shapeCasts_S32x1x3_S32x3 i = res m c i
  rw [hw]
  have h0 : (i 0).val < 32 := (i 0).isLt
  have h1 : (i 1).val < 3 := (i 1).isLt
  refine (shapeCast_apply (outArr m c) shapeCasts_S32x1x3_S32x3 i (ix3 (i 0) 0 (i 1)) ?_).trans rfl
  rw [Shape.rowMajor_val_three, Shape.rowMajor_val_two]
  show ((i 0).val * 1 + 0) * 3 + (i 1).val = (i 0).val * 3 + (i 1).val
  omega

/-- From any memory: every weakly fair execution of the program terminates, with its result at `res` and its twelve
    arguments unchanged. -/
theorem run_named : θ_run defs (onTc (τ := τ) (main (F := F))) ⟨m, fun _ => 0, ρ⟩ (fun r => ∀ c : Dev nD,
      r.2.mem ((c.tc : Thread nD τ).loc main_v15) = res m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c =>
    ⟨((h c).2 main_v15 (Pipeline.mem_restRefs_of main_v15 (by decide) (by decide))).trans (tail_eq m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      ((h c).1 6).trans (((dats m 0 c).arrAt_in 6 rfl _).trans ((A_eq m c 6).trans (V_main_arg5 m c))),
      ((h c).1 7).trans (((dats m 0 c).arrAt_in 7 rfl _).trans ((A_eq m c 7).trans (V_main_arg6 m c))),
      ((h c).1 8).trans (((dats m 0 c).arrAt_in 8 rfl _).trans ((A_eq m c 8).trans (V_main_arg7 m c))),
      ((h c).1 9).trans (((dats m 0 c).arrAt_in 9 rfl _).trans ((A_eq m c 9).trans (V_main_arg8 m c))),
      (((h c).2 main_arg9 (Pipeline.mem_restRefs_of main_arg9 (by decide) (by decide))).trans (W_main_arg9 m (dats m) c)),
      (((h c).2 main_arg10 (Pipeline.mem_restRefs_of main_arg10 (by decide) (by decide))).trans (W_main_arg10 m (dats m) c)),
      (((h c).2 main_arg11 (Pipeline.mem_restRefs_of main_arg11 (by decide) (by decide))).trans (W_main_arg11 m (dats m) c))⟩)
    (run_main m ρ)

end Cert.KernelIdeal.KFrameRun

end
-- ==== Proof.Spec.lean ====
/-
  The dipole of every molecule, as plain functions on the extended reals.

  A molecule has 512 atoms and 32768 ordered pairs (a0, a1) of its atoms, each with a shift vector s. A pair is
  MASKED OUT when a component of its shift is not above a sentinel; its displacement is
  dv = ((x[a0] - x[a1]) + s) · mask, its length d = sqrt(Σ_k dv_k² + ε). Its feature in basis b is
  exp(-w_b (d - c_b)²) · (fc(d) · mask) · e[a1, b], with the cosine cutoff fc(d) = ½ (cos(π d / 5) + 1) · [d < 5] and
  e[a, ·] the embedding row of atom a's species. The density of atom a in basis b is the sum of the features of the pairs
  centred at a (a0 = a), its vector the sum of their displacements. A two-layer perceptron with a SiLU
  (x · logistic x) maps an atom's density to a scalar, and the dipole is Σ_a vector[a] · scalar[a].
-/
import Idealize.ShloMosaic.PureOps.Ideal

noncomputable section

namespace Cert.Spec

open Idealize.ShloMosaic

/-- The sentinel -1e10 under which a shift marks a padded pair. -/
def NEG : EReal := Ideal.ofBits .f32 0xD01502F9#32
/-- The 1e-12 under the square root. -/
def EPS : EReal := Ideal.ofBits .f32 0x2B8CBCCC#32
/-- π as the f32 nearest to it. -/
def PI : EReal := Ideal.ofBits .f32 0x40490FDB#32
/-- The cutoff radius 5. -/
def FIVE : EReal := Ideal.ofBits .f32 0x40A00000#32
def ONE : EReal := Ideal.ofBits .f32 0x3F800000#32
def HALF : EReal := Ideal.ofBits .f32 0x3F000000#32

/-! ## One pair -/

/-- 1 when every component of the shift is above the sentinel, else 0. -/
def maskOf (s : Fin 3 → EReal) : EReal := if ∀ k, NEG < s k then 1 else 0

/-- The masked displacement ((x0 - x1) + s) · mask. -/
def dvOf (x0 x1 s : Fin 3 → EReal) (k : Fin 3) : EReal := ((x0 k - x1 k) + s k) * maskOf s

/-- The safe length sqrt(Σ_k v_k² + ε). -/
def distOf (v : Fin 3 → EReal) : EReal := Ideal.sqrt ((∑ k, v k * v k) + EPS)

/-- The Gaussian exp((-w) · (d - c)²). -/
def rbfOf (w c d : EReal) : EReal := Ideal.exp ((-w) * ((d - c) * (d - c)))

/-- The cosine cutoff ½ (cos(π d / 5) + 1) · [d < 5]. -/
def fcOf (d : EReal) : EReal := (HALF * (Ideal.cos (Ideal.div (PI * d) FIVE) + ONE)) * (if d < FIVE then 1 else 0)

/-- A pair's feature in one basis: rbf · (fc · mask) · e. -/
def pfOf (w c d msk e : EReal) : EReal := (rbfOf w c d * (fcOf d * msk)) * e

/-! ## One molecule -/

section Mol
variable (x : Fin 512 → Fin 3 → EReal) (e : Fin 512 → Fin 64 → EReal) (cen wid : Fin 64 → EReal)

/-- The displacement of the pair (a0, a1) with shift s. -/
def dvP (s : Fin 3 → EReal) (a0 a1 : Fin 512) (k : Fin 3) : EReal := dvOf (x a0) (x a1) s k

/-- The feature of the pair (a0, a1) with shift s in basis b. -/
def pfP (s : Fin 3 → EReal) (a0 a1 : Fin 512) (b : Fin 64) : EReal :=
  pfOf (wid b) (cen b) (distOf (dvP x s a0 a1)) (maskOf s) (e a1 b)

variable {P : Type} [Fintype P] (s : P → Fin 3 → EReal) (j0 j1 : P → Fin 512)

/-- The density of atom a in basis b over a family P of pairs: the features of the pairs centred at a. -/
def densP (a : Fin 512) (b : Fin 64) : EReal := ∑ p, if j0 p = a then pfP x e cen wid (s p) (j0 p) (j1 p) b else 0

/-- The vector of atom a over a family P of pairs: the displacements of the pairs centred at a. -/
def totP (a : Fin 512) (k : Fin 3) : EReal := ∑ p, if j0 p = a then dvP x (s p) (j0 p) (j1 p) k else 0

end Mol

/-- SiLU. -/
def act (t : EReal) : EReal := t * Ideal.logistic t

section Head
variable (W1 : Fin 64 → Fin 256 → EReal) (b1 : Fin 256 → EReal) (W2 : Fin 256 → EReal) (b2 : EReal)

/-- The first layer before the activation, from an atom's density row. -/
def hpre (dens : Fin 64 → EReal) (h : Fin 256) : EReal := (∑ b, dens b * W1 b h) + b1 h

/-- The atom's scalar. -/
def outOf (dens : Fin 64 → EReal) : EReal := (∑ h, act (hpre W1 b1 dens h) * W2 h) + b2

/-- The dipole of a molecule from its atoms' densities and vectors. -/
def dipOf (dens : Fin 512 → Fin 64 → EReal) (tot : Fin 512 → Fin 3 → EReal) (k : Fin 3) : EReal :=
  ∑ a, tot a k * outOf W1 b1 W2 b2 (dens a)

end Head

/-- The dipole of one molecule from its tables. -/
def dipoleMol (x : Fin 512 → Fin 3 → EReal) (e : Fin 512 → Fin 64 → EReal) (cen wid : Fin 64 → EReal)
    (W1 : Fin 64 → Fin 256 → EReal) (b1 : Fin 256 → EReal) (W2 : Fin 256 → EReal) (b2 : EReal)
    (s : Fin 32768 → Fin 3 → EReal) (j0 j1 : Fin 32768 → Fin 512) (k : Fin 3) : EReal :=
  dipOf W1 b1 W2 b2 (densP x e cen wid s j0 j1) (totP x s j0 j1) k

end Cert.Spec

end
-- ==== Proof.KHead.lean ====
/-
  The head of the kernel: from a molecule's accumulated densities (64 × 512, basis by atom) and vectors (3 × 512,
  component by atom) to its dipole.

  The first product contracts the basis axis of the densities against the first layer's weights, so that row a of the
  result is atom a's density row times the weights; the bias is added along the rows, and the activation is
  t · logistic t. The second product contracts the 256 hidden units against the second layer's column and the scalar
  bias is added, which leaves one number per atom. The dipole's component k is the sum over the atoms of the vector's
  component k times that number. Changes of float format are the identity on the extended reals, and a product into a
  zero accumulator is the plain sum of products.
-/
import proofs.«426414_j9629316677964_3_alg».proof.Proof.Gen.KernelIdeal.Skeleton
import proofs.«426414_j9629316677964_3_alg».proof.Proof.Spec
import Idealize.ShloMosaic.Lib.ValueIdx
import Idealize.ShloMosaic.Lib.Pipeline.Value
import Idealize.ShloMosaic.PureOps.Ideal.Laws

noncomputable section

namespace Cert.KernelIdeal.KHead

open Idealize.ShloMosaic Idealize.SL.Sem Idealize.ShloMosaic.ValueIdx Cert.KernelIdeal Cert.KernelIdeal.Gen

/-! ## The two products' operand indices -/

theorem lhsA_0 (i : S512x256.Idx) (q : dot_S64x512_S64x256_S512x256_0_0_1_1_n_n.contr.Idx) :
    (dot_S64x512_S64x256_S512x256_0_0_1_1_n_n.lhsIdx i q 0).val = (q ⟨0, by decide⟩).val :=
  dot_S64x512_S64x256_S512x256_0_0_1_1_n_n.lhsIdx_val_of_single rfl i q
theorem lhsA_1 (i : S512x256.Idx) (q : dot_S64x512_S64x256_S512x256_0_0_1_1_n_n.contr.Idx) :
    (dot_S64x512_S64x256_S512x256_0_0_1_1_n_n.lhsIdx i q 1).val = (i 0).val := by
  unfold DotDims.lhsIdx
  rw [dif_neg (show ¬(1 : Fin S64x512.rank) ∈ dot_S64x512_S64x256_S512x256_0_0_1_1_n_n.lhsBatch by decide), dif_pos (show (1 : Fin S64x512.rank) ∈ dot_S64x512_S64x256_S512x256_0_0_1_1_n_n.lhsNonContracting by decide)]
  rfl
theorem rhsA_0 (i : S512x256.Idx) (q : dot_S64x512_S64x256_S512x256_0_0_1_1_n_n.contr.Idx) :
    (dot_S64x512_S64x256_S512x256_0_0_1_1_n_n.rhsIdx i q 0).val = (q ⟨0, by decide⟩).val :=
  dot_S64x512_S64x256_S512x256_0_0_1_1_n_n.rhsIdx_val_of_single rfl i q
theorem rhsA_1 (i : S512x256.Idx) (q : dot_S64x512_S64x256_S512x256_0_0_1_1_n_n.contr.Idx) :
    (dot_S64x512_S64x256_S512x256_0_0_1_1_n_n.rhsIdx i q 1).val = (i 1).val := by
  unfold DotDims.rhsIdx
  rw [dif_neg (show ¬(1 : Fin S64x256.rank) ∈ dot_S64x512_S64x256_S512x256_0_0_1_1_n_n.rhsBatch by decide), dif_pos (show (1 : Fin S64x256.rank) ∈ dot_S64x512_S64x256_S512x256_0_0_1_1_n_n.rhsNonContracting by decide)]
  rfl

theorem lhsB_0 (i : S512x1.Idx) (q : dot_S512x256_S256x1_S512x1_1_0_0_1_n_n.contr.Idx) :
    (dot_S512x256_S256x1_S512x1_1_0_0_1_n_n.lhsIdx i q 0).val = (i 0).val := by
  unfold DotDims.lhsIdx
  rw [dif_neg (show ¬(0 : Fin S512x256.rank) ∈ dot_S512x256_S256x1_S512x1_1_0_0_1_n_n.lhsBatch by decide), dif_pos (show (0 : Fin S512x256.rank) ∈ dot_S512x256_S256x1_S512x1_1_0_0_1_n_n.lhsNonContracting by decide)]
  rfl
theorem lhsB_1 (i : S512x1.Idx) (q : dot_S512x256_S256x1_S512x1_1_0_0_1_n_n.contr.Idx) :
    (dot_S512x256_S256x1_S512x1_1_0_0_1_n_n.lhsIdx i q 1).val = (q ⟨0, by decide⟩).val :=
  dot_S512x256_S256x1_S512x1_1_0_0_1_n_n.lhsIdx_val_of_single rfl i q
theorem rhsB_0 (i : S512x1.Idx) (q : dot_S512x256_S256x1_S512x1_1_0_0_1_n_n.contr.Idx) :
    (dot_S512x256_S256x1_S512x1_1_0_0_1_n_n.rhsIdx i q 0).val = (q ⟨0, by decide⟩).val :=
  dot_S512x256_S256x1_S512x1_1_0_0_1_n_n.rhsIdx_val_of_single rfl i q
theorem rhsB_1 (i : S512x1.Idx) (q : dot_S512x256_S256x1_S512x1_1_0_0_1_n_n.contr.Idx) :
    (dot_S512x256_S256x1_S512x1_1_0_0_1_n_n.rhsIdx i q 1).val = (i 1).val := by
  unfold DotDims.rhsIdx
  rw [dif_neg (show ¬(1 : Fin S256x1.rank) ∈ dot_S512x256_S256x1_S512x1_1_0_0_1_n_n.rhsBatch by decide), dif_pos (show (1 : Fin S256x1.rank) ∈ dot_S512x256_S256x1_S512x1_1_0_0_1_n_n.rhsNonContracting by decide)]
  rfl

/-! ## The two products at an index -/

/-- The first product contracts the FIRST axis of both operands: entry (a, h) is the sum over the basis b of
    left (b, a) times right (b, h). -/
theorem mmA_apply (l : FVec Ideal S64x512 .bf16) (r : FVec Ideal S64x256 .bf16) (a : Fin 512) (h : Fin 256) :
    matmul dot_S64x512_S64x256_S512x256_0_0_1_1_n_n none l r (constant (F := Ideal) S512x256 .f32 0x00000000#32) (ix2 a h)
      = ∑ b : Fin 64, l (ix2 b a) * r (ix2 b h) := by
  simp only [matmul]
  rw [Ideal.matmul_constant_zero_apply, ← Equiv.sum_comp (contrEquiv1 dot_S64x512_S64x256_S512x256_0_0_1_1_n_n 64 rfl rfl).symm]
  refine Finset.sum_congr rfl fun k _ => ?_
  have hk := contrEquiv1_symm_val dot_S64x512_S64x256_S512x256_0_0_1_1_n_n 64 rfl rfl k
  have el : dot_S64x512_S64x256_S512x256_0_0_1_1_n_n.lhsIdx (ix2 a h) ((contrEquiv1 dot_S64x512_S64x256_S512x256_0_0_1_1_n_n 64 rfl rfl).symm k) = ix2 k a := funext fun x => Fin.ext (by
    match x with
    | ⟨0, _⟩ => exact (lhsA_0 _ _).trans hk
    | ⟨1, _⟩ => exact lhsA_1 _ _)
  have er : dot_S64x512_S64x256_S512x256_0_0_1_1_n_n.rhsIdx (ix2 a h) ((contrEquiv1 dot_S64x512_S64x256_S512x256_0_0_1_1_n_n 64 rfl rfl).symm k) = ix2 k h := funext fun x => Fin.ext (by
    match x with
    | ⟨0, _⟩ => exact (rhsA_0 _ _).trans hk
    | ⟨1, _⟩ => exact rhsA_1 _ _)
  rw [el, er]

/-- The second product is rows times a column: entry (a, 0) is the sum over the hidden units h of left (a, h) times
    right (h, 0). -/
theorem mmB_apply (l : FVec Ideal S512x256 .bf16) (r : FVec Ideal S256x1 .bf16) (a : Fin 512) :
    matmul dot_S512x256_S256x1_S512x1_1_0_0_1_n_n none l r (constant (F := Ideal) S512x1 .f32 0x00000000#32) (ix2 a 0)
      = ∑ h : Fin 256, l (ix2 a h) * r (ix2 h 0) := by
  simp only [matmul]
  rw [Ideal.matmul_constant_zero_apply, ← Equiv.sum_comp (contrEquiv1 dot_S512x256_S256x1_S512x1_1_0_0_1_n_n 256 rfl rfl).symm]
  refine Finset.sum_congr rfl fun k _ => ?_
  have hk := contrEquiv1_symm_val dot_S512x256_S256x1_S512x1_1_0_0_1_n_n 256 rfl rfl k
  have el : dot_S512x256_S256x1_S512x1_1_0_0_1_n_n.lhsIdx (ix2 a 0) ((contrEquiv1 dot_S512x256_S256x1_S512x1_1_0_0_1_n_n 256 rfl rfl).symm k) = ix2 a k := funext fun x => Fin.ext (by
    match x with
    | ⟨0, _⟩ => exact lhsB_0 _ _
    | ⟨1, _⟩ => exact (lhsB_1 _ _).trans hk)
  have er : dot_S512x256_S256x1_S512x1_1_0_0_1_n_n.rhsIdx (ix2 a 0) ((contrEquiv1 dot_S512x256_S256x1_S512x1_1_0_0_1_n_n 256 rfl rfl).symm k) = ix2 k 0 := funext fun x => Fin.ext (by
    match x with
    | ⟨0, _⟩ => exact (rhsB_0 _ _).trans hk
    | ⟨1, _⟩ => exact rhsB_1 _ _)
  rw [el, er]

/-! ## The biases, read at an index -/

/-- The first layer's bias, laid out as a row and repeated down the 512 rows, reads its entry h in column h. -/
theorem bias1_apply (v : FVec Ideal S256 .f32) (hc : S256.ShapeCasts S1x256) (hb : S1x256.Broadcasts S512x256)
    (a : Fin 512) (h : Fin 256) :
    broadcastTo S512x256 (shapeCast S1x256 v hc) hb (ix2 a h) = v (ix1 h) := by
  refine (broadcastTo_apply _ hb (ix2 a h) (ix2 0 h) (fun x => ?_)).trans ?_
  · match x with
    | ⟨0, _⟩ => rfl
    | ⟨1, _⟩ => rfl
  · refine shapeCast_apply v hc (ix2 0 h) (ix1 h) ?_
    rw [Shape.rowMajor_val_one, Shape.rowMajor_val_two]
    show h.val = 0 * 256 + h.val
    omega

/-- The second layer's scalar bias, laid out as a 1 × 1 block and repeated down the 512 rows, reads its one entry. -/
theorem bias2_apply (v : FVec Ideal S1 .f32) (hc : S1.ShapeCasts S1x1) (hb : S1x1.Broadcasts S512x1) (a : Fin 512) :
    broadcastTo S512x1 (shapeCast S1x1 v hc) hb (ix2 a 0) = v (ix1 0) := by
  refine (broadcastTo_apply _ hb (ix2 a 0) (ix2 0 0) (fun x => ?_)).trans ?_
  · match x with
    | ⟨0, _⟩ => rfl
    | ⟨1, _⟩ => rfl
  · refine shapeCast_apply v hc (ix2 0 0) (ix1 0) ?_
    rw [Shape.rowMajor_val_one, Shape.rowMajor_val_two]
    rfl

/-- The column of the atoms' scalars, flattened, laid out as a row and repeated over the three components, reads atom
    a's scalar in column a. -/
theorem col_apply (o : FVec Ideal S512x1 .f32) (h1 : S512x1.ShapeCasts S512) (h2 : S512.ShapeCasts S1x512)
    (h3 : S1x512.Broadcasts S3x512) (k : Fin 3) (a : Fin 512) :
    broadcastTo S3x512 (shapeCast S1x512 (shapeCast S512 o h1) h2) h3 (ix2 k a) = o (ix2 a 0) := by
  refine (broadcastTo_apply _ h3 (ix2 k a) (ix2 0 a) (fun x => ?_)).trans ?_
  · match x with
    | ⟨0, _⟩ => rfl
    | ⟨1, _⟩ => rfl
  · refine (shapeCast_apply _ h2 (ix2 0 a) (ix1 a) ?_).trans ?_
    · rw [Shape.rowMajor_val_one, Shape.rowMajor_val_two]
      show a.val = 0 * 512 + a.val
      omega
    · refine shapeCast_apply o h1 (ix1 a) (ix2 a 0) ?_
      rw [Shape.rowMajor_val_one, Shape.rowMajor_val_two]
      show a.val * 1 + 0 = a.val
      omega

/-! ## The three stages -/

/-- The first layer before the activation, at atom a and hidden unit h. -/
theorem layer1_apply (x : FVec Ideal S64x512 .f32) (w : FVec Ideal S64x256 .f32) (bias : FVec Ideal S256 .f32)
    (hlt : FTy.bits .bf16 < FTy.bits .f32) (hc : S256.ShapeCasts S1x256) (hb : S1x256.Broadcasts S512x256)
    (a : Fin 512) (h : Fin 256) :
    addf (matmul dot_S64x512_S64x256_S512x256_0_0_1_1_n_n none (truncf .bf16 x hlt) (truncf .bf16 w hlt)
        (constant (F := Ideal) S512x256 .f32 0x00000000#32)) (broadcastTo S512x256 (shapeCast S1x256 bias hc) hb) (ix2 a h)
      = (∑ b : Fin 64, x (ix2 b a) * w (ix2 b h)) + bias (ix1 h) := by
  show matmul dot_S64x512_S64x256_S512x256_0_0_1_1_n_n none (truncf .bf16 x hlt) (truncf .bf16 w hlt)
        (constant (F := Ideal) S512x256 .f32 0x00000000#32) (ix2 a h) + broadcastTo S512x256 (shapeCast S1x256 bias hc) hb (ix2 a h) = _
  rw [mmA_apply, bias1_apply]
  rfl

/-- The second layer, at atom a, over the first layer's values y before the activation. -/
theorem layer2_apply (y : FVec Ideal S512x256 .f32) (w : FVec Ideal S256x1 .f32) (bias : FVec Ideal S1 .f32)
    (hlt : FTy.bits .bf16 < FTy.bits .f32) (hc : S1.ShapeCasts S1x1) (hb : S1x1.Broadcasts S512x1) (a : Fin 512) :
    addf (matmul dot_S512x256_S256x1_S512x1_1_0_0_1_n_n none (truncf .bf16 (mulf y (logistic y)) hlt) (truncf .bf16 w hlt)
        (constant (F := Ideal) S512x1 .f32 0x00000000#32)) (broadcastTo S512x1 (shapeCast S1x1 bias hc) hb) (ix2 a 0)
      = (∑ h : Fin 256, (y (ix2 a h) * Ideal.logistic (y (ix2 a h))) * w (ix2 h 0)) + bias (ix1 0) := by
  show matmul dot_S512x256_S256x1_S512x1_1_0_0_1_n_n none (truncf .bf16 (mulf y (logistic y)) hlt) (truncf .bf16 w hlt)
        (constant (F := Ideal) S512x1 .f32 0x00000000#32) (ix2 a 0) + broadcastTo S512x1 (shapeCast S1x1 bias hc) hb (ix2 a 0) = _
  rw [mmB_apply, bias2_apply]
  rfl

/-- The sum over the atoms of a vector's component times the atom's scalar, stored as a 1 × 1 × 3 block. -/
theorem lane_sum_apply (t : FVec Ideal S3x512 .f32) (o : FVec Ideal S512x1 .f32)
    (h1 : S512x1.ShapeCasts S512) (h2 : S512.ShapeCasts S1x512) (h3 : S1x512.Broadcasts S3x512)
    (hred : S3x512.Reduces [1] S3) (hφ : FKind.Formats .f32) (hacc : (0x00000000#32 : BitVec 32) = FKind.add.neutral .f32 hφ)
    (h4 : S3.ShapeCasts S1x3) (h5 : S1x3.ShapeCasts S1x1x3) (k : Fin 3) :
    shapeCast S1x1x3 (shapeCast S1x3 (multiReduction (F := Ideal) .add [1] S3
        (mulf t (broadcastTo S3x512 (shapeCast S1x512 (shapeCast S512 o h1) h2) h3)) 0x00000000#32 hred hφ hacc) h4) h5 (ix3 0 0 k)
      = ∑ a : Fin 512, t (ix2 k a) * o (ix2 a 0) := by
  refine (shapeCast_apply _ h5 (ix3 0 0 k) (ix2 0 k) ?_).trans ?_
  · rw [Shape.rowMajor_val_two, Shape.rowMajor_val_three]
    rfl
  refine (shapeCast_apply _ h4 (ix2 0 k) (ix1 k) ?_).trans ?_
  · rw [Shape.rowMajor_val_one, Shape.rowMajor_val_two]
    show k.val = 0 * 3 + k.val
    omega
  refine (Ideal.multiReduction_add_single _ 0x00000000#32 hred hφ hacc (ix1 k)).trans ?_
  refine Finset.sum_congr rfl fun a _ => ?_
  have e : hred.lift (ix1 k) a = ix2 k a := funext fun x => Fin.ext (by
    match x with
    | ⟨0, _⟩ => rfl
    | ⟨1, _⟩ => rfl)
  rw [e]
  exact congrArg (t (ix2 k a) * ·) (col_apply o h1 h2 h3 k a)

/-! ## The head -/

/-- The molecule's dipole from the accumulated densities v115 (basis by atom) and vectors v135 (component by atom),
    the weights v117, v127 and the biases v120, v130. -/
theorem head_apply (v115 : Vec Ideal S64x512 .f32) (v117 : Vec Ideal S64x256 .f32) (v120 : Vec Ideal S256 .f32)
    (v127 : Vec Ideal S256x1 .f32) (v130 : Vec Ideal S1 .f32) (v135 : Vec Ideal S3x512 .f32) (k : Fin 3) :
    k0_pay4 v115 v117 v120 v127 v130 v135 (ix3 0 0 k)
      = Cert.Spec.dipOf (fun b h => v117 (ix2 b h)) (fun h => v120 (ix1 h)) (fun h => v127 (ix2 h 0)) (v130 (ix1 0))
          (fun a b => v115 (ix2 b a)) (fun a kk => v135 (ix2 kk a)) k := by
  unfold k0_pay4
  refine (lane_sum_apply _ _ _ _ _ _ _ _ _ _ k).trans ?_
  unfold Cert.Spec.dipOf Cert.Spec.outOf
  refine Finset.sum_congr rfl fun a _ => congrArg (v135 (ix2 k a) * ·) ?_
  refine (layer2_apply _ _ _ _ _ _ a).trans ?_
  refine congrArg (· + v130 (ix1 0)) (Finset.sum_congr rfl fun h _ => ?_)
  rw [layer1_apply]
  rfl

end Cert.KernelIdeal.KHead

end
-- ==== Proof.SpecSums.lean ====
/-
  Two facts about sums that carry the chunked accumulation of a molecule's densities and vectors.

  The 32768 pairs of a molecule are visited in 16 chunks of 2048: pair number 2048·cc + q is pair q of chunk cc.
  A density (a vector) over all pairs is the sum, over the chunks, of the density (the vector) over each chunk's pairs.
  An accumulator that starts at zero plus the first chunk's term and adds one chunk's term at a time ends, after the
  last chunk, at the sum of all the terms.
-/
import proofs.«426414_j9629316677964_3_alg».proof.Proof.Spec
import Mathlib.Algebra.BigOperators.Fin
import Mathlib.Logic.Equiv.Fin.Basic

noncomputable section

namespace Cert.SpecSums

open Cert.Spec

/-- Pair q of chunk cc is pair 2048·cc + q of the molecule. -/
def pq (cc : Fin 16) (q : Fin 2048) : Fin 32768 := ⟨2048 * cc.val + q.val, by have := cc.isLt; have := q.isLt; omega⟩

@[simp] theorem pq_val (cc : Fin 16) (q : Fin 2048) : (pq cc q).val = 2048 * cc.val + q.val := rfl

/-- Chunk and position inside the chunk, as a bijection with the pairs. -/
def pqEquiv : Fin 16 × Fin 2048 ≃ Fin 32768 where
  toFun x := pq x.1 x.2
  invFun p := (⟨p.val / 2048, by have := p.isLt; omega⟩, ⟨p.val % 2048, Nat.mod_lt _ (by decide)⟩)
  left_inv x := by
    obtain ⟨cc, q⟩ := x
    have := cc.isLt; have := q.isLt
    refine Prod.ext (Fin.ext ?_) (Fin.ext ?_)
    · show (2048 * cc.val + q.val) / 2048 = cc.val
      omega
    · show (2048 * cc.val + q.val) % 2048 = q.val
      omega
  right_inv p := by
    refine Fin.ext ?_
    show 2048 * (p.val / 2048) + p.val % 2048 = p.val
    omega

/-- A sum over the pairs is the sum over the chunks of the sums over each chunk's pairs. -/
theorem sum_chunks {M : Type*} [AddCommMonoid M] (f : Fin 32768 → M) :
    ∑ p, f p = ∑ cc : Fin 16, ∑ q : Fin 2048, f (pq cc q) := by
  rw [← Equiv.sum_comp pqEquiv f, Fintype.sum_prod_type]
  rfl

section Mol
variable (x : Fin 512 → Fin 3 → EReal) (e : Fin 512 → Fin 64 → EReal) (cen wid : Fin 64 → EReal)
variable (s : Fin 32768 → Fin 3 → EReal) (j0 j1 : Fin 32768 → Fin 512)

/-- The density over all pairs is the sum of the densities over the chunks. -/
theorem densP_chunks (a : Fin 512) (b : Fin 64) :
    densP x e cen wid s j0 j1 a b
      = ∑ cc : Fin 16, densP x e cen wid (fun q => s (pq cc q)) (fun q => j0 (pq cc q)) (fun q => j1 (pq cc q)) a b := by
  unfold densP
  exact sum_chunks _

/-- The vector over all pairs is the sum of the vectors over the chunks. -/
theorem totP_chunks (a : Fin 512) (k : Fin 3) :
    totP x s j0 j1 a k
      = ∑ cc : Fin 16, totP x (fun q => s (pq cc q)) (fun q => j0 (pq cc q)) (fun q => j1 (pq cc q)) a k := by
  unfold totP
  exact sum_chunks _

end Mol

/-! ## An accumulator that adds one term per step -/

/-- After step n the accumulator holds the first n + 1 terms. -/
theorem fold_prefix {M : Type*} [AddCommMonoid M] (N : ℕ) (D : Fin (N + 1) → M) (S : ℕ → M) (z : M) (hz : z = 0)
    (h0 : S 0 = z + D 0)
    (hs : ∀ n (h : n + 1 < N + 1), S (n + 1) = S n + D ⟨n + 1, h⟩) :
    ∀ n (h : n < N + 1), S n = ∑ i : Fin (n + 1), D ⟨i.val, by have := i.isLt; omega⟩ := by
  intro n
  induction n with
  | zero =>
    intro _
    rw [h0, hz, zero_add, Fin.sum_univ_one]
    rfl
  | succ n ih =>
    intro h
    rw [hs n h, ih (by omega), Fin.sum_univ_castSucc (n := n + 1)]
    rfl

/-- After the last step it holds the sum of all the terms. -/
theorem fold_sum {M : Type*} [AddCommMonoid M] (N : ℕ) (D : Fin (N + 1) → M) (S : ℕ → M) (z : M) (hz : z = 0)
    (h0 : S 0 = z + D 0)
    (hs : ∀ n (h : n + 1 < N + 1), S (n + 1) = S n + D ⟨n + 1, h⟩) :
    S N = ∑ i : Fin (N + 1), D i := by
  rw [fold_prefix N D S z hz h0 hs N (Nat.lt_succ_self N)]

/-- The sixteen chunks of a molecule: an accumulator indexed by the chunk, reset to zero plus the first term at
    chunk 0 and adding one chunk's term at each later chunk, holds at chunk 15 the sum over the chunks. -/
theorem fold16 {M : Type*} [AddCommMonoid M] (D : Fin 16 → M) (S : Fin 16 → M) (z : M) (hz : z = 0)
    (h0 : S 0 = z + D 0)
    (hs : ∀ (n : ℕ) (h : n + 1 < 16), S ⟨n + 1, h⟩ = S ⟨n, by omega⟩ + D ⟨n + 1, h⟩) :
    S 15 = ∑ cc : Fin 16, D cc := by
  have key := fold_sum 15 D (fun n => if h : n < 16 then S ⟨n, h⟩ else 0) z hz
    (by simpa using h0)
    (fun n h => by
      have h1 : n + 1 < 16 := h
      have h2 : n < 16 := by omega
      simp only [h1, h2, dite_true]
      exact hs n h1)
  simpa using key

end Cert.SpecSums

end
-- ==== Proof.KGlue.lean ====
/-
  From the chunk steps to a molecule's dipole.

  If the chunk step of chunk cc of molecule mm adds D cc to the density accumulator and DT cc to the vector accumulator,
  entry by entry, then — the accumulators starting at zero at the molecule's first chunk — after the sixteenth chunk they
  hold the sums of the D cc and of the DT cc, and the molecule's row of the program's result is the head (the two-layer
  perceptron and the contraction with the vectors) of these two sums and the four weight tables.
-/
import proofs.«426414_j9629316677964_3_alg».proof.Proof.KFrameSteps
import proofs.«426414_j9629316677964_3_alg».proof.Proof.KFrameRun
import proofs.«426414_j9629316677964_3_alg».proof.Proof.KHead
import proofs.«426414_j9629316677964_3_alg».proof.Proof.SpecSums
import proofs.«426414_j9629316677964_3_alg».proof.Proof.Spec

noncomputable section

namespace Cert.KernelIdeal.KGlue

open Idealize.ShloMosaic Idealize.ShloMosaic.TcCoe Idealize.SL.Sem Idealize.ShloMosaic.ValueIdx
open Cert.KernelIdeal Cert.KernelIdeal.Gen Cert.KernelIdeal.KStep Cert.KernelIdeal.KFramePieces
open Cert.KernelIdeal.KFrameSteps Cert.KernelIdeal.KFrameRun

variable (m : (ℓ : Loc nD τ sig) → Buf (Elt Ideal) ℓ)

/-- Chunk cc of molecule mm, as a grid point. -/
def pt (mm : Fin 32) (cc : Fin 16) : Fin cfg0.N :=
  ⟨16 * mm.val + cc.val, by rw [hN]; have := mm.isLt; have := cc.isLt; omega⟩

theorem pt_val (mm : Fin 32) (cc : Fin 16) : (pt mm cc).val = 16 * mm.val + cc.val := rfl

/-- The molecule's last chunk. -/
theorem lastPt_eq (mm : Fin 32) : lastPt mm = pt mm 15 := rfl

/-- The weight tables' blocks at a point, at their literal types. -/
abbrev tabW1 (c : Dev nD) (t : Fin cfg0.N) : Vec Ideal S64x256 .f32 := iblk m c 6 t
abbrev tabB1 (c : Dev nD) (t : Fin cfg0.N) : Vec Ideal S256 .f32 := iblk m c 7 t
abbrev tabW2 (c : Dev nD) (t : Fin cfg0.N) : Vec Ideal S256x1 .f32 := iblk m c 8 t
abbrev tabB2 (c : Dev nD) (t : Fin cfg0.N) : Vec Ideal S1 .f32 := iblk m c 9 t

/-- The density accumulator after chunk cc of molecule mm. -/
def accD (c : Dev nD) (mm : Fin 32) (cc : Fin 16) : Vec Ideal S64x512 .f32 :=
  (outsAt0 m c (pt mm cc).val (pt mm cc).isLt).2.1

/-- The vector accumulator after chunk cc of molecule mm. -/
def accT (c : Dev nD) (mm : Fin 32) (cc : Fin 16) : Vec Ideal S3x512 .f32 :=
  (outsAt0 m c (pt mm cc).val (pt mm cc).isLt).2.2

/-- The zero block the density accumulator is reset to. -/
theorem zeroD_apply (i : S64x512.Idx) : k0_pay5 (F := Ideal) i = 0 := by
  unfold k0_pay5
  rw [shapeCast_self]
  exact Ideal.ofBits_zero_f32

/-- The zero block the vector accumulator is reset to. -/
theorem zeroT_apply (i : S3x512.Idx) : k0_pay6 (F := Ideal) i = 0 := by
  unfold k0_pay6
  rw [shapeCast_self]
  exact Ideal.ofBits_zero_f32

theorem accD_zero (c : Dev nD) (mm : Fin 32) :
    accD m c mm 0 = stepD (iblk m c 0 (pt mm 0)) (iblk m c 1 (pt mm 0)) (idxRow0 (iblk m c 2 (pt mm 0))) (idxRow1 (iblk m c 2 (pt mm 0))) (iblk m c 3 (pt mm 0)) (iblk m c 4 (pt mm 0)) (iblk m c 5 (pt mm 0)) (k0_pay5 (F := Ideal)) :=
  dens_first m c (pt mm 0) (by rw [pt_val]; show (16 * mm.val + 0) % 16 = 0; omega)

theorem accT_zero (c : Dev nD) (mm : Fin 32) :
    accT m c mm 0 = stepT (iblk m c 0 (pt mm 0)) (iblk m c 1 (pt mm 0)) (idxRow0 (iblk m c 2 (pt mm 0))) (idxRow1 (iblk m c 2 (pt mm 0))) (iblk m c 3 (pt mm 0)) (iblk m c 4 (pt mm 0)) (iblk m c 5 (pt mm 0)) (k0_pay6 (F := Ideal)) :=
  tot_first m c (pt mm 0) (by rw [pt_val]; show (16 * mm.val + 0) % 16 = 0; omega)

theorem accD_succ (c : Dev nD) (mm : Fin 32) (n : ℕ) (h : n + 1 < 16) :
    accD m c mm ⟨n + 1, h⟩ = stepD (iblk m c 0 (pt mm ⟨n + 1, h⟩)) (iblk m c 1 (pt mm ⟨n + 1, h⟩)) (idxRow0 (iblk m c 2 (pt mm ⟨n + 1, h⟩))) (idxRow1 (iblk m c 2 (pt mm ⟨n + 1, h⟩))) (iblk m c 3 (pt mm ⟨n + 1, h⟩)) (iblk m c 4 (pt mm ⟨n + 1, h⟩)) (iblk m c 5 (pt mm ⟨n + 1, h⟩)) (accD m c mm ⟨n, by omega⟩) := by
  have hne : ¬(pt mm ⟨n + 1, h⟩).val % 16 = 0 := by rw [pt_val]; show ¬(16 * mm.val + (n + 1)) % 16 = 0; omega
  have hp : (pt mm ⟨n + 1, h⟩).val - 1 = (pt mm ⟨n, by omega⟩).val := by
    rw [pt_val, pt_val]; show 16 * mm.val + (n + 1) - 1 = 16 * mm.val + n; omega
  unfold accD
  rw [dens_next m c (pt mm ⟨n + 1, h⟩) hne, outsAt0_congr m c hp _ (pt mm ⟨n, by omega⟩).isLt]

theorem accT_succ (c : Dev nD) (mm : Fin 32) (n : ℕ) (h : n + 1 < 16) :
    accT m c mm ⟨n + 1, h⟩ = stepT (iblk m c 0 (pt mm ⟨n + 1, h⟩)) (iblk m c 1 (pt mm ⟨n + 1, h⟩)) (idxRow0 (iblk m c 2 (pt mm ⟨n + 1, h⟩))) (idxRow1 (iblk m c 2 (pt mm ⟨n + 1, h⟩))) (iblk m c 3 (pt mm ⟨n + 1, h⟩)) (iblk m c 4 (pt mm ⟨n + 1, h⟩)) (iblk m c 5 (pt mm ⟨n + 1, h⟩)) (accT m c mm ⟨n, by omega⟩) := by
  have hne : ¬(pt mm ⟨n + 1, h⟩).val % 16 = 0 := by rw [pt_val]; show ¬(16 * mm.val + (n + 1)) % 16 = 0; omega
  have hp : (pt mm ⟨n + 1, h⟩).val - 1 = (pt mm ⟨n, by omega⟩).val := by
    rw [pt_val, pt_val]; show 16 * mm.val + (n + 1) - 1 = 16 * mm.val + n; omega
  unfold accT
  rw [tot_next m c (pt mm ⟨n + 1, h⟩) hne, outsAt0_congr m c hp _ (pt mm ⟨n, by omega⟩).isLt]

section Sums
variable (c : Dev nD) (mm : Fin 32) (D : Fin 16 → Fin 64 → Fin 512 → EReal) (DT : Fin 16 → Fin 3 → Fin 512 → EReal)
variable (hD : ∀ (cc : Fin 16) (xs0 : Vec Ideal S64x512 .f32) (b : Fin 64) (a : Fin 512),
    stepD (iblk m c 0 (pt mm cc)) (iblk m c 1 (pt mm cc)) (idxRow0 (iblk m c 2 (pt mm cc))) (idxRow1 (iblk m c 2 (pt mm cc))) (iblk m c 3 (pt mm cc)) (iblk m c 4 (pt mm cc)) (iblk m c 5 (pt mm cc)) xs0 (ix2 b a) = xs0 (ix2 b a) + D cc b a)
variable (hT : ∀ (cc : Fin 16) (xs1 : Vec Ideal S3x512 .f32) (k : Fin 3) (a : Fin 512),
    stepT (iblk m c 0 (pt mm cc)) (iblk m c 1 (pt mm cc)) (idxRow0 (iblk m c 2 (pt mm cc))) (idxRow1 (iblk m c 2 (pt mm cc))) (iblk m c 3 (pt mm cc)) (iblk m c 4 (pt mm cc)) (iblk m c 5 (pt mm cc)) xs1 (ix2 k a) = xs1 (ix2 k a) + DT cc k a)

include hD in
/-- After the last chunk the density accumulator holds the sum of the chunks' terms. -/
theorem accD_last (b : Fin 64) (a : Fin 512) : accD m c mm 15 (ix2 b a) = ∑ cc : Fin 16, D cc b a := by
  refine Cert.SpecSums.fold16 (fun cc => D cc b a) (fun cc => accD m c mm cc (ix2 b a)) (k0_pay5 (F := Ideal) (ix2 b a))
    (zeroD_apply _) ?_ ?_
  · show accD m c mm 0 (ix2 b a) = _
    rw [accD_zero m c mm]
    exact hD 0 (k0_pay5 (F := Ideal)) b a
  · intro n h
    show accD m c mm ⟨n + 1, h⟩ (ix2 b a) = accD m c mm ⟨n, by omega⟩ (ix2 b a) + D ⟨n + 1, h⟩ b a
    rw [accD_succ m c mm n h]
    exact hD ⟨n + 1, h⟩ (accD m c mm ⟨n, by omega⟩) b a

include hT in
/-- After the last chunk the vector accumulator holds the sum of the chunks' terms. -/
theorem accT_last (k : Fin 3) (a : Fin 512) : accT m c mm 15 (ix2 k a) = ∑ cc : Fin 16, DT cc k a := by
  refine Cert.SpecSums.fold16 (fun cc => DT cc k a) (fun cc => accT m c mm cc (ix2 k a)) (k0_pay6 (F := Ideal) (ix2 k a))
    (zeroT_apply _) ?_ ?_
  · show accT m c mm 0 (ix2 k a) = _
    rw [accT_zero m c mm]
    exact hT 0 (k0_pay6 (F := Ideal)) k a
  · intro n h
    show accT m c mm ⟨n + 1, h⟩ (ix2 k a) = accT m c mm ⟨n, by omega⟩ (ix2 k a) + DT ⟨n + 1, h⟩ k a
    rw [accT_succ m c mm n h]
    exact hT ⟨n + 1, h⟩ (accT m c mm ⟨n, by omega⟩) k a

include hD hT in
/-- The molecule's row of the program's result: the head of the summed terms and the four weight tables. -/
theorem res_of_steps (k : Fin 3) :
    res m c (ix2 mm k)
      = Cert.Spec.dipOf (fun b h => tabW1 m c (lastPt mm) (ix2 b h)) (fun h => tabB1 m c (lastPt mm) (ix1 h))
          (fun h => tabW2 m c (lastPt mm) (ix2 h 0)) (tabB2 m c (lastPt mm) (ix1 0))
          (fun a b => ∑ cc : Fin 16, D cc b a) (fun a kk => ∑ cc : Fin 16, DT cc kk a) k := by
  have h15 : (lastPt mm).val % 16 = 15 := by
    show (16 * mm.val + 15) % 16 = 15
    omega
  rw [res_apply, out_last m c (lastPt mm) h15]
  refine (Cert.KernelIdeal.KHead.head_apply (outsAt0 m c (lastPt mm).val (lastPt mm).isLt).2.1 (tabW1 m c (lastPt mm))
    (tabB1 m c (lastPt mm)) (tabW2 m c (lastPt mm)) (tabB2 m c (lastPt mm))
    (outsAt0 m c (lastPt mm).val (lastPt mm).isLt).2.2 k).trans ?_
  have eD : (fun (a : Fin 512) (b : Fin 64) => (outsAt0 m c (lastPt mm).val (lastPt mm).isLt).2.1 (ix2 b a))
      = fun a b => ∑ cc : Fin 16, D cc b a := by
    funext a b
    exact accD_last m c mm D hD b a
  have eT : (fun (a : Fin 512) (kk : Fin 3) => (outsAt0 m c (lastPt mm).val (lastPt mm).isLt).2.2 (ix2 kk a))
      = fun a kk => ∑ cc : Fin 16, DT cc kk a := by
    funext a kk
    exact accT_last m c mm DT hT kk a
  rw [eD, eT]

end Sums

end Cert.KernelIdeal.KGlue

end
-- ==== Proof.KHostA.lean ====
/-
  What the pallas_call's operand arrays hold when the region is entered, read at an index.

  Before the region the program transposes the coordinates [32,512,3] → [32,3,512] and the shifts
  [32,32768,3] → [32,3,32768], views the centres and the widths [64] as columns [64,1], and lays the two rows of
  the pair table [2,32,32768] side by side per molecule, [32,2,32768]. Each of these arrays, read at an index, is an
  argument array read at the index with the coordinates permuted accordingly.
-/
import proofs.«426414_j9629316677964_3_alg».proof.Proof.Gen.KernelIdeal.Frame
import Idealize.ShloMosaic.Lib.ValueIdx
import Idealize.ShloMosaic.Lib.ValueLayout
import Idealize.ShloMosaic.Lib.Pipeline.Value

noncomputable section

namespace Cert.KernelIdeal.KHostA

open Idealize.ShloMosaic Idealize.ShloMosaic.ValueIdx Idealize.ShloMosaic.TcCoe
open Idealize.SL Idealize.SL.Sem
open Cert.KernelIdeal Cert.KernelIdeal.Gen

variable {F : FTy → Type} [FloatOps F]
variable (m : (ℓ : Loc nD τ sig) → Buf (Elt F) ℓ)

/-! ## The host operations before the region, stretch by stretch -/

/-- The contents after two stretches of operations run one after the other. -/
theorem after_append (l₁ l₂ : List (HloOp τ sig (Elt F))) (X : Valuation τ sig (Elt F)) :
    StableHlo.after (l₁ ++ l₂) X = StableHlo.after l₂ (StableHlo.after l₁ X) := by
  induction l₁ generalizing X with
  | nil => rfl
  | cons op l ih => exact ih _

/-- Three stretches. -/
theorem after_flatten3 (l₀ l₁ l₂ : List (HloOp τ sig (Elt F))) (X : Valuation τ sig (Elt F)) :
    StableHlo.after (List.flatten [l₀, l₁, l₂]) X = StableHlo.after l₂ (StableHlo.after l₁ (StableHlo.after l₀ X)) := by
  rw [List.flatten_cons, List.flatten_cons, List.flatten_cons, List.flatten_nil, List.append_nil, after_append, after_append]

/-- The region finds each buffer as the three stretches leave it, one after the other, from the launch contents. -/
theorem V_split (c : Dev nD) (b : Ref sig .tc) :
    V m c b = StableHlo.after hostOps0_2 (StableHlo.after hostOps0_1 (StableHlo.after hostOps0 (fun b => m (c, b)))) (Proc.devRef .tc b) :=
  congrFun (after_flatten3 hostOps0 hostOps0_1 hostOps0_2 (fun b => m (c, b))) (Proc.devRef .tc b)

variable (X : Valuation τ sig (Elt F))

/-- The first stretch transposes the coordinates. -/
theorem ops0_v0 :
    (StableHlo.after hostOps0 X (Proc.devRef .tc main_v0) : (⟨S32x3x512, .f32⟩ : BufTy).Contents (Elt F))
      = transpose S32x3x512 [0, 2, 1] (X (Proc.devRef .tc main_arg0)) transposes_S32x512x3_S32x3x512_0_2_1 := by
  rw [hostOps0]; after_results

theorem ops0_arg1 : StableHlo.after hostOps0 X (Proc.devRef .tc main_arg1) = X (Proc.devRef .tc main_arg1) := by
  rw [hostOps0]; after_results
theorem ops0_arg2 : StableHlo.after hostOps0 X (Proc.devRef .tc main_arg2) = X (Proc.devRef .tc main_arg2) := by
  rw [hostOps0]; after_results
theorem ops0_arg3 : StableHlo.after hostOps0 X (Proc.devRef .tc main_arg3) = X (Proc.devRef .tc main_arg3) := by
  rw [hostOps0]; after_results
theorem ops0_arg4 : StableHlo.after hostOps0 X (Proc.devRef .tc main_arg4) = X (Proc.devRef .tc main_arg4) := by
  rw [hostOps0]; after_results
theorem ops0_arg10 : StableHlo.after hostOps0 X (Proc.devRef .tc main_arg10) = X (Proc.devRef .tc main_arg10) := by
  rw [hostOps0]; after_results
theorem ops0_arg11 : StableHlo.after hostOps0 X (Proc.devRef .tc main_arg11) = X (Proc.devRef .tc main_arg11) := by
  rw [hostOps0]; after_results

/-- The second stretch (the embedding rows) leaves the other arrays alone. -/
theorem ops1_v0 : StableHlo.after hostOps0_1 X (Proc.devRef .tc main_v0) = X (Proc.devRef .tc main_v0) := by
  rw [hostOps0_1]; after_results
theorem ops1_arg1 : StableHlo.after hostOps0_1 X (Proc.devRef .tc main_arg1) = X (Proc.devRef .tc main_arg1) := by
  rw [hostOps0_1]; after_results
theorem ops1_arg2 : StableHlo.after hostOps0_1 X (Proc.devRef .tc main_arg2) = X (Proc.devRef .tc main_arg2) := by
  rw [hostOps0_1]; after_results
theorem ops1_arg3 : StableHlo.after hostOps0_1 X (Proc.devRef .tc main_arg3) = X (Proc.devRef .tc main_arg3) := by
  rw [hostOps0_1]; after_results
theorem ops1_arg11 : StableHlo.after hostOps0_1 X (Proc.devRef .tc main_arg11) = X (Proc.devRef .tc main_arg11) := by
  rw [hostOps0_1]; after_results

/-- The third stretch keeps the transposed coordinates, -/
theorem ops2_v0 : StableHlo.after hostOps0_2 X (Proc.devRef .tc main_v0) = X (Proc.devRef .tc main_v0) := by
  rw [hostOps0_2]; after_results

/-- transposes the shifts, -/
theorem ops2_v11 :
    (StableHlo.after hostOps0_2 X (Proc.devRef .tc main_v11) : (⟨S32x3x32768, .f32⟩ : BufTy).Contents (Elt F))
      = transpose S32x3x32768 [0, 2, 1] (X (Proc.devRef .tc main_arg1)) transposes_S32x32768x3_S32x3x32768_0_2_1 := by
  rw [hostOps0_2]; after_results

/-- views the centres and the widths as columns, -/
theorem ops2_v12 :
    (StableHlo.after hostOps0_2 X (Proc.devRef .tc main_v12) : (⟨S64x1, .f32⟩ : BufTy).Contents (Elt F))
      = shapeCast S64x1 (X (Proc.devRef .tc main_arg2)) shapeCasts_S64_S64x1 := by
  rw [hostOps0_2]; after_results; rfl
theorem ops2_v13 :
    (StableHlo.after hostOps0_2 X (Proc.devRef .tc main_v13) : (⟨S64x1, .f32⟩ : BufTy).Contents (Elt F))
      = shapeCast S64x1 (X (Proc.devRef .tc main_arg3)) shapeCasts_S64_S64x1 := by
  rw [hostOps0_2]; after_results; rfl

/-- and puts row r of the pair table, viewed [32,32768], at position r of a new middle axis. -/
theorem ops2_v10 :
    (StableHlo.after hostOps0_2 X (Proc.devRef .tc main_v10) : (⟨S32x2x32768, .i32⟩ : BufTy).Contents (Elt F))
      = concatenate S32x2x32768 1
          [⟨S32x1x32768, broadcastInDim S32x1x32768 ![0, 2] bcast_S32x32768_S32x1x32768_0_2
              (shapeCast S32x32768 (extractStridedSlice S1x32x32768 ![0, 0, 0] (X (Proc.devRef .tc main_arg11))
                slices_S2x32x32768_S1x32x32768_0_0_0) shapeCasts_S1x32x32768_S32x32768)⟩,
           ⟨S32x1x32768, broadcastInDim S32x1x32768 ![0, 2] bcast_S32x32768_S32x1x32768_0_2
              (shapeCast S32x32768 (extractStridedSlice S1x32x32768 ![1, 0, 0] (X (Proc.devRef .tc main_arg11))
                slices_S2x32x32768_S1x32x32768_1_0_0) shapeCasts_S1x32x32768_S32x32768)⟩]
          concatenates_S32x1x32768_S32x1x32768_S32x2x32768_d1 := by
  rw [hostOps0_2]; after_results; rfl

/-! ## The arrays as terms of the arguments -/

/-- The coordinates, transposed. -/
theorem V_main_v0 (c : Dev nD) :
    (V m c main_v0 : (⟨S32x3x512, .f32⟩ : BufTy).Contents (Elt F))
      = transpose S32x3x512 [0, 2, 1] (m ((c : Thread nD τ).loc main_arg0)) transposes_S32x512x3_S32x3x512_0_2_1 := by
  rw [V_split, ops2_v0, ops1_v0, ops0_v0]

/-- The shifts, transposed. -/
theorem V_main_v11 (c : Dev nD) :
    (V m c main_v11 : (⟨S32x3x32768, .f32⟩ : BufTy).Contents (Elt F))
      = transpose S32x3x32768 [0, 2, 1] (m ((c : Thread nD τ).loc main_arg1)) transposes_S32x32768x3_S32x3x32768_0_2_1 := by
  rw [V_split, ops2_v11, ops1_arg1, ops0_arg1]

/-- The centres as a column. -/
theorem V_main_v12 (c : Dev nD) :
    (V m c main_v12 : (⟨S64x1, .f32⟩ : BufTy).Contents (Elt F))
      = shapeCast S64x1 (m ((c : Thread nD τ).loc main_arg2)) shapeCasts_S64_S64x1 := by
  rw [V_split, ops2_v12, ops1_arg2, ops0_arg2]

/-- The widths as a column. -/
theorem V_main_v13 (c : Dev nD) :
    (V m c main_v13 : (⟨S64x1, .f32⟩ : BufTy).Contents (Elt F))
      = shapeCast S64x1 (m ((c : Thread nD τ).loc main_arg3)) shapeCasts_S64_S64x1 := by
  rw [V_split, ops2_v13, ops1_arg3, ops0_arg3]

/-- The pair table, rearranged. -/
theorem V_main_v10 (c : Dev nD) :
    (V m c main_v10 : (⟨S32x2x32768, .i32⟩ : BufTy).Contents (Elt F))
      = concatenate S32x2x32768 1
          [⟨S32x1x32768, broadcastInDim S32x1x32768 ![0, 2] bcast_S32x32768_S32x1x32768_0_2
              (shapeCast S32x32768 (extractStridedSlice S1x32x32768 ![0, 0, 0] (m ((c : Thread nD τ).loc main_arg11))
                slices_S2x32x32768_S1x32x32768_0_0_0) shapeCasts_S1x32x32768_S32x32768)⟩,
           ⟨S32x1x32768, broadcastInDim S32x1x32768 ![0, 2] bcast_S32x32768_S32x1x32768_0_2
              (shapeCast S32x32768 (extractStridedSlice S1x32x32768 ![1, 0, 0] (m ((c : Thread nD τ).loc main_arg11))
                slices_S2x32x32768_S1x32x32768_1_0_0) shapeCasts_S1x32x32768_S32x32768)⟩]
          concatenates_S32x1x32768_S32x1x32768_S32x2x32768_d1 := by
  rw [V_split, ops2_v10, ops1_arg11, ops0_arg11]

/-! ## Read at an index -/

/-- Coordinate k of atom a of molecule mm. -/
theorem V_main_v0_apply (c : Dev nD) (mm : Fin 32) (k : Fin 3) (a : Fin 512) :
    (V m c main_v0 : (⟨S32x3x512, .f32⟩ : BufTy).Contents (Elt F)) (ix3 mm k a)
      = (m ((c : Thread nD τ).loc main_arg0) : (⟨S32x512x3, .f32⟩ : BufTy).Contents (Elt F)) (ix3 mm a k) :=
  (congrFun (V_main_v0 m c) (ix3 mm k a)).trans (transpose_ix3_021_apply _ _ mm k a)

/-- Component k of the shift of pair p of molecule mm. -/
theorem V_main_v11_apply (c : Dev nD) (mm : Fin 32) (k : Fin 3) (p : Fin 32768) :
    (V m c main_v11 : (⟨S32x3x32768, .f32⟩ : BufTy).Contents (Elt F)) (ix3 mm k p)
      = (m ((c : Thread nD τ).loc main_arg1) : (⟨S32x32768x3, .f32⟩ : BufTy).Contents (Elt F)) (ix3 mm p k) :=
  (congrFun (V_main_v11 m c) (ix3 mm k p)).trans (transpose_ix3_021_apply _ _ mm k p)

/-- A vector [n] viewed as a column [n,1] reads its entry b at (b, 0). -/
theorem shapeCast_col_apply {α : Type} {n : Nat} (x : (⟨1, ![n]⟩ : Shape).Idx → α)
    (h : (⟨1, ![n]⟩ : Shape).ShapeCasts ⟨2, ![n, 1]⟩) (b : Fin n) (u : Fin 1) :
    shapeCast ⟨2, ![n, 1]⟩ x h (ix2 b u) = x (ix1 b) :=
  shapeCast_apply x h _ _ (by
    have hu : u.val = 0 := by omega
    rw [Shape.rowMajor_val_two, Shape.rowMajor_val_one]
    show b.val = b.val * 1 + u.val
    rw [hu, Nat.mul_one, Nat.add_zero])

/-- Centre b. -/
theorem V_main_v12_apply (c : Dev nD) (b : Fin 64) (u : Fin 1) :
    (V m c main_v12 : (⟨S64x1, .f32⟩ : BufTy).Contents (Elt F)) (ix2 b u)
      = (m ((c : Thread nD τ).loc main_arg2) : (⟨S64, .f32⟩ : BufTy).Contents (Elt F)) (ix1 b) :=
  (congrFun (V_main_v12 m c) (ix2 b u)).trans (shapeCast_col_apply _ _ b u)

/-- Width b. -/
theorem V_main_v13_apply (c : Dev nD) (b : Fin 64) (u : Fin 1) :
    (V m c main_v13 : (⟨S64x1, .f32⟩ : BufTy).Contents (Elt F)) (ix2 b u)
      = (m ((c : Thread nD τ).loc main_arg3) : (⟨S64, .f32⟩ : BufTy).Contents (Elt F)) (ix1 b) :=
  (congrFun (V_main_v13 m c) (ix2 b u)).trans (shapeCast_col_apply _ _ b u)

/-- Row r of a [2,32,32768] table, cut out, viewed [32,32768] and given a unit middle axis, reads the table at (r, mm, p). -/
theorem row_apply {α : Type} (x : S2x32x32768.Idx → α) (r : Fin 2) (hs : S2x32x32768.Slices ![r.val, 0, 0] S1x32x32768)
    (mm : Fin 32) (u : Fin 1) (p : Fin 32768) :
    broadcastInDim S32x1x32768 ![0, 2] bcast_S32x32768_S32x1x32768_0_2
        (shapeCast S32x32768 (extractStridedSlice S1x32x32768 ![r.val, 0, 0] x hs) shapeCasts_S1x32x32768_S32x32768) (ix3 mm u p)
      = x (ix3 r mm p) := by
  refine (broadcastInDim_apply _ _ _ (ix3 mm u p) (ix2 mm p) fun a => ?_).trans ?_
  · match a with
    | ⟨0, _⟩ => rfl
    | ⟨1, _⟩ => rfl
  refine (shapeCast_1ab_ab_apply _ _ mm p).trans ?_
  refine extractStridedSlice_apply _ x hs _ (ix3 r mm p) fun a => ?_
  match a with
  | ⟨0, _⟩ => show r.val = r.val + 0; rfl
  | ⟨1, _⟩ => show mm.val = 0 + mm.val; exact (Nat.zero_add _).symm
  | ⟨2, _⟩ => show p.val = 0 + p.val; exact (Nat.zero_add _).symm

/-- Two such rows side by side: the first one's entries. -/
theorem rows_apply_zero {α : Type} (x₀ x₁ : S32x1x32768.Idx → α) (mm : Fin 32) (p : Fin 32768) :
    concatenate S32x2x32768 1 [⟨S32x1x32768, x₀⟩, ⟨S32x1x32768, x₁⟩] concatenates_S32x1x32768_S32x1x32768_S32x2x32768_d1
        (ix3 mm (0 : Fin 2) p) = x₀ (ix3 mm (0 : Fin 1) p) :=
  concatenate_pair_apply_left (t := S32x2x32768) (s₁ := S32x1x32768) (s₂ := S32x1x32768) (1 : Fin 3) x₀ x₁
    concatenates_S32x1x32768_S32x1x32768_S32x2x32768_d1 (ix3 mm (0 : Fin 2) p) rfl (ix3 mm (0 : Fin 1) p) fun b => by
      match b with
      | ⟨0, _⟩ => rfl
      | ⟨1, _⟩ => rfl
      | ⟨2, _⟩ => rfl

/-- The second one's entries. -/
theorem rows_apply_one {α : Type} (x₀ x₁ : S32x1x32768.Idx → α) (mm : Fin 32) (p : Fin 32768) :
    concatenate S32x2x32768 1 [⟨S32x1x32768, x₀⟩, ⟨S32x1x32768, x₁⟩] concatenates_S32x1x32768_S32x1x32768_S32x2x32768_d1
        (ix3 mm (1 : Fin 2) p) = x₁ (ix3 mm (0 : Fin 1) p) :=
  concatenate_pair_apply_right (t := S32x2x32768) (s₁ := S32x1x32768) (s₂ := S32x1x32768) (1 : Fin 3) x₀ x₁
    concatenates_S32x1x32768_S32x1x32768_S32x2x32768_d1 (ix3 mm (1 : Fin 2) p) rfl rfl (ix3 mm (0 : Fin 1) p)
    (fun b hb => by
      match b with
      | ⟨0, _⟩ => rfl
      | ⟨1, _⟩ => exact absurd rfl hb
      | ⟨2, _⟩ => rfl)
    rfl

/-- Atom index r (0: the centre, 1: the neighbour) of pair p of molecule mm. -/
theorem V_main_v10_apply (c : Dev nD) (mm : Fin 32) (r : Fin 2) (p : Fin 32768) :
    (V m c main_v10 : (⟨S32x2x32768, .i32⟩ : BufTy).Contents (Elt F)) (ix3 mm r p)
      = (m ((c : Thread nD τ).loc main_arg11) : (⟨S2x32x32768, .i32⟩ : BufTy).Contents (Elt F)) (ix3 r mm p) := by
  refine (congrFun (V_main_v10 m c) (ix3 mm r p)).trans ?_
  match r with
  | ⟨0, _⟩ =>
    exact (rows_apply_zero _ _ mm p).trans (row_apply _ (0 : Fin 2) slices_S2x32x32768_S1x32x32768_0_0_0 mm 0 p)
  | ⟨1, _⟩ =>
    exact (rows_apply_one _ _ mm p).trans (row_apply _ (1 : Fin 2) slices_S2x32x32768_S1x32x32768_1_0_0 mm 0 p)

end Cert.KernelIdeal.KHostA

end
-- ==== Proof.KHostC.lean ====
/-
  The blocks the kernel body finds at a grid point, read off the operand arrays.

  The grid has 32 × 16 points; point t = 16·mm + cc works on chunk cc of molecule mm. The coordinates' and the embedding's
  blocks are molecule mm's whole slices [1,3,512] and [1,64,512]; the pair table's and the shifts' blocks are the 2048 pairs
  of chunk cc, [1,2,2048] and [1,3,2048]: pair q of the block is pair 2048·cc + q of the molecule; the centres, the
  widths and the perceptron's four tables are whole arrays at every point. A block's element sits in its array, on each
  axis, at the block index times the block's extent plus its own coordinate.
-/
import proofs.«426414_j9629316677964_3_alg».proof.Proof.KHostA

noncomputable section

namespace Cert.KernelIdeal.KHostC

open Idealize.ShloMosaic Idealize.ShloMosaic.ValueIdx Idealize.ShloMosaic.TcCoe
open Idealize.SL Idealize.SL.Sem
open Cert.KernelIdeal Cert.KernelIdeal.Gen

variable {F : FTy → Type} [FloatOps F]
variable (m : (ℓ : Loc nD τ sig) → Buf (Elt F) ℓ)

/-- The block indices at every grid point: the molecule on the leading axis of the four per-molecule operands, the chunk
    on the pair axis of the two per-chunk ones, zero everywhere else. -/
theorem idx_facts : ∀ t : Fin cfg0.N,
    (win0_0.index t (0 : Fin 3) = t.val / 16 ∧ win0_0.index t (1 : Fin 3) = 0 ∧ win0_0.index t (2 : Fin 3) = 0)
    ∧ (win0_1.index t (0 : Fin 3) = t.val / 16 ∧ win0_1.index t (1 : Fin 3) = 0 ∧ win0_1.index t (2 : Fin 3) = 0)
    ∧ (win0_2.index t (0 : Fin 3) = t.val / 16 ∧ win0_2.index t (1 : Fin 3) = 0 ∧ win0_2.index t (2 : Fin 3) = t.val % 16)
    ∧ (win0_3.index t (0 : Fin 3) = t.val / 16 ∧ win0_3.index t (1 : Fin 3) = 0 ∧ win0_3.index t (2 : Fin 3) = t.val % 16)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ win0_7.index t (0 : Fin 1) = 0
    ∧ (win0_8.index t (0 : Fin 2) = 0 ∧ win0_8.index t (1 : Fin 2) = 0)
    ∧ win0_9.index t (0 : Fin 1) = 0 :=
  (by decide +kernel : ∀ t : Fin grid0.N, _)

/-- Pair q of chunk cc is pair 2048·cc + q of the molecule. -/
def pairOf (cc : Fin 16) (q : Fin 2048) : Fin 32768 :=
  ⟨2048 * cc.val + q.val, by have := cc.isLt; have := q.isLt; omega⟩

/-! ## The blocks in the operand arrays -/

section Blocks
variable (c : Dev nD) (t : Fin cfg0.N) (mm : Fin 32) (cc : Fin 16) (ht : t.val = 16 * mm.val + cc.val)
include ht

/-- The coordinates' block is molecule mm's slice. -/
theorem iblk0_apply (u : Fin 1) (k : Fin 3) (a : Fin 512) :
    iblk m c 0 t (ix3 u k a) = V m c main_v0 (ix3 mm k a) := by
  obtain ⟨⟨e0, e1, e2⟩, -⟩ := idx_facts t
  show V m c main_v0 (((cfg0.win 0).blk t).view.emb (ix3 u k a)) = V m c main_v0 (ix3 mm k a)
  refine congrArg _ (funext fun ax => Fin.ext ?_)
  match ax with
  | ⟨0, _⟩ => show win0_0.index t (0 : Fin 3) * 1 + 1 * u.val = mm.val; have := u.isLt; have := cc.isLt; omega
  | ⟨1, _⟩ => show win0_0.index t (1 : Fin 3) * 3 + 1 * k.val = k.val; omega
  | ⟨2, _⟩ => show win0_0.index t (2 : Fin 3) * 512 + 1 * a.val = a.val; omega

/-- The embedding rows' block is molecule mm's slice. -/
theorem iblk1_apply (u : Fin 1) (b : Fin 64) (a : Fin 512) :
    iblk m c 1 t (ix3 u b a) = V m c main_v3 (ix3 mm b a) := by
  obtain ⟨-, ⟨e0, e1, e2⟩, -⟩ := idx_facts t
  show V m c main_v3 (((cfg0.win 1).blk t).view.emb (ix3 u b a)) = V m c main_v3 (ix3 mm b a)
  refine congrArg _ (funext fun ax => Fin.ext ?_)
  match ax with
  | ⟨0, _⟩ => show win0_1.index t (0 : Fin 3) * 1 + 1 * u.val = mm.val; have := u.isLt; have := cc.isLt; omega
  | ⟨1, _⟩ => show win0_1.index t (1 : Fin 3) * 64 + 1 * b.val = b.val; omega
  | ⟨2, _⟩ => show win0_1.index t (2 : Fin 3) * 512 + 1 * a.val = a.val; omega

/-- The pair table's block is chunk cc of molecule mm. -/
theorem iblk2_apply (u : Fin 1) (r : Fin 2) (q : Fin 2048) :
    iblk m c 2 t (ix3 u r q) = V m c main_v10 (ix3 mm r (pairOf cc q)) := by
  obtain ⟨-, -, ⟨e0, e1, e2⟩, -⟩ := idx_facts t
  show V m c main_v10 (((cfg0.win 2).blk t).view.emb (ix3 u r q)) = V m c main_v10 (ix3 mm r (pairOf cc q))
  refine congrArg _ (funext fun ax => Fin.ext ?_)
  match ax with
  | ⟨0, _⟩ => show win0_2.index t (0 : Fin 3) * 1 + 1 * u.val = mm.val; have := u.isLt; have := cc.isLt; omega
  | ⟨1, _⟩ => show win0_2.index t (1 : Fin 3) * 2 + 1 * r.val = r.val; omega
  | ⟨2, _⟩ => show win0_2.index t (2 : Fin 3) * 2048 + 1 * q.val = 2048 * cc.val + q.val; have := cc.isLt; omega

/-- The shifts' block is chunk cc of molecule mm. -/
theorem iblk3_apply (u : Fin 1) (k : Fin 3) (q : Fin 2048) :
    iblk m c 3 t (ix3 u k q) = V m c main_v11 (ix3 mm k (pairOf cc q)) := by
  obtain ⟨-, -, -, ⟨e0, e1, e2⟩, -⟩ := idx_facts t
  show V m c main_v11 (((cfg0.win 3).blk t).view.emb (ix3 u k q)) = V m c main_v11 (ix3 mm k (pairOf cc q))
  refine congrArg _ (funext fun ax => Fin.ext ?_)
  match ax with
  | ⟨0, _⟩ => show win0_3.index t (0 : Fin 3) * 1 + 1 * u.val = mm.val; have := u.isLt; have := cc.isLt; omega
  | ⟨1, _⟩ => show win0_3.index t (1 : Fin 3) * 3 + 1 * k.val = k.val; omega
  | ⟨2, _⟩ => show win0_3.index t (2 : Fin 3) * 2048 + 1 * q.val = 2048 * cc.val + q.val; have := cc.isLt; omega

end Blocks

section Whole
variable (c : Dev nD) (t : Fin cfg0.N)

/-- The centres' block is the whole column. -/
theorem iblk4_eq : (iblk m c 4 t : (⟨S64x1, .f32⟩ : BufTy).Contents (Elt F)) = V m c main_v12 := by
  obtain ⟨-, -, -, -, ⟨e0, e1⟩, -⟩ := idx_facts t
  funext y
  show V m c main_v12 (((cfg0.win 4).blk t).view.emb y) = V m c main_v12 y
  refine congrArg _ (funext fun ax => Fin.ext ?_)
  match ax with
  | ⟨0, _⟩ => show win0_4.index t (0 : Fin 2) * 64 + 1 * (y 0).val = (y 0).val; omega
  | ⟨1, _⟩ => show win0_4.index t (1 : Fin 2) * 1 + 1 * (y 1).val = (y 1).val; omega

/-- The widths' block is the whole column. -/
theorem iblk5_eq : (iblk m c 5 t : (⟨S64x1, .f32⟩ : BufTy).Contents (Elt F)) = V m c main_v13 := by
  obtain ⟨-, -, -, -, -, ⟨e0, e1⟩, -⟩ := idx_facts t
  funext y
  show V m c main_v13 (((cfg0.win 5).blk t).view.emb y) = V m c main_v13 y
  refine congrArg _ (funext fun ax => Fin.ext ?_)
  match ax with
  | ⟨0, _⟩ => show win0_5.index t (0 : Fin 2) * 64 + 1 * (y 0).val = (y 0).val; omega
  | ⟨1, _⟩ => show win0_5.index t (1 : Fin 2) * 1 + 1 * (y 1).val = (y 1).val; omega

/-- The first layer's weights: the whole argument. -/
theorem iblk6_eq : (iblk m c 6 t : (⟨S64x256, .f32⟩ : BufTy).Contents (Elt F)) = m ((c : Thread nD τ).loc main_arg5) := by
  obtain ⟨-, -, -, -, -, -, ⟨e0, e1⟩, -⟩ := idx_facts t
  refine Eq.trans ?_ (V_main_arg5 m c)
  funext y
  show V m c main_arg5 (((cfg0.win 6).blk t).view.emb y) = V m c main_arg5 y
  refine congrArg _ (funext fun ax => Fin.ext ?_)
  match ax with
  | ⟨0, _⟩ => show win0_6.index t (0 : Fin 2) * 64 + 1 * (y 0).val = (y 0).val; omega
  | ⟨1, _⟩ => show win0_6.index t (1 : Fin 2) * 256 + 1 * (y 1).val = (y 1).val; omega

/-- The first layer's bias: the whole argument. -/
theorem iblk7_eq : (iblk m c 7 t : (⟨S256, .f32⟩ : BufTy).Contents (Elt F)) = m ((c : Thread nD τ).loc main_arg6) := by
  obtain ⟨-, -, -, -, -, -, -, e0, -⟩ := idx_facts t
  refine Eq.trans ?_ (V_main_arg6 m c)
  funext y
  show V m c main_arg6 (((cfg0.win 7).blk t).view.emb y) = V m c main_arg6 y
  refine congrArg _ (funext fun ax => Fin.ext ?_)
  match ax with
  | ⟨0, _⟩ => show win0_7.index t (0 : Fin 1) * 256 + 1 * (y 0).val = (y 0).val; omega

/-- The second layer's weights: the whole argument. -/
theorem iblk8_eq : (iblk m c 8 t : (⟨S256x1, .f32⟩ : BufTy).Contents (Elt F)) = m ((c : Thread nD τ).loc main_arg7) := by
  obtain ⟨-, -, -, -, -, -, -, -, ⟨e0, e1⟩, -⟩ := idx_facts t
  refine Eq.trans ?_ (V_main_arg7 m c)
  funext y
  show V m c main_arg7 (((cfg0.win 8).blk t).view.emb y) = V m c main_arg7 y
  refine congrArg _ (funext fun ax => Fin.ext ?_)
  match ax with
  | ⟨0, _⟩ => show win0_8.index t (0 : Fin 2) * 256 + 1 * (y 0).val = (y 0).val; omega
  | ⟨1, _⟩ => show win0_8.index t (1 : Fin 2) * 1 + 1 * (y 1).val = (y 1).val; omega

/-- The second layer's bias: the whole argument. -/
theorem iblk9_eq : (iblk m c 9 t : (⟨S1, .f32⟩ : BufTy).Contents (Elt F)) = m ((c : Thread nD τ).loc main_arg8) := by
  obtain ⟨-, -, -, -, -, -, -, -, -, e0⟩ := idx_facts t
  refine Eq.trans ?_ (V_main_arg8 m c)
  funext y
  show V m c main_arg8 (((cfg0.win 9).blk t).view.emb y) = V m c main_arg8 y
  refine congrArg _ (funext fun ax => Fin.ext ?_)
  match ax with
  | ⟨0, _⟩ => show win0_9.index t (0 : Fin 1) * 1 + 1 * (y 0).val = (y 0).val; omega

end Whole

/-! ## The blocks in the argument arrays -/

section Args
variable (c : Dev nD) (t : Fin cfg0.N) (mm : Fin 32) (cc : Fin 16) (ht : t.val = 16 * mm.val + cc.val)
include ht

/-- Coordinate k of atom a of molecule mm. -/
theorem blk0_apply (u : Fin 1) (k : Fin 3) (a : Fin 512) :
    iblk m c 0 t (ix3 u k a)
      = (m ((c : Thread nD τ).loc main_arg0) : (⟨S32x512x3, .f32⟩ : BufTy).Contents (Elt F)) (ix3 mm a k) :=
  (iblk0_apply m c t mm cc ht u k a).trans (KHostA.V_main_v0_apply m c mm k a)

/-- Atom index r of pair q of chunk cc of molecule mm. -/
theorem blk2_apply (u : Fin 1) (r : Fin 2) (q : Fin 2048) :
    iblk m c 2 t (ix3 u r q)
      = (m ((c : Thread nD τ).loc main_arg11) : (⟨S2x32x32768, .i32⟩ : BufTy).Contents (Elt F)) (ix3 r mm (pairOf cc q)) :=
  (iblk2_apply m c t mm cc ht u r q).trans (KHostA.V_main_v10_apply m c mm r (pairOf cc q))

/-- Component k of the shift of pair q of chunk cc of molecule mm. -/
theorem blk3_apply (u : Fin 1) (k : Fin 3) (q : Fin 2048) :
    iblk m c 3 t (ix3 u k q)
      = (m ((c : Thread nD τ).loc main_arg1) : (⟨S32x32768x3, .f32⟩ : BufTy).Contents (Elt F)) (ix3 mm (pairOf cc q) k) :=
  (iblk3_apply m c t mm cc ht u k q).trans (KHostA.V_main_v11_apply m c mm k (pairOf cc q))

end Args

/-- Centre b. -/
theorem blk4_apply (c : Dev nD) (t : Fin cfg0.N) (b : Fin 64) (u : Fin 1) :
    iblk m c 4 t (ix2 b u) = (m ((c : Thread nD τ).loc main_arg2) : (⟨S64, .f32⟩ : BufTy).Contents (Elt F)) (ix1 b) :=
  (congrFun (iblk4_eq m c t) (ix2 b u)).trans (KHostA.V_main_v12_apply m c b u)

/-- Width b. -/
theorem blk5_apply (c : Dev nD) (t : Fin cfg0.N) (b : Fin 64) (u : Fin 1) :
    iblk m c 5 t (ix2 b u) = (m ((c : Thread nD τ).loc main_arg3) : (⟨S64, .f32⟩ : BufTy).Contents (Elt F)) (ix1 b) :=
  (congrFun (iblk5_eq m c t) (ix2 b u)).trans (KHostA.V_main_v13_apply m c b u)

end Cert.KernelIdeal.KHostC

end
-- ==== Proof.KHostE.lean ====
/-
  The embedding rows the kernel finds, read at an index.

  Before the region the program takes, for every atom, the row of the embedding table [8,64] its species names
  (a negative species word is moved up by 8 once; a word outside [0, 7] would give a row of NaNs), transposes the
  result [32,512,64] → [32,64,512] and narrows it to bf16, which changes nothing on the extended reals. With every
  species in [0, 8) the array read at (mm, b, a) is therefore entry b of the table's row species[mm, a].
-/
import proofs.«426414_j9629316677964_3_alg».proof.Proof.KHostC
import Idealize.ShloMosaic.PureOps.Reduce

noncomputable section

namespace Cert.KernelIdeal.KHostE

open Idealize.ShloMosaic Idealize.ShloMosaic.ValueIdx Idealize.ShloMosaic.TcCoe
open Idealize.SL Idealize.SL.Sem
open Cert.KernelIdeal Cert.KernelIdeal.Gen

variable {F : FTy → Type} [FloatOps F]

/-! ## A gather of table rows at a rank-3 index array -/

/-- Rows of a matrix gathered at a [R, C, 1] array of row indices: operand [N, D], result [R, C, D]. -/
abbrev gath3 (N D R C : Nat) (wf : GatherDims.WF ⟨2, ![N, D]⟩ ⟨3, ![R, C, 1]⟩ ⟨3, ![R, C, D]⟩ [2] [0] [] [0] [] 2 ![1, D]) :
    GatherDims ⟨2, ![N, D]⟩ ⟨3, ![R, C, 1]⟩ ⟨3, ![R, C, D]⟩ where
  offsetDims := [2]
  collapsedSliceDims := [0]
  operandBatchingDims := []
  startIndicesBatchingDims := []
  startIndexMap := [0]
  indexVectorDim := 2
  sliceSizes := ![1, D]
  wf := wf

/-- Entry (r, c, d) of the gather is entry d of the operand's row idx[r, c, 0], read signed and clamped into [0, N − 1]. -/
theorem gath3_apply {α : Type} {N D R C w : Nat} (hN : 0 < N) (wf) (x : (⟨2, ![N, D]⟩ : Shape).Idx → α)
    (idx : IVec ⟨3, ![R, C, 1]⟩ w) (r : Fin R) (c : Fin C) (d : Fin D) :
    Host.gather (gath3 N D R C wf) x idx (ix3 r c d)
      = x (ix2 ⟨min (idx (ix3 r c (0 : Fin 1))).toInt.toNat (N - 1), by omega⟩ d) := by
  unfold Host.gather
  congr 1
  funext a
  refine Fin.ext ?_
  match a with
  | ⟨0, _⟩ =>
    show (gath3 N D R C wf).start (ix3 r c d) idx 0 + (gath3 N D R C wf).batchCoord (ix3 r c d) 0
      + (gath3 N D R C wf).offCoord (ix3 r c d) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gath3 N D R C wf).startIndexMap from List.mem_singleton.mpr rfl)]
    have hsi : (gath3 N D R C wf).siIdx (ix3 r c d) ⟨List.idxOf (0 : Fin 2) (gath3 N D R C wf).startIndexMap,
        List.idxOf_lt_length_iff.2 (List.mem_singleton.mpr rfl)⟩ = ix3 r c (0 : Fin 1) := by
      funext b; refine Fin.ext ?_
      match b with
      | ⟨0, _⟩ => rfl
      | ⟨1, _⟩ => rfl
      | ⟨2, _⟩ => rfl
    rw [hsi]
    rfl
  | ⟨1, _⟩ =>
    show (gath3 N D R C wf).start (ix3 r c d) idx 1 + (gath3 N D R C wf).batchCoord (ix3 r c d) 1
      + (gath3 N D R C wf).offCoord (ix3 r c d) 1 = _
    rw [GatherDims.batchCoord_eq_zero _ _ _ List.not_mem_nil]
    unfold GatherDims.start
    rw [dif_neg (show ¬ (1 : Fin 2) ∈ (gath3 N D R C wf).startIndexMap by simp)]
    unfold GatherDims.offCoord
    rw [dif_pos (show (1 : Fin 2) ∈ (gath3 N D R C wf).sKept from (GatherDims.mem_sKept _ _).mpr ⟨by simp, List.not_mem_nil⟩)]
    simp only [Nat.zero_add]
    rfl

/-! ## The rows of the embedding table, one per atom -/

/-- The species as row indices: a negative word is moved up by 8 once, and the array gets a unit last axis. -/
def wrapIdx (s : IVec S32x512 32) : IVec S32x512x1 32 :=
  broadcastInDim S32x512x1 ![0, 1] bcast_S32x512_S32x512x1_0_1
    (select (cmpi .slt s (broadcastInDim S32x512 ![] bcast_S_S32x512 (constantI S_ 32 0#32)))
      (addi s (broadcastInDim S32x512 ![] bcast_S_S32x512 (constantI S_ 32 8#32))) s)

/-- Which row indices lie in [0, 7]. -/
def inRange (i : IVec S32x512x1 32) : IVec S32x512x1 1 :=
  andi (cmpi .sge i (broadcastInDim S32x512x1 ![] bcast_S_S32x512x1 (constantI S_ 32 0#32)))
    (cmpi .sle i (broadcastInDim S32x512x1 ![0, 1, 2] bcast_S1x1x1_S32x512x1_0_1_2
      (broadcastInDim S1x1x1 ![2] bcast_S1_S1x1x1_2 (constantI S1 32 7#32))))

/-- Row s[mm, a] of the table e for every atom, a row index outside [0, 7] giving a row of NaNs. -/
def takeRows (e : FVec F S8x64 .f32) (s : IVec S32x512 32) : FVec F S32x512x64 .f32 :=
  select
    (broadcastInDim S32x512x64 ![0, 1] bcast_S32x512_S32x512x64_0_1
      (Host.reduce IntOp.andi (inRange (wrapIdx s)) (constantI S_ 1 1#1) reducesTo_S32x512x1_S32x512_d2 h_S_))
    (Host.gather gather_S8x64_S32x512x1_S32x512x64_2_0_n_n_0_2_164 e (wrapIdx s))
    (broadcastInDim S32x512x64 ![] bcast_S_S32x512x64 (constant S_ .f32 0x7FC00000#32))

/-- What a word below 8 goes through: it is not negative, it is its own wrap, it lies in [0, 7], it is its own clamp. -/
theorem small_word : ∀ n : Fin 8,
    IntOp.cmpi .slt (BitVec.ofNat 32 n.val) 0#32 = 0#1
    ∧ IntOp.cmpi .sge (BitVec.ofNat 32 n.val) 0#32 = 1#1
    ∧ IntOp.cmpi .sle (BitVec.ofNat 32 n.val) 7#32 = 1#1
    ∧ min (BitVec.ofNat 32 n.val).toInt.toNat (8 - 1) = n.val := by
  decide

section Rows
variable (e : FVec F S8x64 .f32) (s : IVec S32x512 32) (sp : Fin 32 → Fin 512 → Fin 8)
  (hs : ∀ mm a, s (ix2 mm a) = BitVec.ofNat 32 (sp mm a).val)
include hs

/-- In range, the row index of atom a of molecule mm is its species. -/
theorem wrapIdx_apply (mm : Fin 32) (a : Fin 512) (u : Fin 1) :
    wrapIdx s (ix3 mm a u) = BitVec.ofNat 32 (sp mm a).val := by
  unfold wrapIdx
  refine (broadcastInDim_apply _ _ _ (ix3 mm a u) (ix2 mm a) fun ax => ?_).trans ?_
  · match ax with
    | ⟨0, _⟩ => rfl
    | ⟨1, _⟩ => rfl
  show Scalar.select (IntOp.cmpi .slt (s (ix2 mm a)) 0#32) (IntOp.addi (s (ix2 mm a)) 8#32) (s (ix2 mm a)) = _
  rw [hs mm a, (small_word (sp mm a)).1]
  rfl

/-- Every row index is in range. -/
theorem inRange_one (i : S32x512x1.Idx) : inRange (wrapIdx s) i = 1#1 := by
  obtain ⟨mm, a, u, rfl⟩ : ∃ (mm : Fin 32) (a : Fin 512) (u : Fin 1), i = ix3 mm a u := ⟨i 0, i 1, i 2, eq_ix3 i⟩
  show IntOp.andi (IntOp.cmpi .sge (wrapIdx s (ix3 mm a u)) 0#32) (IntOp.cmpi .sle (wrapIdx s (ix3 mm a u)) 7#32) = 1#1
  rw [wrapIdx_apply s sp hs mm a u, (small_word (sp mm a)).2.1, (small_word (sp mm a)).2.2.1]
  rfl

end Rows

/-- A left fold by "and" over ones, from one, is one. -/
theorem foldl_andi_ones {ι : Type} (f : ι → BitVec 1) :
    ∀ l : List ι, (∀ n ∈ l, f n = 1#1) → l.foldl (fun r n => IntOp.andi r (f n)) 1#1 = 1#1
  | [], _ => rfl
  | a :: l, h => by
    show l.foldl (fun r n => IntOp.andi r (f n)) (IntOp.andi 1#1 (f a)) = 1#1
    rw [h a List.mem_cons_self]
    exact foldl_andi_ones f l fun n hn => h n (List.mem_cons_of_mem _ hn)

/-- In range, row (mm, a) of the result is row species[mm, a] of the table. -/
theorem takeRows_apply (e : FVec F S8x64 .f32) (s : IVec S32x512 32) (sp : Fin 32 → Fin 512 → Fin 8)
    (hs : ∀ mm a, s (ix2 mm a) = BitVec.ofNat 32 (sp mm a).val) (mm : Fin 32) (a : Fin 512) (b : Fin 64) :
    takeRows e s (ix3 mm a b) = e (ix2 (sp mm a) b) := by
  have hall : Host.reduce IntOp.andi (inRange (wrapIdx s)) (constantI S_ 1 1#1) reducesTo_S32x512x1_S32x512_d2 h_S_ (ix2 mm a) = 1#1 := by
    rw [Host.reduce_eq_foldl]
    exact foldl_andi_ones _ _ fun i _ => inRange_one s sp hs i
  have hc : broadcastInDim S32x512x64 ![0, 1] bcast_S32x512_S32x512x64_0_1
      (Host.reduce IntOp.andi (inRange (wrapIdx s)) (constantI S_ 1 1#1) reducesTo_S32x512x1_S32x512_d2 h_S_) (ix3 mm a b) = 1#1 := by
    refine (broadcastInDim_apply _ _ _ (ix3 mm a b) (ix2 mm a) fun ax => ?_).trans hall
    match ax with
    | ⟨0, _⟩ => rfl
    | ⟨1, _⟩ => rfl
  have hg : gather_S8x64_S32x512x1_S32x512x64_2_0_n_n_0_2_164
      = gath3 8 64 32 512 gather_S8x64_S32x512x1_S32x512x64_2_0_n_n_0_2_164_wf := rfl
  unfold takeRows
  rw [select_apply, hc, select_one, hg, gath3_apply (by decide)]
  refine congrArg e (congrArg (fun r => ix2 r b) (Fin.ext ?_))
  show min (wrapIdx s (ix3 mm a 0)).toInt.toNat (8 - 1) = (sp mm a).val
  rw [wrapIdx_apply s sp hs mm a 0]
  exact (small_word (sp mm a)).2.2.2

/-! ## The second and third stretches of host operations -/

variable (X : Valuation τ sig (Elt F))

set_option maxHeartbeats 1600000 in
set_option maxRecDepth 100000 in
/-- The second stretch computes the embedding rows from the table and the species. -/
theorem ops1_v1 :
    (StableHlo.after hostOps0_1 X (Proc.devRef .tc main_v1) : (⟨S32x512x64, .f32⟩ : BufTy).Contents (Elt F))
      = takeRows (X (Proc.devRef .tc main_arg4)) (X (Proc.devRef .tc main_arg10)) := by
  have key : ∀ R : (⟨S32x512x64, .f32⟩ : BufTy).Contents (Elt F),
      takeRows (X (Proc.devRef .tc main_arg4)) (X (Proc.devRef .tc main_arg10)) = R →
      (StableHlo.after hostOps0_1 X (Proc.devRef .tc main_v1) : (⟨S32x512x64, .f32⟩ : BufTy).Contents (Elt F)) = R := by
    intro R hR
    rw [hostOps0_1]; after_results
    unfold takeRows wrapIdx inRange at hR
    exact hR
  exact key _ rfl

/-- The third stretch transposes them and narrows them to bf16. -/
theorem ops2_v3 :
    (StableHlo.after hostOps0_2 X (Proc.devRef .tc main_v3) : (⟨S32x64x512, .bf16⟩ : BufTy).Contents (Elt F))
      = truncf .bf16 (transpose S32x64x512 [0, 2, 1] (X (Proc.devRef .tc main_v1)) transposes_S32x512x64_S32x64x512_0_2_1)
          bitsLt_bf16_f32 := by
  rw [hostOps0_2]; after_results

/-! ## The array and its block at an index -/

section AtIdeal
variable (m : (ℓ : Loc nD τ sig) → Buf (Elt Ideal) ℓ) (c : Dev nD) (sp : Fin 32 → Fin 512 → Fin 8)
  (hs : ∀ mm a, (m ((c : Thread nD τ).loc main_arg10) : (⟨S32x512, .i32⟩ : BufTy).Contents (Elt Ideal)) (ix2 mm a)
    = BitVec.ofNat 32 (sp mm a).val)
include hs

/-- Entry b of the embedding row of atom a of molecule mm. -/
theorem V_main_v3_apply (mm : Fin 32) (b : Fin 64) (a : Fin 512) :
    (V m c main_v3 : (⟨S32x64x512, .bf16⟩ : BufTy).Contents (Elt Ideal)) (ix3 mm b a)
      = (m ((c : Thread nD τ).loc main_arg4) : (⟨S8x64, .f32⟩ : BufTy).Contents (Elt Ideal)) (ix2 (sp mm a) b) := by
  have e : (V m c main_v3 : (⟨S32x64x512, .bf16⟩ : BufTy).Contents (Elt Ideal))
      = truncf .bf16 (transpose S32x64x512 [0, 2, 1]
          (takeRows (F := Ideal) (m ((c : Thread nD τ).loc main_arg4)) (m ((c : Thread nD τ).loc main_arg10)))
          transposes_S32x512x64_S32x64x512_0_2_1) bitsLt_bf16_f32 := by
    rw [KHostA.V_split, ops2_v3, ops1_v1, KHostA.ops0_arg4, KHostA.ops0_arg10]
  refine (congrFun e (ix3 mm b a)).trans ?_
  refine (truncf_apply (ψ := .bf16) _ bitsLt_bf16_f32 (ix3 mm b a)).trans ?_
  refine (transpose_ix3_021_apply _ _ mm b a).trans ?_
  exact takeRows_apply _ _ sp hs mm a b

/-- The same entry in the block of chunk cc of molecule mm. -/
theorem blk1_apply (t : Fin cfg0.N) (mm : Fin 32) (cc : Fin 16) (ht : t.val = 16 * mm.val + cc.val)
    (u : Fin 1) (b : Fin 64) (a : Fin 512) :
    iblk m c 1 t (ix3 u b a)
      = (m ((c : Thread nD τ).loc main_arg4) : (⟨S8x64, .f32⟩ : BufTy).Contents (Elt Ideal)) (ix2 (sp mm a) b) :=
  (KHostC.iblk1_apply m c t mm cc ht u b a).trans (V_main_v3_apply m c sp hs mm b a)

end AtIdeal

end Cert.KernelIdeal.KHostE

end
-- ==== Proof.KChunkHot.lean ====
/-
  The two one-hot matrices of a chunk. For a row of 2048 atom indices the kernel compares a column of the numbers
  0 … 511 with the row, and turns the comparison's bit into a number: entry (a, q) is 1 when pair q's atom is a, else 0.
-/
import proofs.«426414_j9629316677964_3_alg».proof.Proof.Gen.KernelIdeal.Skeleton
import Idealize.ShloMosaic.Lib.ValueIdx
import Idealize.ShloMosaic.Lib.Pipeline.Value

noncomputable section

namespace Cert.KernelIdeal.KChunkHot

open Idealize.ShloMosaic Idealize.ShloMosaic.ValueIdx Cert.KernelIdeal.Gen

/-- The comparison of two words for equality, widened and converted, is 1 or 0. -/
theorem flag_eq (x y : BitVec 32) :
    ((((IntOp.cmpi .eq x y).setWidth 32).toInt : ℝ) : EReal) = if x = y then 1 else 0 := by
  unfold IntOp.cmpi
  by_cases h : x = y
  · subst h; simp
  · have hb : (x == y) = false := beq_eq_false_iff_ne.mpr h
    show ((((BitVec.ofBool (x == y)).setWidth 32).toInt : ℝ) : EReal) = _
    rw [hb, if_neg h]
    simp

/-- Two atom numbers are the same word exactly when they are the same atom. -/
theorem word_inj (a b : Fin 512) : BitVec.ofNat 32 a.val = BitVec.ofNat 32 b.val ↔ a = b := by
  constructor
  · intro h
    have h' := congrArg BitVec.toNat h
    rw [BitVec.toNat_ofNat, BitVec.toNat_ofNat] at h'
    have ha := a.isLt
    have hb := b.isLt
    apply Fin.ext
    omega
  · rintro rfl; rfl

/-- The column of atom numbers, spread over the pairs: entry (a, q) is a. -/
theorem iotaCol_apply (a : Fin 512) (q : Fin 2048) :
    broadcastTo S512x2048 (iota .tc S512x1 32 [0] iota_S512x1_d0_w32) broadcasts_S512x1_S512x2048 (ix2 a q)
      = BitVec.ofNat 32 a.val := by
  refine (broadcastTo_apply _ broadcasts_S512x1_S512x2048 (ix2 a q) (ix2 a (0 : Fin 1))
    (fun b => match b with | ⟨0, _⟩ => rfl | ⟨1, _⟩ => rfl)).trans ?_
  exact iota_single_apply .tc S512x1 32 0 iota_S512x1_d0_w32 (ix2 a (0 : Fin 1))

/-- The row of a chunk's atom indices, spread over the atoms: entry (a, q) is pair q's index. -/
theorem idxRow_apply (v : Vec Ideal S1x1x2048 .i32) (a : Fin 512) (q : Fin 2048) :
    broadcastTo S512x2048 (shapeCast S1x2048 (shapeCast S2048 v shapeCasts_S1x1x2048_S2048) shapeCasts_S2048_S1x2048)
        broadcasts_S1x2048_S512x2048 (ix2 a q)
      = v (ix3 (0 : Fin 1) (0 : Fin 1) q) := by
  refine (broadcastTo_apply _ broadcasts_S1x2048_S512x2048 (ix2 a q) (ix2 (0 : Fin 1) q)
    (fun b => match b with | ⟨0, _⟩ => rfl | ⟨1, _⟩ => rfl)).trans ?_
  refine (shapeCast_apply _ shapeCasts_S2048_S1x2048 (ix2 (0 : Fin 1) q) (ix1 q) ?_).trans ?_
  · rw [Shape.rowMajor_val_one, Shape.rowMajor_val_two]
    show q.val = 0 * 2048 + q.val
    omega
  refine shapeCast_apply _ shapeCasts_S1x1x2048_S2048 (ix1 q) (ix3 (0 : Fin 1) (0 : Fin 1) q) ?_
  rw [Shape.rowMajor_val_one, Shape.rowMajor_val_three]
  show (0 * 1 + 0) * 2048 + q.val = q.val
  omega

variable (v : Vec Ideal S1x1x2048 .i32) (j : Fin 2048 → Fin 512)

/-- The one-hot matrix of the first index row: entry (a, q) is 1 when pair q is centred at atom a, else 0. -/
theorem hot0_apply (hj : ∀ q, v (ix3 (0 : Fin 1) (0 : Fin 1) q) = BitVec.ofNat 32 (j q).val) (a : Fin 512) (q : Fin 2048) :
    k0_pay7 (F := Ideal) v (ix2 a q) = if j q = a then 1 else 0 := by
  unfold k0_pay7
  show ((((IntOp.cmpi .eq
      (broadcastTo S512x2048 (iota .tc S512x1 32 [0] iota_S512x1_d0_w32) broadcasts_S512x1_S512x2048 (ix2 a q))
      (broadcastTo S512x2048 (shapeCast S1x2048 (shapeCast S2048 v shapeCasts_S1x1x2048_S2048) shapeCasts_S2048_S1x2048)
        broadcasts_S1x2048_S512x2048 (ix2 a q))).setWidth 32).toInt : ℝ) : EReal) = _
  rw [iotaCol_apply, idxRow_apply, hj q, flag_eq]
  by_cases h : j q = a
  · rw [if_pos h, if_pos (by rw [h])]
  · rw [if_neg h, if_neg (fun e => h ((word_inj _ _).mp e).symm)]

/-- The one-hot matrix of the second index row: entry (a, q) is 1 when pair q's neighbour is atom a, else 0. -/
theorem hot1_apply (hj : ∀ q, v (ix3 (0 : Fin 1) (0 : Fin 1) q) = BitVec.ofNat 32 (j q).val) (a : Fin 512) (q : Fin 2048) :
    k0_pay8 (F := Ideal) v (ix2 a q) = if j q = a then 1 else 0 := by
  unfold k0_pay8
  show ((((IntOp.cmpi .eq
      (broadcastTo S512x2048 (iota .tc S512x1 32 [0] iota_S512x1_d0_w32) broadcasts_S512x1_S512x2048 (ix2 a q))
      (broadcastTo S512x2048 (shapeCast S1x2048 (shapeCast S2048 v shapeCasts_S1x1x2048_S2048) shapeCasts_S2048_S1x2048)
        broadcasts_S1x2048_S512x2048 (ix2 a q))).setWidth 32).toInt : ℝ) : EReal) = _
  rw [iotaCol_apply, idxRow_apply, hj q, flag_eq]
  by_cases h : j q = a
  · rw [if_pos h, if_pos (by rw [h])]
  · rw [if_neg h, if_neg (fun e => h ((word_inj _ _).mp e).symm)]

end Cert.KernelIdeal.KChunkHot

end
-- ==== Proof.KChunkMat.lean ====
/-
  The chunk's three matrix products read at an entry: each is the plain sum, over the contracted coordinate, of the
  products of the two operands' entries. Two of them contract the atom axis (a table row against a one-hot column:
  a gather), the third contracts the pair axis of both operands (a feature row against a one-hot row: a scatter-add).
-/
import proofs.«426414_j9629316677964_3_alg».proof.Proof.Gen.KernelIdeal.Skeleton
import Idealize.ShloMosaic.Lib.ValueIdx
import Idealize.ShloMosaic.PureOps.Ideal.Laws

noncomputable section

namespace Cert.KernelIdeal.KChunkMat

open Idealize.ShloMosaic Idealize.ShloMosaic.ValueIdx

theorem lhs_g6_0 (i : S6x2048.Idx) (q : dot_S6x512_S512x2048_S6x2048_1_0_0_1_n_n.contr.Idx) :
    (dot_S6x512_S512x2048_S6x2048_1_0_0_1_n_n.lhsIdx i q 0).val = (i 0).val := by
  unfold DotDims.lhsIdx
  rw [dif_neg (show ¬(0 : Fin S6x512.rank) ∈ dot_S6x512_S512x2048_S6x2048_1_0_0_1_n_n.lhsBatch by decide), dif_pos (show (0 : Fin S6x512.rank) ∈ dot_S6x512_S512x2048_S6x2048_1_0_0_1_n_n.lhsNonContracting by decide)]
  rfl
theorem lhs_g6_1 (i : S6x2048.Idx) (q : dot_S6x512_S512x2048_S6x2048_1_0_0_1_n_n.contr.Idx) :
    (dot_S6x512_S512x2048_S6x2048_1_0_0_1_n_n.lhsIdx i q 1).val = (q ⟨0, by decide⟩).val :=
  dot_S6x512_S512x2048_S6x2048_1_0_0_1_n_n.lhsIdx_val_of_single rfl i q
theorem rhs_g6_1 (i : S6x2048.Idx) (q : dot_S6x512_S512x2048_S6x2048_1_0_0_1_n_n.contr.Idx) :
    (dot_S6x512_S512x2048_S6x2048_1_0_0_1_n_n.rhsIdx i q 1).val = (i 1).val := by
  unfold DotDims.rhsIdx
  rw [dif_neg (show ¬(1 : Fin S512x2048.rank) ∈ dot_S6x512_S512x2048_S6x2048_1_0_0_1_n_n.rhsBatch by decide), dif_pos (show (1 : Fin S512x2048.rank) ∈ dot_S6x512_S512x2048_S6x2048_1_0_0_1_n_n.rhsNonContracting by decide)]
  rfl
theorem rhs_g6_0 (i : S6x2048.Idx) (q : dot_S6x512_S512x2048_S6x2048_1_0_0_1_n_n.contr.Idx) :
    (dot_S6x512_S512x2048_S6x2048_1_0_0_1_n_n.rhsIdx i q 0).val = (q ⟨0, by decide⟩).val :=
  dot_S6x512_S512x2048_S6x2048_1_0_0_1_n_n.rhsIdx_val_of_single rfl i q

/-- Six table rows against a [512, 2048] matrix: entry (r, q) sums over the atoms. -/
theorem g6_apply (A : FVec Ideal S6x512 .bf16) (B : FVec Ideal S512x2048 .bf16) (r : Fin 6) (n : Fin 2048) :
    matmul dot_S6x512_S512x2048_S6x2048_1_0_0_1_n_n none A B (constant S6x2048 .f32 0x00000000#32) (ix2 r n)
      = ∑ c : Fin 512, A (ix2 r c) * B (ix2 c n) := by
  show FloatOps.matmul dot_S6x512_S512x2048_S6x2048_1_0_0_1_n_n none A B (constant S6x2048 .f32 0x00000000#32) (ix2 r n) = _
  rw [Ideal.matmul_constant_zero_apply, ← Equiv.sum_comp (contrEquiv1 dot_S6x512_S512x2048_S6x2048_1_0_0_1_n_n 512 rfl rfl).symm]
  refine Finset.sum_congr rfl fun c _ => ?_
  have hk := contrEquiv1_symm_val dot_S6x512_S512x2048_S6x2048_1_0_0_1_n_n 512 rfl rfl c
  have el : dot_S6x512_S512x2048_S6x2048_1_0_0_1_n_n.lhsIdx (ix2 r n) ((contrEquiv1 dot_S6x512_S512x2048_S6x2048_1_0_0_1_n_n 512 rfl rfl).symm c) = ix2 r c := funext fun a => Fin.ext (by
    match a with
    | ⟨0, _⟩ => exact lhs_g6_0 _ _
    | ⟨1, _⟩ => exact (lhs_g6_1 _ _).trans hk)
  have er : dot_S6x512_S512x2048_S6x2048_1_0_0_1_n_n.rhsIdx (ix2 r n) ((contrEquiv1 dot_S6x512_S512x2048_S6x2048_1_0_0_1_n_n 512 rfl rfl).symm c) = ix2 c n := funext fun a => Fin.ext (by
    match a with
    | ⟨0, _⟩ => exact (rhs_g6_0 _ _).trans hk
    | ⟨1, _⟩ => exact rhs_g6_1 _ _)
  rw [el, er]

theorem lhs_g64_0 (i : S64x2048.Idx) (q : dot_S64x512_S512x2048_S64x2048_1_0_0_1_n_n.contr.Idx) :
    (dot_S64x512_S512x2048_S64x2048_1_0_0_1_n_n.lhsIdx i q 0).val = (i 0).val := by
  unfold DotDims.lhsIdx
  rw [dif_neg (show ¬(0 : Fin S64x512.rank) ∈ dot_S64x512_S512x2048_S64x2048_1_0_0_1_n_n.lhsBatch by decide), dif_pos (show (0 : Fin S64x512.rank) ∈ dot_S64x512_S512x2048_S64x2048_1_0_0_1_n_n.lhsNonContracting by decide)]
  rfl
theorem lhs_g64_1 (i : S64x2048.Idx) (q : dot_S64x512_S512x2048_S64x2048_1_0_0_1_n_n.contr.Idx) :
    (dot_S64x512_S512x2048_S64x2048_1_0_0_1_n_n.lhsIdx i q 1).val = (q ⟨0, by decide⟩).val :=
  dot_S64x512_S512x2048_S64x2048_1_0_0_1_n_n.lhsIdx_val_of_single rfl i q
theorem rhs_g64_1 (i : S64x2048.Idx) (q : dot_S64x512_S512x2048_S64x2048_1_0_0_1_n_n.contr.Idx) :
    (dot_S64x512_S512x2048_S64x2048_1_0_0_1_n_n.rhsIdx i q 1).val = (i 1).val := by
  unfold DotDims.rhsIdx
  rw [dif_neg (show ¬(1 : Fin S512x2048.rank) ∈ dot_S64x512_S512x2048_S64x2048_1_0_0_1_n_n.rhsBatch by decide), dif_pos (show (1 : Fin S512x2048.rank) ∈ dot_S64x512_S512x2048_S64x2048_1_0_0_1_n_n.rhsNonContracting by decide)]
  rfl
theorem rhs_g64_0 (i : S64x2048.Idx) (q : dot_S64x512_S512x2048_S64x2048_1_0_0_1_n_n.contr.Idx) :
    (dot_S64x512_S512x2048_S64x2048_1_0_0_1_n_n.rhsIdx i q 0).val = (q ⟨0, by decide⟩).val :=
  dot_S64x512_S512x2048_S64x2048_1_0_0_1_n_n.rhsIdx_val_of_single rfl i q

/-- Sixty-four table rows against a [512, 2048] matrix: entry (b, q) sums over the atoms. -/
theorem g64_apply (A : FVec Ideal S64x512 .bf16) (B : FVec Ideal S512x2048 .bf16) (r : Fin 64) (n : Fin 2048) :
    matmul dot_S64x512_S512x2048_S64x2048_1_0_0_1_n_n none A B (constant S64x2048 .f32 0x00000000#32) (ix2 r n)
      = ∑ c : Fin 512, A (ix2 r c) * B (ix2 c n) := by
  show FloatOps.matmul dot_S64x512_S512x2048_S64x2048_1_0_0_1_n_n none A B (constant S64x2048 .f32 0x00000000#32) (ix2 r n) = _
  rw [Ideal.matmul_constant_zero_apply, ← Equiv.sum_comp (contrEquiv1 dot_S64x512_S512x2048_S64x2048_1_0_0_1_n_n 512 rfl rfl).symm]
  refine Finset.sum_congr rfl fun c _ => ?_
  have hk := contrEquiv1_symm_val dot_S64x512_S512x2048_S64x2048_1_0_0_1_n_n 512 rfl rfl c
  have el : dot_S64x512_S512x2048_S64x2048_1_0_0_1_n_n.lhsIdx (ix2 r n) ((contrEquiv1 dot_S64x512_S512x2048_S64x2048_1_0_0_1_n_n 512 rfl rfl).symm c) = ix2 r c := funext fun a => Fin.ext (by
    match a with
    | ⟨0, _⟩ => exact lhs_g64_0 _ _
    | ⟨1, _⟩ => exact (lhs_g64_1 _ _).trans hk)
  have er : dot_S64x512_S512x2048_S64x2048_1_0_0_1_n_n.rhsIdx (ix2 r n) ((contrEquiv1 dot_S64x512_S512x2048_S64x2048_1_0_0_1_n_n 512 rfl rfl).symm c) = ix2 c n := funext fun a => Fin.ext (by
    match a with
    | ⟨0, _⟩ => exact (rhs_g64_0 _ _).trans hk
    | ⟨1, _⟩ => exact rhs_g64_1 _ _)
  rw [el, er]

theorem lhs_s70_0 (i : S70x512.Idx) (q : dot_S70x2048_S512x2048_S70x512_1_1_0_0_n_n.contr.Idx) :
    (dot_S70x2048_S512x2048_S70x512_1_1_0_0_n_n.lhsIdx i q 0).val = (i 0).val := by
  unfold DotDims.lhsIdx
  rw [dif_neg (show ¬(0 : Fin S70x2048.rank) ∈ dot_S70x2048_S512x2048_S70x512_1_1_0_0_n_n.lhsBatch by decide), dif_pos (show (0 : Fin S70x2048.rank) ∈ dot_S70x2048_S512x2048_S70x512_1_1_0_0_n_n.lhsNonContracting by decide)]
  rfl
theorem lhs_s70_1 (i : S70x512.Idx) (q : dot_S70x2048_S512x2048_S70x512_1_1_0_0_n_n.contr.Idx) :
    (dot_S70x2048_S512x2048_S70x512_1_1_0_0_n_n.lhsIdx i q 1).val = (q ⟨0, by decide⟩).val :=
  dot_S70x2048_S512x2048_S70x512_1_1_0_0_n_n.lhsIdx_val_of_single rfl i q
theorem rhs_s70_0 (i : S70x512.Idx) (q : dot_S70x2048_S512x2048_S70x512_1_1_0_0_n_n.contr.Idx) :
    (dot_S70x2048_S512x2048_S70x512_1_1_0_0_n_n.rhsIdx i q 0).val = (i 1).val := by
  unfold DotDims.rhsIdx
  rw [dif_neg (show ¬(0 : Fin S512x2048.rank) ∈ dot_S70x2048_S512x2048_S70x512_1_1_0_0_n_n.rhsBatch by decide), dif_pos (show (0 : Fin S512x2048.rank) ∈ dot_S70x2048_S512x2048_S70x512_1_1_0_0_n_n.rhsNonContracting by decide)]
  rfl
theorem rhs_s70_1 (i : S70x512.Idx) (q : dot_S70x2048_S512x2048_S70x512_1_1_0_0_n_n.contr.Idx) :
    (dot_S70x2048_S512x2048_S70x512_1_1_0_0_n_n.rhsIdx i q 1).val = (q ⟨0, by decide⟩).val :=
  dot_S70x2048_S512x2048_S70x512_1_1_0_0_n_n.rhsIdx_val_of_single rfl i q

/-- Seventy feature rows against the rows of a [512, 2048] matrix: entry (r, a) sums over the pairs. -/
theorem s70_apply (A : FVec Ideal S70x2048 .bf16) (B : FVec Ideal S512x2048 .bf16) (r : Fin 70) (n : Fin 512) :
    matmul dot_S70x2048_S512x2048_S70x512_1_1_0_0_n_n none A B (constant S70x512 .f32 0x00000000#32) (ix2 r n)
      = ∑ c : Fin 2048, A (ix2 r c) * B (ix2 n c) := by
  show FloatOps.matmul dot_S70x2048_S512x2048_S70x512_1_1_0_0_n_n none A B (constant S70x512 .f32 0x00000000#32) (ix2 r n) = _
  rw [Ideal.matmul_constant_zero_apply, ← Equiv.sum_comp (contrEquiv1 dot_S70x2048_S512x2048_S70x512_1_1_0_0_n_n 2048 rfl rfl).symm]
  refine Finset.sum_congr rfl fun c _ => ?_
  have hk := contrEquiv1_symm_val dot_S70x2048_S512x2048_S70x512_1_1_0_0_n_n 2048 rfl rfl c
  have el : dot_S70x2048_S512x2048_S70x512_1_1_0_0_n_n.lhsIdx (ix2 r n) ((contrEquiv1 dot_S70x2048_S512x2048_S70x512_1_1_0_0_n_n 2048 rfl rfl).symm c) = ix2 r c := funext fun a => Fin.ext (by
    match a with
    | ⟨0, _⟩ => exact lhs_s70_0 _ _
    | ⟨1, _⟩ => exact (lhs_s70_1 _ _).trans hk)
  have er : dot_S70x2048_S512x2048_S70x512_1_1_0_0_n_n.rhsIdx (ix2 r n) ((contrEquiv1 dot_S70x2048_S512x2048_S70x512_1_1_0_0_n_n 2048 rfl rfl).symm c) = ix2 n c := funext fun a => Fin.ext (by
    match a with
    | ⟨0, _⟩ => exact rhs_s70_0 _ _
    | ⟨1, _⟩ => exact (rhs_s70_1 _ _).trans hk)
  rw [el, er]

end Cert.KernelIdeal.KChunkMat

end
-- ==== Proof.KChunkAlg.lean ====
/-
  Sums against 0/1 indicators on the extended reals.

  A sum of f a · [i = a] over a is f i, for any f (0 · x = 0 for every extended real). A sum of x a · ([i = a] − [i' = a])
  is x i − x i' when every x a is a real number: there the products distribute, which they do not at an infinity.
  And a row of differences x a − x a of real numbers is a row of zeros, whatever it is multiplied by.
-/
import Idealize.ShloMosaic.PureOps.Ideal

noncomputable section

namespace Cert.KernelIdeal.KChunkAlg

open scoped BigOperators

/-- The inclusion of the reals commutes with finite sums. -/
theorem coe_sum {ι : Type} (s : Finset ι) (f : ι → ℝ) : ((∑ a ∈ s, f a : ℝ) : EReal) = ∑ a ∈ s, (f a : EReal) := by
  classical
  induction s using Finset.induction_on with
  | empty => simp
  | insert a s ha ih => rw [Finset.sum_insert ha, Finset.sum_insert ha, EReal.coe_add, ih]

/-- Picking one term with an indicator on the right. -/
theorem sum_mul_ind {n : Nat} (f : Fin n → EReal) (i : Fin n) :
    ∑ a : Fin n, f a * (if i = a then 1 else 0) = f i := by
  simp only [mul_ite, mul_one, mul_zero]
  rw [Finset.sum_ite_eq]
  simp

/-- Picking one term with an indicator whose test is written the other way round. -/
theorem sum_mul_ind' {n : Nat} (f : Fin n → EReal) (i : Fin n) :
    ∑ a : Fin n, f a * (if a = i then 1 else 0) = f i := by
  simp only [mul_ite, mul_one, mul_zero]
  rw [Finset.sum_ite_eq']
  simp

/-- A real row against the difference of two indicators: the difference of the two picked entries. -/
theorem sum_mul_ind_sub {n : Nat} (x : Fin n → EReal) (hx : ∀ a, ∃ r : ℝ, x a = (r : EReal)) (i i' : Fin n) :
    ∑ a : Fin n, x a * ((if i = a then (1 : EReal) else 0) - (if i' = a then (1 : EReal) else 0)) = x i - x i' := by
  choose r hr using hx
  have ind : ∀ (c : Prop) [Decidable c], (if c then (1 : EReal) else 0) = (((if c then (1 : ℝ) else 0) : ℝ) : EReal) := by
    intro c _
    split_ifs <;> simp
  have e : ∀ a : Fin n, x a * ((if i = a then (1 : EReal) else 0) - (if i' = a then (1 : EReal) else 0))
      = ((r a * ((if i = a then (1 : ℝ) else 0) - (if i' = a then (1 : ℝ) else 0)) : ℝ) : EReal) := by
    intro a
    rw [hr a, ind (i = a), ind (i' = a), ← EReal.coe_sub, ← EReal.coe_mul]
  rw [Finset.sum_congr rfl fun a _ => e a, ← coe_sum, hr i, hr i', ← EReal.coe_sub]
  congr 1
  simp only [mul_sub, mul_ite, mul_one, mul_zero, Finset.sum_sub_distrib, Finset.sum_ite_eq, Finset.mem_univ, if_true]

/-- A real number less itself is zero on the extended reals too. -/
theorem sub_self_of_real (x : EReal) (hx : ∃ r : ℝ, x = (r : EReal)) : x - x = 0 := by
  obtain ⟨r, rfl⟩ := hx
  rw [← EReal.coe_sub, sub_self, EReal.coe_zero]

/-- A row of such zeros summed against anything is zero. -/
theorem sum_sub_self_mul {n : Nat} (x : Fin n → EReal) (hx : ∀ a, ∃ r : ℝ, x a = (r : EReal)) (g : Fin n → EReal) :
    ∑ a : Fin n, (x a - x a) * g a = 0 := by
  refine Finset.sum_eq_zero fun a _ => ?_
  rw [sub_self_of_real _ (hx a), zero_mul]

end Cert.KernelIdeal.KChunkAlg

end
-- ==== Proof.KChunkGather.lean ====
/-
  The chunk's two gathers. A table row times a one-hot column picks the row's entry at the pair's atom: the embedding
  rows of the pairs' neighbours, and — against the DIFFERENCE of the two one-hot columns — the difference of the two
  atoms' coordinates. The coordinates enter the product as a stack [x ; x − x] of six rows whose two halves are added
  afterwards; for real x the lower half is zero and the sum is the plain product.
-/
import proofs.«426414_j9629316677964_3_alg».proof.Proof.KChunkHot
import proofs.«426414_j9629316677964_3_alg».proof.Proof.KChunkMat
import proofs.«426414_j9629316677964_3_alg».proof.Proof.KChunkAlg
import Idealize.ShloMosaic.Lib.ValueLayout

noncomputable section

namespace Cert.KernelIdeal.KChunkGather

open Idealize.ShloMosaic Idealize.ShloMosaic.ValueIdx Cert.KernelIdeal.Gen

/-- The stack [C ; C − C] of six rows: rows 0, 1, 2 are C's. -/
theorem stack_top (C : FVec Ideal S3x512 .f32) (k : Fin 3) (a : Fin 512) :
    concatenate S6x512 0 [⟨S3x512, truncf .bf16 C bitsLt_bf16_f32⟩, ⟨S3x512, truncf .bf16 (subf C C) bitsLt_bf16_f32⟩]
        concatenates_S3x512_S3x512_S6x512_d0 (ix2 (⟨k.val, by omega⟩ : Fin 6) a) = C (ix2 k a) :=
  concatenate_pair_apply_left (0 : Fin S6x512.rank) _ _ concatenates_S3x512_S3x512_S6x512_d0 _ rfl (ix2 k a)
    (fun b => match b with | ⟨0, _⟩ => rfl | ⟨1, _⟩ => rfl)

/-- Rows 3, 4, 5 of the stack are C − C. -/
theorem stack_bot (C : FVec Ideal S3x512 .f32) (k : Fin 3) (a : Fin 512) :
    concatenate S6x512 0 [⟨S3x512, truncf .bf16 C bitsLt_bf16_f32⟩, ⟨S3x512, truncf .bf16 (subf C C) bitsLt_bf16_f32⟩]
        concatenates_S3x512_S3x512_S6x512_d0 (ix2 (⟨3 + k.val, by omega⟩ : Fin 6) a) = C (ix2 k a) - C (ix2 k a) :=
  concatenate_pair_apply_right (0 : Fin S6x512.rank) _ _ concatenates_S3x512_S3x512_S6x512_d0 _ rfl rfl (ix2 k a)
    (fun b => match b with
      | ⟨0, _⟩ => fun h => absurd rfl h
      | ⟨1, _⟩ => fun _ => rfl)
    (by show k.val + 3 = 3 + k.val; omega)

/-- The two halves of the six-row product added: for a real table the plain product of the table with the matrix. -/
theorem split_apply (C : FVec Ideal S3x512 .f32) (hC : ∀ i, ∃ r : ℝ, C i = (r : EReal)) (H : FVec Ideal S512x2048 .bf16)
    (k : Fin 3) (q : Fin 2048) :
    addf
      (extractStridedSlice S3x2048 ![0, 0]
        (matmul dot_S6x512_S512x2048_S6x2048_1_0_0_1_n_n none
          (concatenate S6x512 0 [⟨S3x512, truncf .bf16 C bitsLt_bf16_f32⟩, ⟨S3x512, truncf .bf16 (subf C C) bitsLt_bf16_f32⟩]
            concatenates_S3x512_S3x512_S6x512_d0) H (constant S6x2048 .f32 0x00000000#32)) slices_S6x2048_o0_0_S3x2048)
      (extractStridedSlice S3x2048 ![3, 0]
        (matmul dot_S6x512_S512x2048_S6x2048_1_0_0_1_n_n none
          (concatenate S6x512 0 [⟨S3x512, truncf .bf16 C bitsLt_bf16_f32⟩, ⟨S3x512, truncf .bf16 (subf C C) bitsLt_bf16_f32⟩]
            concatenates_S3x512_S3x512_S6x512_d0) H (constant S6x2048 .f32 0x00000000#32)) slices_S6x2048_o3_0_S3x2048)
      (ix2 k q)
      = ∑ a : Fin 512, C (ix2 k a) * H (ix2 a q) := by
  refine (addf_apply _ _ (ix2 k q)).trans ?_
  rw [slice2_axis0_apply 0 _ slices_S6x2048_o0_0_S3x2048 k q (⟨k.val, by omega⟩ : Fin 6) (by show k.val = 0 + k.val; omega),
    slice2_axis0_apply 3 _ slices_S6x2048_o3_0_S3x2048 k q (⟨3 + k.val, by omega⟩ : Fin 6) rfl,
    KChunkMat.g6_apply, KChunkMat.g6_apply]
  refine (congrArg₂ (· + ·) (?_ : _ = ∑ a : Fin 512, C (ix2 k a) * H (ix2 a q)) (?_ : _ = (0 : EReal))).trans (add_zero _)
  · exact Finset.sum_congr rfl fun a _ => by rw [stack_top C k a]
  · exact (Finset.sum_congr rfl fun a _ => by rw [stack_bot C k a]).trans
      (KChunkAlg.sum_sub_self_mul (fun a => C (ix2 k a)) (fun a => hC _) (fun a => H (ix2 a q)))

variable (x0 : Vec Ideal S1x3x512 .f32) (x1 : Vec Ideal S1x64x512 .bf16) (v3 v5 : Vec Ideal S1x1x2048 .i32)
  (j0 j1 : Fin 2048 → Fin 512)

/-- The embedding rows of the pairs' neighbours: entry (b, q) is the embedding of pair q's second atom in basis b. -/
theorem emb_apply (hj1 : ∀ q, v5 (ix3 (0 : Fin 1) (0 : Fin 1) q) = BitVec.ofNat 32 (j1 q).val) (b : Fin 64) (q : Fin 2048) :
    k0_pay10 (F := Ideal) v5 x1 (ix2 b q) = x1 (ix3 (0 : Fin 1) b (j1 q)) := by
  unfold k0_pay10
  refine (KChunkMat.g64_apply _ _ b q).trans ?_
  refine (Finset.sum_congr rfl fun a _ => ?_).trans (KChunkAlg.sum_mul_ind (fun a => x1 (ix3 (0 : Fin 1) b a)) (j1 q))
  rw [KChunkHot.hot1_apply v5 j1 hj1 a q, shapeCast_1ab_ab_apply]

/-- The difference of the two gathered coordinate rows: entry (k, q) is x[a0] − x[a1] in component k for pair q. -/
theorem diff_apply (hx0 : ∀ i, ∃ r : ℝ, x0 i = (r : EReal))
    (hj0 : ∀ q, v3 (ix3 (0 : Fin 1) (0 : Fin 1) q) = BitVec.ofNat 32 (j0 q).val)
    (hj1 : ∀ q, v5 (ix3 (0 : Fin 1) (0 : Fin 1) q) = BitVec.ofNat 32 (j1 q).val) (k : Fin 3) (q : Fin 2048) :
    k0_pay9 (F := Ideal) v3 v5 x0 (ix2 k q) = x0 (ix3 (0 : Fin 1) k (j0 q)) - x0 (ix3 (0 : Fin 1) k (j1 q)) := by
  unfold k0_pay9
  refine (split_apply (shapeCast S3x512 x0 shapeCasts_S1x3x512_S3x512)
    (fun i => by obtain ⟨k', a', rfl⟩ : ∃ (k' : Fin 3) (a' : Fin 512), i = ix2 k' a' := ⟨i 0, i 1, eq_ix2 i⟩
                 rw [shapeCast_1ab_ab_apply]; exact hx0 _)
    (subf (k0_pay7 v3) (k0_pay8 v5)) k q).trans ?_
  refine (Finset.sum_congr rfl fun a _ => ?_).trans
    (KChunkAlg.sum_mul_ind_sub (fun a => x0 (ix3 (0 : Fin 1) k a)) (fun a => hx0 _) (j0 q) (j1 q))
  show shapeCast S3x512 x0 shapeCasts_S1x3x512_S3x512 (ix2 k a) * (k0_pay7 (F := Ideal) v3 (ix2 a q) - k0_pay8 (F := Ideal) v5 (ix2 a q)) = _
  rw [KChunkHot.hot0_apply v3 j0 hj0 a q, KChunkHot.hot1_apply v5 j1 hj1 a q, shapeCast_1ab_ab_apply]

end Cert.KernelIdeal.KChunkGather

end
-- ==== Proof.KChunkScat.lean ====
/-
  The chunk's scatter-add. Seventy rows over the chunk's 2048 pairs — the 64 feature rows, the 3 rows of the
  displacement, and 3 rows displacement − displacement — are multiplied with the rows of the one-hot matrix of the
  pairs' centre atoms: entry (row, a) sums the row over the pairs centred at a. The last three rows are zero for a
  real displacement.
-/
import proofs.«426414_j9629316677964_3_alg».proof.Proof.KChunkMat
import proofs.«426414_j9629316677964_3_alg».proof.Proof.KChunkAlg
import Idealize.ShloMosaic.Lib.ValueLayout

noncomputable section

namespace Cert.KernelIdeal.KChunkScat

open Idealize.ShloMosaic Idealize.ShloMosaic.ValueIdx Cert.KernelIdeal.Gen

/-- A strict comparison of two extended reals, widened and converted, is 1 or 0. -/
theorem flag_lt (x y : EReal) :
    ((((Ideal.cmp .olt x y).setWidth 32).toInt : ℝ) : EReal) = if x < y then 1 else 0 := by
  unfold Ideal.cmp
  by_cases h : x < y
  · have hb : decide (x < y) = true := decide_eq_true h
    show ((((BitVec.ofBool (decide (x < y))).setWidth 32).toInt : ℝ) : EReal) = _
    rw [hb, if_pos h]
    simp
  · have hb : decide (x < y) = false := decide_eq_false h
    show ((((BitVec.ofBool (decide (x < y))).setWidth 32).toInt : ℝ) : EReal) = _
    rw [hb, if_neg h]
    simp

variable (v14 : FVec Ideal S512x2048 .bf16) (v36 : FVec Ideal S64x2048 .f32) (v48 : FVec Ideal S2048 .f32)
  (v52 : FVec Ideal S3x2048 .f32) (v57 : FVec Ideal S2048 .f32) (v71 : FVec Ideal S64x2048 .f32)
  (v80 : FVec Ideal S2048 .f32) (c : Ideal .f32)

/-- One pair's feature in one basis, as the kernel multiplies it together: (rbf · ((cut · [d < c]) · mask)) · e. -/
def feat (b : Fin 64) (q : Fin 2048) : EReal :=
  (v71 (ix2 b q) * ((v80 (ix1 q) * (if v57 (ix1 q) < c then 1 else 0)) * v48 (ix1 q))) * v36 (ix2 b q)

theorem feat_entry (b : Fin 64) (q : Fin 2048) :
    mulf (mulf v71 (broadcastTo S64x2048 (shapeCast S1x2048 (mulf (mulf v80 (sitofp .f32 (extui 32 (cmpf .olt v57 (broadcast S2048 c)) natLt_1_32))) v48)
        shapeCasts_S2048_S1x2048) broadcasts_S1x2048_S64x2048)) v36 (ix2 b q) = feat v36 v48 v57 v71 v80 c b q := by
  refine (mulf_apply _ _ _).trans ?_
  refine congrArg (· * v36 (ix2 b q)) ?_
  refine (mulf_apply _ _ _).trans ?_
  refine congrArg (v71 (ix2 b q) * ·) ?_
  rw [broadcastTo_1b_ab_apply, shapeCast_a_1a_apply]
  refine (mulf_apply _ _ _).trans ?_
  refine congrArg (· * v48 (ix1 q)) ?_
  refine (mulf_apply _ _ _).trans ?_
  refine congrArg (v80 (ix1 q) * ·) ?_
  exact flag_lt (v57 (ix1 q)) c

/-- The seventy rows, as the three pieces the kernel stacks. -/
abbrev rows : List ((s : Shape) × (s.Idx → Ideal .bf16)) :=
  [⟨S64x2048, truncf .bf16 (mulf (mulf v71 (broadcastTo S64x2048 (shapeCast S1x2048 (mulf (mulf v80 (sitofp .f32 (extui 32 (cmpf .olt v57 (broadcast S2048 c)) natLt_1_32))) v48) shapeCasts_S2048_S1x2048) broadcasts_S1x2048_S64x2048)) v36) bitsLt_bf16_f32⟩, ⟨S3x2048, truncf .bf16 v52 bitsLt_bf16_f32⟩, ⟨S3x2048, truncf .bf16 (subf v52 v52) bitsLt_bf16_f32⟩]

/-- Rows 0 … 63 of the stack are the features. -/
theorem stack_feat (b : Fin 64) (q : Fin 2048) :
    concatenate S70x2048 0 (rows v36 v48 v52 v57 v71 v80 c) concatenates_S64x2048_S3x2048_S3x2048_S70x2048_d0 (ix2 (⟨b.val, by omega⟩ : Fin 70) q) = feat v36 v48 v57 v71 v80 c b q := by
  refine (concatenate_apply_piece (0 : Fin S70x2048.rank) (rows v36 v48 v52 v57 v71 v80 c) concatenates_S64x2048_S3x2048_S3x2048_S70x2048_d0 _ 0 (by show (0 : ℕ) < 3; omega)
    S64x2048 _ rfl rfl 0 rfl (ix2 b q)
    (fun bb => match bb with
      | ⟨0, _⟩ => fun h => absurd rfl h
      | ⟨1, _⟩ => fun _ => rfl)
    (by show 0 + b.val = b.val; omega)).trans ?_
  exact feat_entry v36 v48 v57 v71 v80 c b q

/-- Rows 64, 65, 66 of the stack are the displacement's three components. -/
theorem stack_vec (k : Fin 3) (q : Fin 2048) :
    concatenate S70x2048 0 (rows v36 v48 v52 v57 v71 v80 c) concatenates_S64x2048_S3x2048_S3x2048_S70x2048_d0 (ix2 (⟨64 + k.val, by omega⟩ : Fin 70) q) = v52 (ix2 k q) :=
  concatenate_apply_piece (0 : Fin S70x2048.rank) (rows v36 v48 v52 v57 v71 v80 c) concatenates_S64x2048_S3x2048_S3x2048_S70x2048_d0 _ 1 (by show (1 : ℕ) < 3; omega)
    S3x2048 _ rfl rfl 64 rfl (ix2 k q)
    (fun bb => match bb with
      | ⟨0, _⟩ => fun h => absurd rfl h
      | ⟨1, _⟩ => fun _ => rfl)
    rfl

/-- Rows 67, 68, 69 of the stack are the displacement less itself. -/
theorem stack_res (k : Fin 3) (q : Fin 2048) :
    concatenate S70x2048 0 (rows v36 v48 v52 v57 v71 v80 c) concatenates_S64x2048_S3x2048_S3x2048_S70x2048_d0 (ix2 (⟨67 + k.val, by omega⟩ : Fin 70) q) = v52 (ix2 k q) - v52 (ix2 k q) :=
  concatenate_apply_piece (0 : Fin S70x2048.rank) (rows v36 v48 v52 v57 v71 v80 c) concatenates_S64x2048_S3x2048_S3x2048_S70x2048_d0 _ 2 (by show (2 : ℕ) < 3; omega)
    S3x2048 _ rfl rfl 67 rfl (ix2 k q)
    (fun bb => match bb with
      | ⟨0, _⟩ => fun h => absurd rfl h
      | ⟨1, _⟩ => fun _ => rfl)
    rfl

/-- Feature row b at atom a: the features of the chunk's pairs, each against the one-hot entry of a. -/
theorem scat_feat (b : Fin 64) (a : Fin 512) :
    k0_pay1 (F := Ideal) v14 v36 v48 v52 v57 v71 v80 c (ix2 (⟨b.val, by omega⟩ : Fin 70) a)
      = ∑ q : Fin 2048, feat v36 v48 v57 v71 v80 c b q * v14 (ix2 a q) := by
  unfold k0_pay1
  refine (KChunkMat.s70_apply _ _ _ a).trans ?_
  exact Finset.sum_congr rfl fun q _ => congrArg (· * v14 (ix2 a q)) (stack_feat v36 v48 v52 v57 v71 v80 c b q)

/-- Displacement row k at atom a. -/
theorem scat_vec (k : Fin 3) (a : Fin 512) :
    k0_pay1 (F := Ideal) v14 v36 v48 v52 v57 v71 v80 c (ix2 (⟨64 + k.val, by omega⟩ : Fin 70) a)
      = ∑ q : Fin 2048, v52 (ix2 k q) * v14 (ix2 a q) := by
  unfold k0_pay1
  refine (KChunkMat.s70_apply _ _ _ a).trans ?_
  exact Finset.sum_congr rfl fun q _ => congrArg (· * v14 (ix2 a q)) (stack_vec v36 v48 v52 v57 v71 v80 c k q)

/-- The residual rows vanish for a real displacement. -/
theorem scat_res (h52 : ∀ i, ∃ r : ℝ, v52 i = (r : EReal)) (k : Fin 3) (a : Fin 512) :
    k0_pay1 (F := Ideal) v14 v36 v48 v52 v57 v71 v80 c (ix2 (⟨67 + k.val, by omega⟩ : Fin 70) a) = 0 := by
  unfold k0_pay1
  refine (KChunkMat.s70_apply _ _ _ a).trans ?_
  refine (Finset.sum_congr rfl fun q _ => congrArg (· * v14 (ix2 a q)) (stack_res v36 v48 v52 v57 v71 v80 c k q)).trans ?_
  exact KChunkAlg.sum_sub_self_mul (fun q => v52 (ix2 k q)) (fun q => h52 _) (fun q => v14 (ix2 a q))

end Cert.KernelIdeal.KChunkScat

end
-- ==== Proof.KChunkW.lean ====
/-
  The elementwise part of a chunk, read at a pair: the mask of a pair from its shift, its masked displacement, its
  length, its Gaussians and the cosine factor of its cutoff.

  The mask is computed as a minimum: each shift component is turned into 1 or 0 by comparing it with the sentinel, the
  minimum of the three (from +∞) is positive exactly when all three are 1, and that comparison is turned into 1 or 0
  again. The other values are pointwise expressions of a row [2048] broadcast over rows, or of a column [64, 1]
  broadcast over columns.
-/
import proofs.«426414_j9629316677964_3_alg».proof.Proof.Gen.KernelIdeal.Skeleton
import proofs.«426414_j9629316677964_3_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.KChunkW

open Idealize.ShloMosaic Idealize.ShloMosaic.ValueIdx Cert.KernelIdeal Cert.KernelIdeal.Gen

/-! ## Layout -/

/-- A row [2048] broadcast over the rows of an [n, 2048] array reads its entry q in every row. -/
theorem row_bcast_apply {n : Nat} (v : (⟨1, ![2048]⟩ : Shape).Idx → EReal) (h1 : (⟨1, ![2048]⟩ : Shape).ShapeCasts ⟨2, ![1, 2048]⟩)
    (h2 : (⟨2, ![1, 2048]⟩ : Shape).Broadcasts ⟨2, ![n, 2048]⟩) (r : Fin n) (q : Fin 2048) :
    broadcastTo ⟨2, ![n, 2048]⟩ (shapeCast ⟨2, ![1, 2048]⟩ v h1) h2 (ix2 r q) = v (ix1 q) :=
  (broadcastTo_1b_ab_apply _ h2 r q).trans (shapeCast_a_1a_apply v h1 0 q)

/-- A column [64, 1] broadcast over the columns of a [64, 2048] array reads its entry b in every column. -/
theorem col_bcast_apply (v : (⟨2, ![64, 1]⟩ : Shape).Idx → EReal) (h : (⟨2, ![64, 1]⟩ : Shape).Broadcasts ⟨2, ![64, 2048]⟩)
    (b : Fin 64) (q : Fin 2048) : broadcastTo ⟨2, ![64, 2048]⟩ v h (ix2 b q) = v (ix2 b (0 : Fin 1)) := by
  refine broadcastTo_apply v h (ix2 b q) (ix2 b (0 : Fin 1)) fun ax => ?_
  match ax with
  | ⟨0, _⟩ => rfl
  | ⟨1, _⟩ => rfl

/-- A cast of an array to its own shape is the array. -/
theorem cast_self_apply {s : Shape} (v : s.Idx → EReal) (h : s.ShapeCasts s) (i : s.Idx) : shapeCast s v h i = v i :=
  shapeCast_apply v h i i rfl

/-! ## The literals -/

theorem ofBits_pinf : Ideal.ofBits .f32 0x7F800000#32 = (⊤ : EReal) := by simp [Ideal.ofBits, Ideal.ieee]
theorem ofBits_zero : Ideal.ofBits .f32 0x00000000#32 = (0 : EReal) := Ideal.ofBits_zero_f32
theorem ofBits_one : Ideal.ofBits .f32 0x3F800000#32 = (1 : EReal) := by
  simp [Ideal.ofBits, Ideal.ieee, -EReal.coe_mul]; norm_num

/-! ## The mask -/

/-- The minimum over the three rows, read at a column. -/
theorem min3_apply (src : FVec Ideal S3x2048 .f32) (q : Fin 2048) :
    multiReduction .minimumf [0] S2048 src 0x7F800000#32 reduces_S3x2048_S2048 (.inl rfl) rfl (ix1 q)
      = (Finset.univ : Finset (Fin 3)).fold min (⊤ : EReal) (fun k => src (ix2 k q)) := by
  refine (multiReduction_minimumf_eq_fold src _ reduces_S3x2048_S2048 (.inl rfl) rfl (ix1 q)).trans ?_
  refine (reduces_S3x2048_S2048.fold_filter_drop_single _ _ src (ix1 q)).trans ?_
  show (Finset.univ : Finset (Fin 3)).fold min (Ideal.ofBits .f32 0x7F800000#32) (src ∘ reduces_S3x2048_S2048.lift (ix1 q)) = _
  rw [ofBits_pinf]
  refine congrArg (fun f => (Finset.univ : Finset (Fin 3)).fold min (⊤ : EReal) f) (funext fun k => ?_)
  refine congrArg src (funext fun a => ?_)
  match a with
  | ⟨0, _⟩ => exact Fin.ext rfl
  | ⟨1, _⟩ => exact Fin.ext rfl

theorem mask_apply (x3 : Vec Ideal S1x3x2048 .f32) (q : Fin 2048) :
    k0_pay12 (F := Ideal) x3 (ix1 q) = Cert.Spec.maskOf (fun k => x3 (ix3 0 k q)) := by
  unfold k0_pay12 k0_pay11
  dsimp only
  rw [sitofp_apply, extui_apply, cmpf_apply, min3_apply, broadcast_apply]
  show (((((Ideal.cmp .ogt ((Finset.univ : Finset (Fin 3)).fold min (⊤ : EReal) _) (Ideal.ofBits .f32 0x00000000#32)).setWidth 32).toInt : ℝ)) : EReal) = _
  rw [ofBits_zero]
  have hsel : ∀ k : Fin 3, (select (cmpf .ogt (shapeCast S3x2048 x3 shapeCasts_S1x3x2048_S3x2048)
        (broadcast S3x2048 (FloatOps.ofBits (F := Ideal) .f32 0xD01502F9#32)))
      (broadcast S3x2048 (FloatOps.ofBits (F := Ideal) .f32 0x3F800000#32))
      (broadcast S3x2048 (FloatOps.ofBits (F := Ideal) .f32 0x00000000#32)) : FVec Ideal S3x2048 .f32) (ix2 k q)
      = if Cert.Spec.NEG < x3 (ix3 0 k q) then (1 : EReal) else 0 := by
    intro k
    show Scalar.select (Ideal.cmp .ogt (shapeCast S3x2048 x3 shapeCasts_S1x3x2048_S3x2048 (ix2 k q)) (Ideal.ofBits .f32 0xD01502F9#32))
        (Ideal.ofBits .f32 0x3F800000#32) (Ideal.ofBits .f32 0x00000000#32) = _
    rw [shapeCast_1ab_ab_apply, ofBits_one, ofBits_zero]
    unfold Cert.Spec.NEG
    by_cases hk : Ideal.ofBits .f32 0xD01502F9#32 < x3 (ix3 0 k q)
    · simp [Ideal.cmp, Scalar.select, hk]
    · simp [Ideal.cmp, Scalar.select, hk]
  simp only [hsel]
  unfold Cert.Spec.maskOf
  by_cases hall : ∀ k, Cert.Spec.NEG < x3 (ix3 0 k q)
  · rw [if_pos hall]
    have : (0 : EReal) < (Finset.univ : Finset (Fin 3)).fold min (⊤ : EReal) (fun k => if Cert.Spec.NEG < x3 (ix3 0 k q) then (1 : EReal) else 0) := by
      rw [Finset.lt_fold_min]
      refine ⟨by simp, fun k _ => ?_⟩
      rw [if_pos (hall k)]
      exact zero_lt_one
    simp [Ideal.cmp, this]
  · rw [if_neg hall]
    have : ¬ (0 : EReal) < (Finset.univ : Finset (Fin 3)).fold min (⊤ : EReal) (fun k => if Cert.Spec.NEG < x3 (ix3 0 k q) then (1 : EReal) else 0) := by
      rw [Finset.lt_fold_min]
      rintro ⟨-, hh⟩
      apply hall
      intro k
      by_contra hk
      have := hh k (Finset.mem_univ k)
      rw [if_neg hk] at this
      exact lt_irrefl _ this
    simp [Ideal.cmp, this]

/-! ## The displacement, its length, the Gaussians, the cutoff's cosine factor -/

theorem dv_apply (c : FVec Ideal S3x2048 .f32) (x3 : Vec Ideal S1x3x2048 .f32) (q : Fin 2048) (k : Fin 3) :
    k0_pay13 (F := Ideal) c x3 (ix2 k q)
      = (c (ix2 k q) + x3 (ix3 0 k q)) * Cert.Spec.maskOf (fun k => x3 (ix3 0 k q)) := by
  unfold k0_pay13 k0_pay11
  dsimp only
  rw [mulf_apply, addf_apply, shapeCast_1ab_ab_apply, row_bcast_apply, mask_apply]

/-- The sum over the three rows, read at a column. -/
theorem sum3_apply (src : FVec Ideal S3x2048 .f32) (q : Fin 2048) :
    multiReduction .add [0] S2048 src 0x00000000#32 reduces_S3x2048_S2048 (.inl rfl) rfl (ix1 q)
      = ∑ k : Fin 3, src (ix2 k q) := by
  refine (Ideal.multiReduction_add_single src _ reduces_S3x2048_S2048 (.inl rfl) rfl (ix1 q)).trans ?_
  show ∑ k : Fin 3, src (reduces_S3x2048_S2048.lift (ix1 q) k) = _
  refine Finset.sum_congr rfl fun k _ => congrArg src (funext fun a => ?_)
  match a with
  | ⟨0, _⟩ => exact Fin.ext rfl
  | ⟨1, _⟩ => exact Fin.ext rfl

theorem dist_apply (c : FVec Ideal S3x2048 .f32) (x3 : Vec Ideal S1x3x2048 .f32) (q : Fin 2048) :
    k0_pay14 (F := Ideal) c x3 (ix1 q) = Cert.Spec.distOf (fun k => k0_pay13 (F := Ideal) c x3 (ix2 k q)) := by
  unfold k0_pay14
  show Ideal.sqrt (multiReduction .add [0] S2048 (mulf (k0_pay13 (F := Ideal) c x3) (k0_pay13 (F := Ideal) c x3)) 0x00000000#32
      reduces_S3x2048_S2048 (.inl rfl) rfl (ix1 q) + Ideal.ofBits .f32 0x2B8CBCCC#32) = _
  rw [sum3_apply]
  rfl

theorem rbf_apply (c : FVec Ideal S3x2048 .f32) (x3 : Vec Ideal S1x3x2048 .f32) (x4 x5 : Vec Ideal S64x1 .f32) (b : Fin 64) (q : Fin 2048) :
    k0_pay15 (F := Ideal) c x3 x4 x5 (ix2 b q)
      = Cert.Spec.rbfOf (x5 (ix2 b (0 : Fin 1))) (x4 (ix2 b (0 : Fin 1))) (k0_pay14 (F := Ideal) c x3 (ix1 q)) := by
  unfold k0_pay15
  show Ideal.exp (broadcastTo S64x2048 (subf (broadcast S64x1 (FloatOps.ofBits (F := Ideal) .f32 0x00000000#32)) (shapeCast S64x1 x5 shapeCasts_S64x1_S64x1))
        broadcasts_S64x1_S64x2048 (ix2 b q)
      * ((broadcastTo S64x2048 (shapeCast S1x2048 (k0_pay14 (F := Ideal) c x3) shapeCasts_S2048_S1x2048) broadcasts_S1x2048_S64x2048 (ix2 b q)
          - broadcastTo S64x2048 (shapeCast S64x1 x4 shapeCasts_S64x1_S64x1) broadcasts_S64x1_S64x2048 (ix2 b q))
        * (broadcastTo S64x2048 (shapeCast S1x2048 (k0_pay14 (F := Ideal) c x3) shapeCasts_S2048_S1x2048) broadcasts_S1x2048_S64x2048 (ix2 b q)
          - broadcastTo S64x2048 (shapeCast S64x1 x4 shapeCasts_S64x1_S64x1) broadcasts_S64x1_S64x2048 (ix2 b q)))) = _
  rw [col_bcast_apply, col_bcast_apply, row_bcast_apply, cast_self_apply, subf_apply, cast_self_apply, broadcast_apply]
  show Ideal.exp ((Ideal.ofBits .f32 0x00000000#32 - x5 (ix2 b (0 : Fin 1))) * _) = _
  rw [ofBits_zero, zero_sub]
  rfl

theorem cut_apply (c : FVec Ideal S3x2048 .f32) (x3 : Vec Ideal S1x3x2048 .f32) (q : Fin 2048) :
    k0_pay16 (F := Ideal) c x3 (ix1 q)
      = Cert.Spec.HALF * (Ideal.cos (Ideal.div (Cert.Spec.PI * k0_pay14 (F := Ideal) c x3 (ix1 q)) Cert.Spec.FIVE) + Cert.Spec.ONE) := by
  unfold k0_pay16
  rfl

end Cert.KernelIdeal.KChunkW

end
-- ==== Proof.KChunk.lean ====
/-
  One chunk of 2048 pairs adds to the two accumulators exactly the chunk's share of the densities and of the vectors.

  From the blocks of a grid point — the molecule's coordinates x, the embedding rows e of its atoms, the chunk's two rows
  of atom indices, its shifts s, the centers and widths — the body computes, per pair q, the mask, the displacement
  dv = ((x[a0] − x[a1]) + s) · mask, its length d, the Gaussians and the cutoff, multiplies them into the feature
  of the pair, and scatter-adds the features and the displacements to the pair's centre atom a0 by a product with a
  one-hot matrix. Read at an entry, the density accumulator gains Σ_q [a0(q) = a] · feature(q, b) and the vector
  accumulator Σ_q [a0(q) = a] · dv(q, k). The coordinates and the shifts are real numbers: the kernel carries
  x and dv as pairs (v, v − v), whose second halves are then zero.
-/
import proofs.«426414_j9629316677964_3_alg».proof.Proof.KStep
import proofs.«426414_j9629316677964_3_alg».proof.Proof.KChunkGather
import proofs.«426414_j9629316677964_3_alg».proof.Proof.KChunkScat
import proofs.«426414_j9629316677964_3_alg».proof.Proof.KChunkW
import proofs.«426414_j9629316677964_3_alg».proof.Proof.Spec

noncomputable section

namespace Cert.KernelIdeal.KChunk

open Idealize.ShloMosaic Idealize.ShloMosaic.ValueIdx Cert.KernelIdeal.Gen Cert.KernelIdeal.KStep

variable (x0 : Vec Ideal S1x3x512 .f32) (x1 : Vec Ideal S1x64x512 .bf16) (v3 v5 : Vec Ideal S1x1x2048 .i32)
  (x3 : Vec Ideal S1x3x2048 .f32) (x4 x5 : Vec Ideal S64x1 .f32) (j0 j1 : Fin 2048 → Fin 512)

/-- The displacement of pair q, as the body computes it, is the specification's. -/
theorem dv_eq (hx0 : ∀ i, ∃ r : ℝ, x0 i = (r : EReal))
    (hj0 : ∀ q, v3 (ix3 (0 : Fin 1) (0 : Fin 1) q) = BitVec.ofNat 32 (j0 q).val)
    (hj1 : ∀ q, v5 (ix3 (0 : Fin 1) (0 : Fin 1) q) = BitVec.ofNat 32 (j1 q).val) (k : Fin 3) (q : Fin 2048) :
    k0_pay13 (F := Ideal) (k0_pay9 (F := Ideal) v3 v5 x0) x3 (ix2 k q)
      = Cert.Spec.dvP (fun a k => x0 (ix3 (0 : Fin 1) k a)) ((fun q k => x3 (ix3 (0 : Fin 1) k q)) q) (j0 q) (j1 q) k := by
  rw [KChunkW.dv_apply, KChunkGather.diff_apply x0 v3 v5 j0 j1 hx0 hj0 hj1 k q]
  rfl

/-- The displacements are real numbers. -/
theorem dv_real (hx0 : ∀ i, ∃ r : ℝ, x0 i = (r : EReal)) (hx3 : ∀ i, ∃ r : ℝ, x3 i = (r : EReal))
    (hj0 : ∀ q, v3 (ix3 (0 : Fin 1) (0 : Fin 1) q) = BitVec.ofNat 32 (j0 q).val)
    (hj1 : ∀ q, v5 (ix3 (0 : Fin 1) (0 : Fin 1) q) = BitVec.ofNat 32 (j1 q).val) (i : S3x2048.Idx) :
    ∃ r : ℝ, k0_pay13 (F := Ideal) (k0_pay9 (F := Ideal) v3 v5 x0) x3 i = (r : EReal) := by
  obtain ⟨k, q, rfl⟩ : ∃ (k : Fin 3) (q : Fin 2048), i = ix2 k q := ⟨i 0, i 1, eq_ix2 i⟩
  obtain ⟨r0, h0⟩ := hx0 (ix3 (0 : Fin 1) k (j0 q))
  obtain ⟨r1, h1⟩ := hx0 (ix3 (0 : Fin 1) k (j1 q))
  obtain ⟨r3, h3⟩ := hx3 (ix3 (0 : Fin 1) k q)
  rw [KChunkW.dv_apply, KChunkGather.diff_apply x0 v3 v5 j0 j1 hx0 hj0 hj1 k q, h0, h1, h3]
  unfold Cert.Spec.maskOf
  split_ifs
  · exact ⟨r0 - r1 + r3, by rw [mul_one, EReal.coe_add, EReal.coe_sub]⟩
  · exact ⟨0, by rw [mul_zero, EReal.coe_zero]⟩

/-- The length of pair q's displacement. -/
theorem dist_eq (hx0 : ∀ i, ∃ r : ℝ, x0 i = (r : EReal))
    (hj0 : ∀ q, v3 (ix3 (0 : Fin 1) (0 : Fin 1) q) = BitVec.ofNat 32 (j0 q).val)
    (hj1 : ∀ q, v5 (ix3 (0 : Fin 1) (0 : Fin 1) q) = BitVec.ofNat 32 (j1 q).val) (q : Fin 2048) :
    k0_pay14 (F := Ideal) (k0_pay9 (F := Ideal) v3 v5 x0) x3 (ix1 q)
      = Cert.Spec.distOf (Cert.Spec.dvP (fun a k => x0 (ix3 (0 : Fin 1) k a)) ((fun q k => x3 (ix3 (0 : Fin 1) k q)) q) (j0 q) (j1 q)) := by
  rw [KChunkW.dist_apply]
  exact congrArg Cert.Spec.distOf (funext fun k => dv_eq x0 v3 v5 x3 j0 j1 hx0 hj0 hj1 k q)

/-- The feature of pair q in basis b, as the body multiplies it together, is the specification's. -/
theorem feat_eq (hx0 : ∀ i, ∃ r : ℝ, x0 i = (r : EReal))
    (hj0 : ∀ q, v3 (ix3 (0 : Fin 1) (0 : Fin 1) q) = BitVec.ofNat 32 (j0 q).val)
    (hj1 : ∀ q, v5 (ix3 (0 : Fin 1) (0 : Fin 1) q) = BitVec.ofNat 32 (j1 q).val) (b : Fin 64) (q : Fin 2048) :
    KChunkScat.feat (k0_pay10 (F := Ideal) v5 x1) (k0_pay12 (F := Ideal) x3) (k0_pay14 (F := Ideal) (k0_pay9 (F := Ideal) v3 v5 x0) x3)
        (k0_pay15 (F := Ideal) (k0_pay9 (F := Ideal) v3 v5 x0) x3 x4 x5) (k0_pay16 (F := Ideal) (k0_pay9 (F := Ideal) v3 v5 x0) x3) (Scalar.ofBits .f32 0x40A00000#32) b q
      = Cert.Spec.pfP (fun a k => x0 (ix3 (0 : Fin 1) k a)) (fun a b => x1 (ix3 (0 : Fin 1) b a)) (fun b => x4 (ix2 b (0 : Fin 1))) (fun b => x5 (ix2 b (0 : Fin 1))) ((fun q k => x3 (ix3 (0 : Fin 1) k q)) q) (j0 q) (j1 q) b := by
  unfold KChunkScat.feat
  rw [KChunkW.rbf_apply, KChunkW.cut_apply, KChunkW.mask_apply, KChunkGather.emb_apply x1 v5 j1 hj1 b q,
    dist_eq x0 v3 v5 x3 j0 j1 hx0 hj0 hj1 q]
  rfl

/-- A1. The density accumulator after the chunk: what it held, plus the densities of the chunk's pairs. -/
theorem chunk_dens (hx0 : ∀ i, ∃ r : ℝ, x0 i = (r : EReal))
    (hj0 : ∀ q, v3 (ix3 (0 : Fin 1) (0 : Fin 1) q) = BitVec.ofNat 32 (j0 q).val)
    (hj1 : ∀ q, v5 (ix3 (0 : Fin 1) (0 : Fin 1) q) = BitVec.ofNat 32 (j1 q).val)
    (xs0 : Vec Ideal S64x512 .f32) (b : Fin 64) (a : Fin 512) :
    stepD x0 x1 v3 v5 x3 x4 x5 xs0 (ix2 b a)
      = xs0 (ix2 b a) + Cert.Spec.densP (fun a k => x0 (ix3 (0 : Fin 1) k a)) (fun a b => x1 (ix3 (0 : Fin 1) b a)) (fun b => x4 (ix2 b (0 : Fin 1))) (fun b => x5 (ix2 b (0 : Fin 1))) (fun q k => x3 (ix3 (0 : Fin 1) k q)) j0 j1 a b := by
  unfold stepD k0_pay2
  refine (congrFun (shapeCast_self _ shapeCasts_S64x512_S64x512) (ix2 b a)).trans ?_
  refine (addf_apply _ _ _).trans ?_
  refine congrArg (xs0 (ix2 b a) + ·) ?_
  refine (slice2_axis0_apply 0 _ slices_S70x512_o0_0_S64x512 b a (⟨b.val, by omega⟩ : Fin 70)
    (by show b.val = 0 + b.val; omega)).trans ?_
  refine (KChunkScat.scat_feat _ _ _ _ _ _ _ _ b a).trans ?_
  unfold Cert.Spec.densP
  refine Finset.sum_congr rfl fun q _ => ?_
  rw [KChunkHot.hot0_apply v3 j0 hj0 a q, feat_eq x0 x1 v3 v5 x3 x4 x5 j0 j1 hx0 hj0 hj1 b q, mul_ite, mul_one, mul_zero]

/-- A2. The vector accumulator after the chunk: what it held, plus the displacements of the chunk's pairs. -/
theorem chunk_tot (hx0 : ∀ i, ∃ r : ℝ, x0 i = (r : EReal)) (hx3 : ∀ i, ∃ r : ℝ, x3 i = (r : EReal))
    (hj0 : ∀ q, v3 (ix3 (0 : Fin 1) (0 : Fin 1) q) = BitVec.ofNat 32 (j0 q).val)
    (hj1 : ∀ q, v5 (ix3 (0 : Fin 1) (0 : Fin 1) q) = BitVec.ofNat 32 (j1 q).val)
    (xs1 : Vec Ideal S3x512 .f32) (k : Fin 3) (a : Fin 512) :
    stepT x0 x1 v3 v5 x3 x4 x5 xs1 (ix2 k a)
      = xs1 (ix2 k a) + Cert.Spec.totP (fun a k => x0 (ix3 (0 : Fin 1) k a)) (fun q k => x3 (ix3 (0 : Fin 1) k q)) j0 j1 a k := by
  unfold stepT k0_pay3
  refine (congrFun (shapeCast_self _ shapeCasts_S3x512_S3x512) (ix2 k a)).trans ?_
  refine (addf_apply _ _ _).trans ?_
  refine congrArg (xs1 (ix2 k a) + ·) ?_
  refine (addf_apply _ _ _).trans ?_
  rw [slice2_axis0_apply 64 _ slices_S70x512_o64_0_S3x512 k a (⟨64 + k.val, by omega⟩ : Fin 70) rfl,
    slice2_axis0_apply 67 _ slices_S70x512_o67_0_S3x512 k a (⟨67 + k.val, by omega⟩ : Fin 70) rfl,
    KChunkScat.scat_vec, KChunkScat.scat_res _ _ _ _ _ _ _ _ (dv_real x0 v3 v5 x3 j0 j1 hx0 hx3 hj0 hj1) k a, add_zero]
  unfold Cert.Spec.totP
  refine Finset.sum_congr rfl fun q _ => ?_
  rw [KChunkHot.hot0_apply v3 j0 hj0 a q, dv_eq x0 v3 v5 x3 j0 j1 hx0 hj0 hj1 k q, mul_ite, mul_one, mul_zero]

end Cert.KernelIdeal.KChunk

end
-- ==== Proof.KFinal.lean ====
/-
  The kernel program's result is the dipole of every molecule.

  A grid point handles one chunk of 2048 pairs of one molecule. Its blocks are the molecule's coordinates and embedding
  rows, the chunk's two index rows and shifts, and the shared tables; read at an index they are entries of the argument
  arrays. So one chunk adds to the density accumulator the densities of the chunk's pairs, and to the vector
  accumulator their displacement sums; the sixteen chunks of a molecule add up to the sums over all its 32768 pairs,
  and the last chunk's head turns them into the molecule's dipole.
-/
import proofs.«426414_j9629316677964_3_alg».proof.Proof.KGlue
import proofs.«426414_j9629316677964_3_alg».proof.Proof.KHostC
import proofs.«426414_j9629316677964_3_alg».proof.Proof.KHostE
import proofs.«426414_j9629316677964_3_alg».proof.Proof.KChunk
import proofs.«426414_j9629316677964_3_alg».proof.Proof.SpecSums
import proofs.«426414_j9629316677964_3_alg».proof.Proof.Spec

set_option maxRecDepth 16384

noncomputable section

namespace Cert.KernelIdeal.KFinal

open Idealize.ShloMosaic Idealize.ShloMosaic.TcCoe Idealize.SL.Sem Idealize.ShloMosaic.ValueIdx
open Cert.KernelIdeal Cert.KernelIdeal.Gen Cert.KernelIdeal.KStep Cert.KernelIdeal.KFramePieces
open Cert.KernelIdeal.KFrameRun Cert.KernelIdeal.KGlue Cert.KernelIdeal.KHostC

variable (m : (ℓ : Loc nD τ sig) → Buf (Elt Ideal) ℓ) (c : Dev nD)

/-- The chunk's pair q as a pair of the molecule: the two spellings of 2048·cc + q. -/
theorem pairOf_eq (cc : Fin 16) (q : Fin 2048) : pairOf cc q = Cert.SpecSums.pq cc q := rfl

theorem kernel_result
    (hf0 : ∀ i, ∃ r : ℝ, (m ((c : Thread nD τ).loc main_arg0) : Vec Ideal S32x512x3 .f32) i = (r : EReal))
    (hf1 : ∀ i, ∃ r : ℝ, (m ((c : Thread nD τ).loc main_arg1) : Vec Ideal S32x32768x3 .f32) i = (r : EReal))
    (sp : Fin 32 → Fin 512 → Fin 8) (i0 i1 : Fin 32 → Fin 32768 → Fin 512)
    (hs : ∀ mm a, (m ((c : Thread nD τ).loc main_arg10) : Vec Ideal S32x512 .i32) (ix2 mm a) = BitVec.ofNat 32 (sp mm a).val)
    (h0 : ∀ mm p, (m ((c : Thread nD τ).loc main_arg11) : Vec Ideal S2x32x32768 .i32) (ix3 (0 : Fin 2) mm p) = BitVec.ofNat 32 (i0 mm p).val)
    (h1 : ∀ mm p, (m ((c : Thread nD τ).loc main_arg11) : Vec Ideal S2x32x32768 .i32) (ix3 (1 : Fin 2) mm p) = BitVec.ofNat 32 (i1 mm p).val)
    (mm : Fin 32) (k : Fin 3) :
    res m c (ix2 mm k)
      = Cert.Spec.dipoleMol (fun a k => (m ((c : Thread nD τ).loc main_arg0) : Vec Ideal S32x512x3 .f32) (ix3 mm a k))
          (fun a b => (m ((c : Thread nD τ).loc main_arg4) : Vec Ideal S8x64 .f32) (ix2 (sp mm a) b))
          (fun b => (m ((c : Thread nD τ).loc main_arg2) : Vec Ideal S64 .f32) (ix1 b))
          (fun b => (m ((c : Thread nD τ).loc main_arg3) : Vec Ideal S64 .f32) (ix1 b))
          (fun b h => (m ((c : Thread nD τ).loc main_arg5) : Vec Ideal S64x256 .f32) (ix2 b h))
          (fun h => (m ((c : Thread nD τ).loc main_arg6) : Vec Ideal S256 .f32) (ix1 h))
          (fun h => (m ((c : Thread nD τ).loc main_arg7) : Vec Ideal S256x1 .f32) (ix2 h (0 : Fin 1)))
          ((m ((c : Thread nD τ).loc main_arg8) : Vec Ideal S1 .f32) (ix1 (0 : Fin 1)))
          (fun p k => (m ((c : Thread nD τ).loc main_arg1) : Vec Ideal S32x32768x3 .f32) (ix3 mm p k))
          (i0 mm) (i1 mm) k := by
  -- the blocks of chunk cc of this molecule, as entries of the arguments
  have e0 : ∀ cc : Fin 16, (fun (a : Fin 512) (k : Fin 3) => (iblk m c 0 (pt mm cc) : Vec Ideal S1x3x512 .f32) (ix3 0 k a))
      = fun a k => (m ((c : Thread nD τ).loc main_arg0) : Vec Ideal S32x512x3 .f32) (ix3 mm a k) :=
    fun cc => funext fun a => funext fun k => blk0_apply m c (pt mm cc) mm cc rfl 0 k a
  have e1 : ∀ cc : Fin 16, (fun (a : Fin 512) (b : Fin 64) => (iblk m c 1 (pt mm cc) : Vec Ideal S1x64x512 .bf16) (ix3 0 b a))
      = fun a b => (m ((c : Thread nD τ).loc main_arg4) : Vec Ideal S8x64 .f32) (ix2 (sp mm a) b) :=
    fun cc => funext fun a => funext fun b => Cert.KernelIdeal.KHostE.blk1_apply m c sp hs (pt mm cc) mm cc rfl 0 b a
  have e3 : ∀ cc : Fin 16, (fun (q : Fin 2048) (k : Fin 3) => (iblk m c 3 (pt mm cc) : Vec Ideal S1x3x2048 .f32) (ix3 0 k q))
      = fun q k => (m ((c : Thread nD τ).loc main_arg1) : Vec Ideal S32x32768x3 .f32) (ix3 mm (Cert.SpecSums.pq cc q) k) :=
    fun cc => funext fun q => funext fun k => blk3_apply m c (pt mm cc) mm cc rfl 0 k q
  have e4 : ∀ cc : Fin 16, (fun (b : Fin 64) => (iblk m c 4 (pt mm cc) : Vec Ideal S64x1 .f32) (ix2 b 0))
      = fun b => (m ((c : Thread nD τ).loc main_arg2) : Vec Ideal S64 .f32) (ix1 b) :=
    fun cc => funext fun b => blk4_apply m c (pt mm cc) b 0
  have e5 : ∀ cc : Fin 16, (fun (b : Fin 64) => (iblk m c 5 (pt mm cc) : Vec Ideal S64x1 .f32) (ix2 b 0))
      = fun b => (m ((c : Thread nD τ).loc main_arg3) : Vec Ideal S64 .f32) (ix1 b) :=
    fun cc => funext fun b => blk5_apply m c (pt mm cc) b 0
  have hx0 : ∀ (cc : Fin 16) i, ∃ r : ℝ, (iblk m c 0 (pt mm cc) : Vec Ideal S1x3x512 .f32) i = (r : EReal) := by
    intro cc i
    obtain ⟨u, k, a, rfl⟩ : ∃ (u : Fin 1) (k : Fin 3) (a : Fin 512), i = ix3 u k a := ⟨i 0, i 1, i 2, eq_ix3 i⟩
    rw [blk0_apply m c (pt mm cc) mm cc rfl u k a]
    exact hf0 _
  have hx3 : ∀ (cc : Fin 16) i, ∃ r : ℝ, (iblk m c 3 (pt mm cc) : Vec Ideal S1x3x2048 .f32) i = (r : EReal) := by
    intro cc i
    obtain ⟨u, k, q, rfl⟩ : ∃ (u : Fin 1) (k : Fin 3) (q : Fin 2048), i = ix3 u k q := ⟨i 0, i 1, i 2, eq_ix3 i⟩
    rw [blk3_apply m c (pt mm cc) mm cc rfl u k q]
    exact hf1 _
  have hj0 : ∀ (cc : Fin 16) (q : Fin 2048), idxRow0 (iblk m c 2 (pt mm cc)) (ix3 0 0 q) = BitVec.ofNat 32 (i0 mm (Cert.SpecSums.pq cc q)).val := by
    intro cc q
    rw [idxRow0_apply]
    exact (blk2_apply m c (pt mm cc) mm cc rfl 0 0 q).trans (h0 mm _)
  have hj1 : ∀ (cc : Fin 16) (q : Fin 2048), idxRow1 (iblk m c 2 (pt mm cc)) (ix3 0 0 q) = BitVec.ofNat 32 (i1 mm (Cert.SpecSums.pq cc q)).val := by
    intro cc q
    rw [idxRow1_apply]
    exact (blk2_apply m c (pt mm cc) mm cc rfl 0 1 q).trans (h1 mm _)
  -- one chunk's terms
  have hD := fun (cc : Fin 16) (xs0 : Vec Ideal S64x512 .f32) (b : Fin 64) (a : Fin 512) =>
    Cert.KernelIdeal.KChunk.chunk_dens (iblk m c 0 (pt mm cc)) (iblk m c 1 (pt mm cc)) (idxRow0 (iblk m c 2 (pt mm cc)))
      (idxRow1 (iblk m c 2 (pt mm cc))) (iblk m c 3 (pt mm cc)) (iblk m c 4 (pt mm cc)) (iblk m c 5 (pt mm cc))
      (fun q => i0 mm (Cert.SpecSums.pq cc q)) (fun q => i1 mm (Cert.SpecSums.pq cc q)) (hx0 cc) (hj0 cc) (hj1 cc) xs0 b a
  have hT := fun (cc : Fin 16) (xs1 : Vec Ideal S3x512 .f32) (kk : Fin 3) (a : Fin 512) =>
    Cert.KernelIdeal.KChunk.chunk_tot (iblk m c 0 (pt mm cc)) (iblk m c 1 (pt mm cc)) (idxRow0 (iblk m c 2 (pt mm cc)))
      (idxRow1 (iblk m c 2 (pt mm cc))) (iblk m c 3 (pt mm cc)) (iblk m c 4 (pt mm cc)) (iblk m c 5 (pt mm cc))
      (fun q => i0 mm (Cert.SpecSums.pq cc q)) (fun q => i1 mm (Cert.SpecSums.pq cc q)) (hx0 cc) (hx3 cc) (hj0 cc) (hj1 cc) xs1 kk a
  simp only [e0, e1, e3, e4, e5] at hD hT
  refine (res_of_steps m c mm
    (fun cc b a => Cert.Spec.densP (fun a k => (m ((c : Thread nD τ).loc main_arg0) : Vec Ideal S32x512x3 .f32) (ix3 mm a k))
      (fun a b => (m ((c : Thread nD τ).loc main_arg4) : Vec Ideal S8x64 .f32) (ix2 (sp mm a) b))
      (fun b => (m ((c : Thread nD τ).loc main_arg2) : Vec Ideal S64 .f32) (ix1 b))
      (fun b => (m ((c : Thread nD τ).loc main_arg3) : Vec Ideal S64 .f32) (ix1 b))
      (fun q k => (m ((c : Thread nD τ).loc main_arg1) : Vec Ideal S32x32768x3 .f32) (ix3 mm (Cert.SpecSums.pq cc q) k))
      (fun q => i0 mm (Cert.SpecSums.pq cc q)) (fun q => i1 mm (Cert.SpecSums.pq cc q)) a b)
    (fun cc kk a => Cert.Spec.totP (fun a k => (m ((c : Thread nD τ).loc main_arg0) : Vec Ideal S32x512x3 .f32) (ix3 mm a k))
      (fun q k => (m ((c : Thread nD τ).loc main_arg1) : Vec Ideal S32x32768x3 .f32) (ix3 mm (Cert.SpecSums.pq cc q) k))
      (fun q => i0 mm (Cert.SpecSums.pq cc q)) (fun q => i1 mm (Cert.SpecSums.pq cc q)) a kk)
    hD hT k).trans ?_
  unfold Cert.Spec.dipoleMol
  have eW1 : (fun (b : Fin 64) (h : Fin 256) => tabW1 m c (lastPt mm) (ix2 b h))
      = fun b h => (m ((c : Thread nD τ).loc main_arg5) : Vec Ideal S64x256 .f32) (ix2 b h) :=
    funext fun b => funext fun h => congrFun (iblk6_eq m c (lastPt mm)) (ix2 b h)
  have eB1 : (fun (h : Fin 256) => tabB1 m c (lastPt mm) (ix1 h))
      = fun h => (m ((c : Thread nD τ).loc main_arg6) : Vec Ideal S256 .f32) (ix1 h) :=
    funext fun h => congrFun (iblk7_eq m c (lastPt mm)) (ix1 h)
  have eW2 : (fun (h : Fin 256) => tabW2 m c (lastPt mm) (ix2 h 0))
      = fun h => (m ((c : Thread nD τ).loc main_arg7) : Vec Ideal S256x1 .f32) (ix2 h (0 : Fin 1)) :=
    funext fun h => congrFun (iblk8_eq m c (lastPt mm)) (ix2 h 0)
  have eB2 : tabB2 m c (lastPt mm) (ix1 0) = (m ((c : Thread nD τ).loc main_arg8) : Vec Ideal S1 .f32) (ix1 (0 : Fin 1)) :=
    congrFun (iblk9_eq m c (lastPt mm)) (ix1 0)
  rw [eW1, eB1, eW2, eB2]
  have eD : (fun (a : Fin 512) (b : Fin 64) => ∑ cc : Fin 16, Cert.Spec.densP (fun a k => (m ((c : Thread nD τ).loc main_arg0) : Vec Ideal S32x512x3 .f32) (ix3 mm a k)) (fun a b => (m ((c : Thread nD τ).loc main_arg4) : Vec Ideal S8x64 .f32) (ix2 (sp mm a) b)) (fun b => (m ((c : Thread nD τ).loc main_arg2) : Vec Ideal S64 .f32) (ix1 b)) (fun b => (m ((c : Thread nD τ).loc main_arg3) : Vec Ideal S64 .f32) (ix1 b))
        (fun q k => (m ((c : Thread nD τ).loc main_arg1) : Vec Ideal S32x32768x3 .f32) (ix3 mm (Cert.SpecSums.pq cc q) k)) (fun q => i0 mm (Cert.SpecSums.pq cc q)) (fun q => i1 mm (Cert.SpecSums.pq cc q)) a b)
      = Cert.Spec.densP (fun a k => (m ((c : Thread nD τ).loc main_arg0) : Vec Ideal S32x512x3 .f32) (ix3 mm a k)) (fun a b => (m ((c : Thread nD τ).loc main_arg4) : Vec Ideal S8x64 .f32) (ix2 (sp mm a) b)) (fun b => (m ((c : Thread nD τ).loc main_arg2) : Vec Ideal S64 .f32) (ix1 b)) (fun b => (m ((c : Thread nD τ).loc main_arg3) : Vec Ideal S64 .f32) (ix1 b)) (fun p k => (m ((c : Thread nD τ).loc main_arg1) : Vec Ideal S32x32768x3 .f32) (ix3 mm p k)) (i0 mm) (i1 mm) :=
    funext fun a => funext fun b =>
      (Cert.SpecSums.densP_chunks (fun a k => (m ((c : Thread nD τ).loc main_arg0) : Vec Ideal S32x512x3 .f32) (ix3 mm a k)) (fun a b => (m ((c : Thread nD τ).loc main_arg4) : Vec Ideal S8x64 .f32) (ix2 (sp mm a) b)) (fun b => (m ((c : Thread nD τ).loc main_arg2) : Vec Ideal S64 .f32) (ix1 b)) (fun b => (m ((c : Thread nD τ).loc main_arg3) : Vec Ideal S64 .f32) (ix1 b)) (fun p k => (m ((c : Thread nD τ).loc main_arg1) : Vec Ideal S32x32768x3 .f32) (ix3 mm p k)) (i0 mm) (i1 mm) a b).symm
  have eT : (fun (a : Fin 512) (kk : Fin 3) => ∑ cc : Fin 16, Cert.Spec.totP (fun a k => (m ((c : Thread nD τ).loc main_arg0) : Vec Ideal S32x512x3 .f32) (ix3 mm a k))
        (fun q k => (m ((c : Thread nD τ).loc main_arg1) : Vec Ideal S32x32768x3 .f32) (ix3 mm (Cert.SpecSums.pq cc q) k)) (fun q => i0 mm (Cert.SpecSums.pq cc q)) (fun q => i1 mm (Cert.SpecSums.pq cc q)) a kk)
      = Cert.Spec.totP (fun a k => (m ((c : Thread nD τ).loc main_arg0) : Vec Ideal S32x512x3 .f32) (ix3 mm a k)) (fun p k => (m ((c : Thread nD τ).loc main_arg1) : Vec Ideal S32x32768x3 .f32) (ix3 mm p k)) (i0 mm) (i1 mm) :=
    funext fun a => funext fun kk =>
      (Cert.SpecSums.totP_chunks (fun a k => (m ((c : Thread nD τ).loc main_arg0) : Vec Ideal S32x512x3 .f32) (ix3 mm a k)) (fun p k => (m ((c : Thread nD τ).loc main_arg1) : Vec Ideal S32x32768x3 .f32) (ix3 mm p k)) (i0 mm) (i1 mm) a kk).symm
  rw [eD, eT]

end Cert.KernelIdeal.KFinal

end
-- ==== Proof.LibRowOps.lean ====
/-
  Row scatter-add and row gather, read at an index and compared across two operand heights.

  A scatter-add of rows into an array of N rows (scatter indices [E, 1], one node index per update row; jax's
  segment_sum and x.at[idx].add(u)) adds update row e to operand row idx[e] when 0 ≤ idx[e] < N, read as a signed
  integer, and drops it otherwise; a gather of rows (x[idx]) reads operand row idx[e] clamped into [0, N − 1].
  Hence, when every index lies in [0, N') with N' ≤ N, both operations on an N-row array and on an N'-row array
  whose rows are the first N' rows of the former agree: the gathers everywhere, the scatters on the first N' rows.
-/
import Idealize.ShloMosaic.PureOps.Ideal
import Idealize.ShloMosaic.Lib.ValueIdx

noncomputable section

namespace Cert.Lib.RowOps

open Idealize.ShloMosaic Idealize.ShloMosaic.ValueIdx

/-- Scatter rows of a vector: operand [N], scatter indices [E, 1], updates [E]. -/
abbrev scat1 (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- Scatter rows of a matrix: operand [N, D], scatter indices [E, 1], updates [E, D]. -/
abbrev scat2 (N D E : Nat) (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

/-- Gather entries of a vector: operand [N], start indices [E, 1], result [E]. -/
abbrev gath1 (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Gather rows of a matrix: operand [N, D], start indices [E, 1], result [E, D]. -/
abbrev gath2 (N D E : Nat) (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- Every index of the column lies in [0, M). -/
def InRange {E w : Nat} (idx : IVec ⟨2, ![E, 1]⟩ w) (M : Nat) : Prop :=
  ∀ e : Fin E, 0 ≤ (idx (ix2 e (0 : Fin 1))).toInt ∧ (idx (ix2 e (0 : Fin 1))).toInt < (M : Int)

/-- The first N' entries of a agree with b. -/
def Agree1 {α : Type} {N N' : Nat} (h : N' ≤ N) (a : (⟨1, ![N]⟩ : Shape).Idx → α) (b : (⟨1, ![N']⟩ : Shape).Idx → α) : Prop :=
  ∀ n : Fin N', a (ix1 ⟨n.val, lt_of_lt_of_le n.isLt h⟩) = b (ix1 n)

/-- The first N' rows of A agree with B. -/
def Agree2 {α : Type} {N N' D : Nat} (h : N' ≤ N) (A : (⟨2, ![N, D]⟩ : Shape).Idx → α) (B : (⟨2, ![N', D]⟩ : Shape).Idx → α) : Prop :=
  ∀ (n : Fin N') (c : Fin D), A (ix2 ⟨n.val, lt_of_lt_of_le n.isLt h⟩ c) = B (ix2 n c)

/-! ## Read at an index -/

/-- Where an update lands: the operand index whose every coordinate is the start plus the window coordinate. -/
private theorem resultIdx?_eq_some_iff {s si u : Shape} (d : ScatterDims s si u) {w : Nat} (j : u.Idx) (idx : IVec si w) (i : s.Idx) :
    d.resultIdx? j idx = some i ↔ ∀ a, d.start j idx a + (d.window j a : Int) = ((i a).val : Int) := by
  unfold ScatterDims.resultIdx?
  split_ifs with h
  · rw [Option.some.injEq]
    constructor
    · rintro rfl a
      have := (h a).1
      simp only [Int.toNat_of_nonneg this]
    · intro hh
      funext a
      refine Fin.ext ?_
      simp only [hh a, Int.toNat_natCast]
  · constructor
    · intro hh; cases hh
    · intro hh
      exfalso
      apply h
      intro a
      rw [hh a]
      exact ⟨Int.natCast_nonneg _, by exact_mod_cast (i a).isLt⟩

section Scat2
variable {N D E w : Nat} (wf : ScatterDims.WF ⟨2, ![N, D]⟩ ⟨2, ![E, 1]⟩ ⟨2, ![E, D]⟩ [1] [0] [0] 1)

/-- The scattered axis reads the index column, signed. -/
private theorem scat2_start0 (j : (⟨2, ![E, D]⟩ : Shape).Idx) (idx : IVec ⟨2, ![E, 1]⟩ w) :
    (scat2 N D E wf).start j idx 0 = (idx (ix2 (j 0) (0 : Fin 1))).toInt := by
  unfold ScatterDims.start
  rw [dif_pos (show (0 : Fin 2) ∈ (scat2 N D E wf).scatterDimsToOperandDims from List.mem_singleton.mpr rfl)]
  have hsi : (scat2 N D E wf).siIdx j ⟨List.idxOf (0 : Fin 2) (scat2 N D E wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- The column axis is not scattered: its start is 0. -/
private theorem scat2_start1 (j : (⟨2, ![E, D]⟩ : Shape).Idx) (idx : IVec ⟨2, ![E, 1]⟩ w) :
    (scat2 N D E wf).start j idx 1 = 0 := by
  unfold ScatterDims.start
  rw [dif_neg (show ¬ (1 : Fin 2) ∈ (scat2 N D E wf).scatterDimsToOperandDims by simp)]

/-- The row axis is inserted: no window coordinate. -/
private theorem scat2_window0 (j : (⟨2, ![E, D]⟩ : Shape).Idx) :
    (scat2 N D E wf).window j 0 = 0 := by
  unfold ScatterDims.window
  rw [dif_neg (show ¬ (0 : Fin 2) ∈ (scat2 N D E wf).sKept by simp [ScatterDims.sKept, Shape.kept])]

/-- The column axis is the window axis: its coordinate is the update's column. -/
private theorem scat2_window1 (j : (⟨2, ![E, D]⟩ : Shape).Idx) :
    (scat2 N D E wf).window j 1 = (j 1).val := by
  unfold ScatterDims.window
  rw [dif_pos (show (1 : Fin 2) ∈ (scat2 N D E wf).sKept by simp [ScatterDims.sKept, Shape.kept])]
  rfl

/-- Update (e, c') lands on (n, c) exactly when its index, read signed, is n and the columns agree. -/
private theorem scat2_lands (e : Fin E) (c' : Fin D) (n : Fin N) (c : Fin D) (idx : IVec ⟨2, ![E, 1]⟩ w) :
    (scat2 N D E wf).resultIdx? (ix2 e c') idx = some (ix2 n c)
      ↔ (idx (ix2 e (0 : Fin 1))).toInt = (n.val : Int) ∧ c' = c := by
  rw [resultIdx?_eq_some_iff]
  constructor
  · intro hh
    have h0 := hh 0
    have h1 := hh 1
    rw [scat2_start0, scat2_window0] at h0
    rw [scat2_start1, scat2_window1] at h1
    have h0' : (idx (ix2 e (0 : Fin 1))).toInt + ((0 : Nat) : Int) = (n.val : Int) := h0
    have h1' : (0 : Int) + ((c'.val : Nat) : Int) = (c.val : Int) := h1
    refine ⟨by simpa using h0', Fin.ext ?_⟩
    omega
  · rintro ⟨e0, rfl⟩ a
    match a with
    | ⟨0, _⟩ =>
      show (scat2 N D E wf).start (ix2 e c') idx 0 + ((scat2 N D E wf).window (ix2 e c') 0 : Int) = (n.val : Int)
      rw [scat2_start0, scat2_window0]
      show (idx (ix2 e (0 : Fin 1))).toInt + ((0 : Nat) : Int) = (n.val : Int)
      simpa using e0
    | ⟨1, _⟩ =>
      show (scat2 N D E wf).start (ix2 e c') idx 1 + ((scat2 N D E wf).window (ix2 e c') 1 : Int) = (c'.val : Int)
      rw [scat2_start1, scat2_window1]
      show (0 : Int) + ((c'.val : Nat) : Int) = (c'.val : Int)
      simp

end Scat2

/-- A sum over a rank-1 index set is the sum over its coordinate. -/
private theorem sum_idx1 {M : Type*} [AddCommMonoid M] {n : Nat} (f : (⟨1, ![n]⟩ : Shape).Idx → M) :
    ∑ i, f i = ∑ a : Fin n, f (ix1 a) :=
  Fintype.sum_equiv ⟨fun i => i 0, fun a => ix1 a, fun i => (eq_ix1 i).symm, fun _ => rfl⟩ _ _
    (fun i => congrArg f (eq_ix1 i))

section Scat1
variable {N E w : Nat} (wf : ScatterDims.WF ⟨1, ![N]⟩ ⟨2, ![E, 1]⟩ ⟨1, ![E]⟩ [] [0] [0] 1)

/-- The scattered axis reads the index column, signed. -/
private theorem scat1_start0 (j : (⟨1, ![E]⟩ : Shape).Idx) (idx : IVec ⟨2, ![E, 1]⟩ w) :
    (scat1 N E wf).start j idx 0 = (idx (ix2 (j 0) (0 : Fin 1))).toInt := by
  unfold ScatterDims.start
  rw [dif_pos (show (0 : Fin 1) ∈ (scat1 N E wf).scatterDimsToOperandDims from List.mem_singleton.mpr rfl)]
  have hsi : (scat1 N E wf).siIdx j ⟨List.idxOf (0 : Fin 1) (scat1 N E wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- The one operand axis is inserted: no window coordinate. -/
private theorem scat1_window0 (j : (⟨1, ![E]⟩ : Shape).Idx) :
    (scat1 N E wf).window j 0 = 0 := by
  unfold ScatterDims.window
  rw [dif_neg (show ¬ (0 : Fin 1) ∈ (scat1 N E wf).sKept by simp [ScatterDims.sKept, Shape.kept])]

/-- Update e lands on entry n exactly when its index, read signed, is n. -/
private theorem scat1_lands (e : Fin E) (n : Fin N) (idx : IVec ⟨2, ![E, 1]⟩ w) :
    (scat1 N E wf).resultIdx? (ix1 e) idx = some (ix1 n) ↔ (idx (ix2 e (0 : Fin 1))).toInt = (n.val : Int) := by
  rw [resultIdx?_eq_some_iff]
  constructor
  · intro hh
    have h0 := hh 0
    rw [scat1_start0, scat1_window0] at h0
    have h0' : (idx (ix2 e (0 : Fin 1))).toInt + ((0 : Nat) : Int) = (n.val : Int) := h0
    simpa using h0'
  · intro e0 a
    obtain rfl : a = 0 := Subsingleton.elim _ _
    rw [scat1_start0, scat1_window0]
    show (idx (ix2 e (0 : Fin 1))).toInt + ((0 : Nat) : Int) = (n.val : Int)
    simpa using e0

end Scat1

theorem scat1_apply {N E w : Nat} (wf) (x : (⟨1, ![N]⟩ : Shape).Idx → EReal) (idx : IVec ⟨2, ![E, 1]⟩ w)
    (upd : (⟨1, ![E]⟩ : Shape).Idx → EReal) (n : Fin N) :
    Ideal.hostScatterAdd (scat1 N E wf) x idx upd (ix1 n)
      = x (ix1 n) + ∑ e ∈ Finset.univ.filter (fun e : Fin E => (idx (ix2 e (0 : Fin 1))).toInt = (n.val : Int)), upd (ix1 e) := by
  unfold Ideal.hostScatterAdd
  congr 1
  rw [Finset.sum_filter, Finset.sum_filter, sum_idx1]
  refine Finset.sum_congr rfl fun e _ => ?_
  simp only [scat1_lands]

theorem scat2_apply {N D E w : Nat} (wf) (x : (⟨2, ![N, D]⟩ : Shape).Idx → EReal) (idx : IVec ⟨2, ![E, 1]⟩ w)
    (upd : (⟨2, ![E, D]⟩ : Shape).Idx → EReal) (n : Fin N) (c : Fin D) :
    Ideal.hostScatterAdd (scat2 N D E wf) x idx upd (ix2 n c)
      = x (ix2 n c) + ∑ e ∈ Finset.univ.filter (fun e : Fin E => (idx (ix2 e (0 : Fin 1))).toInt = (n.val : Int)), upd (ix2 e c) := by
  unfold Ideal.hostScatterAdd
  congr 1
  rw [Finset.sum_filter, Finset.sum_filter, sum_idx2]
  refine Finset.sum_congr rfl fun e _ => ?_
  simp only [scat2_lands]
  by_cases hq : (idx (ix2 e (0 : Fin 1))).toInt = (n.val : Int)
  · simp only [hq, true_and, if_true]
    rw [Finset.sum_ite_eq']
    simp
  · simp only [hq, false_and, if_false]
    simp

theorem gath1_apply {α : Type} {N E w : Nat} (hN : 0 < N) (wf) (x : (⟨1, ![N]⟩ : Shape).Idx → α) (idx : IVec ⟨2, ![E, 1]⟩ w) (e : Fin E) :
    Host.gather (gath1 N E wf) x idx (ix1 e)
      = x (ix1 ⟨min (idx (ix2 e (0 : Fin 1))).toInt.toNat (N - 1), by omega⟩) := by
  unfold Host.gather
  congr 1
  funext a
  obtain rfl : a = 0 := Subsingleton.elim _ _
  refine Fin.ext ?_
  show (gath1 N E wf).start (ix1 e) idx 0 + (gath1 N E wf).batchCoord (ix1 e) 0 + (gath1 N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (gath1 N E wf).startIndexMap from List.mem_singleton.mpr rfl)]
  have hsi : (gath1 N E wf).siIdx (ix1 e) ⟨List.idxOf (0 : Fin 1) (gath1 N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

theorem gath2_apply {α : Type} {N D E w : Nat} (hN : 0 < N) (wf) (x : (⟨2, ![N, D]⟩ : Shape).Idx → α) (idx : IVec ⟨2, ![E, 1]⟩ w)
    (e : Fin E) (c : Fin D) :
    Host.gather (gath2 N D E wf) x idx (ix2 e c)
      = x (ix2 ⟨min (idx (ix2 e (0 : Fin 1))).toInt.toNat (N - 1), by omega⟩ c) := by
  unfold Host.gather
  congr 1
  funext a
  refine Fin.ext ?_
  match a with
  | ⟨0, _⟩ =>
    show (gath2 N D E wf).start (ix2 e c) idx 0 + (gath2 N D E wf).batchCoord (ix2 e c) 0 + (gath2 N D E wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gath2 N D E wf).startIndexMap from List.mem_singleton.mpr rfl)]
    have hsi : (gath2 N D E wf).siIdx (ix2 e c) ⟨List.idxOf (0 : Fin 2) (gath2 N D E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (gath2 N D E wf).start (ix2 e c) idx 1 + (gath2 N D E wf).batchCoord (ix2 e c) 1 + (gath2 N D E wf).offCoord (ix2 e c) 1 = _
    rw [GatherDims.batchCoord_eq_zero _ _ _ List.not_mem_nil]
    unfold GatherDims.start
    rw [dif_neg (show ¬ (1 : Fin 2) ∈ (gath2 N D E wf).startIndexMap by simp)]
    unfold GatherDims.offCoord
    rw [dif_pos (show (1 : Fin 2) ∈ (gath2 N D E wf).sKept from (GatherDims.mem_sKept _ _).mpr ⟨by simp, List.not_mem_nil⟩)]
    simp only [Nat.zero_add]
    rfl

/-! ## Two operand heights, every index below the smaller -/

/-- An index in [0, M) with M at most K is its own clamp into [0, K − 1]. -/
private theorem clamp_eq {t : Int} {M K : Nat} (h0 : 0 ≤ t) (h1 : t < (M : Int)) (hMK : M ≤ K) :
    min t.toNat (K - 1) = t.toNat := by
  omega

theorem gath1_agree {α : Type} {N N' E w : Nat} (h : N' ≤ N) (hN' : 0 < N') (wf) (wf')
    (a : (⟨1, ![N]⟩ : Shape).Idx → α) (b : (⟨1, ![N']⟩ : Shape).Idx → α) (hab : Agree1 h a b)
    (idx : IVec ⟨2, ![E, 1]⟩ w) (hr : InRange idx N') :
    Host.gather (gath1 N E wf) a idx = Host.gather (gath1 N' E wf') b idx := by
  funext j
  obtain ⟨e, rfl⟩ : ∃ e, j = ix1 e := ⟨j 0, eq_ix1 j⟩
  rw [gath1_apply (lt_of_lt_of_le hN' h), gath1_apply hN']
  obtain ⟨h0, h1⟩ := hr e
  have key : ∀ (p q : Nat) (hp : p < N) (hq : q < N'), p = q → a (ix1 ⟨p, hp⟩) = b (ix1 ⟨q, hq⟩) := by
    intro p q hp hq hpq
    subst hpq
    exact hab ⟨p, hq⟩
  exact key _ _ _ _ ((clamp_eq h0 h1 h).trans (clamp_eq h0 h1 le_rfl).symm)

theorem gath2_agree {α : Type} {N N' D E w : Nat} (h : N' ≤ N) (hN' : 0 < N') (wf) (wf')
    (A : (⟨2, ![N, D]⟩ : Shape).Idx → α) (B : (⟨2, ![N', D]⟩ : Shape).Idx → α) (hAB : Agree2 h A B)
    (idx : IVec ⟨2, ![E, 1]⟩ w) (hr : InRange idx N') :
    Host.gather (gath2 N D E wf) A idx = Host.gather (gath2 N' D E wf') B idx := by
  funext j
  obtain ⟨e, c, rfl⟩ : ∃ e c, j = ix2 e c := ⟨j 0, j 1, eq_ix2 j⟩
  rw [gath2_apply (lt_of_lt_of_le hN' h), gath2_apply hN']
  obtain ⟨h0, h1⟩ := hr e
  have key : ∀ (p q : Nat) (hp : p < N) (hq : q < N'), p = q → A (ix2 ⟨p, hp⟩ c) = B (ix2 ⟨q, hq⟩ c) := by
    intro p q hp hq hpq
    subst hpq
    exact hAB ⟨p, hq⟩ c
  exact key _ _ _ _ ((clamp_eq h0 h1 h).trans (clamp_eq h0 h1 le_rfl).symm)

theorem scat1_agree {N N' E w : Nat} (h : N' ≤ N) (wf) (wf')
    (x : (⟨1, ![N]⟩ : Shape).Idx → EReal) (x' : (⟨1, ![N']⟩ : Shape).Idx → EReal) (hx : Agree1 h x x')
    (idx : IVec ⟨2, ![E, 1]⟩ w) (upd : (⟨1, ![E]⟩ : Shape).Idx → EReal) :
    Agree1 h (Ideal.hostScatterAdd (scat1 N E wf) x idx upd) (Ideal.hostScatterAdd (scat1 N' E wf') x' idx upd) := by
  intro n
  rw [scat1_apply, scat1_apply, hx n]

theorem scat2_agree {N N' D E w : Nat} (h : N' ≤ N) (wf) (wf')
    (x : (⟨2, ![N, D]⟩ : Shape).Idx → EReal) (x' : (⟨2, ![N', D]⟩ : Shape).Idx → EReal) (hx : Agree2 h x x')
    (idx : IVec ⟨2, ![E, 1]⟩ w) (upd : (⟨2, ![E, D]⟩ : Shape).Idx → EReal) :
    Agree2 h (Ideal.hostScatterAdd (scat2 N D E wf) x idx upd) (Ideal.hostScatterAdd (scat2 N' D E wf') x' idx upd) := by
  intro n c
  rw [scat2_apply, scat2_apply, hx n c]

end Cert.Lib.RowOps

end
-- ==== Proof.RefWords.lean ====
/-
  Words and sums behind the flat arrangement of the pairs and the atoms.

  The 32 molecules' 32768 pairs are laid out flat, pair p of molecule mm at position 32768 mm + p, and their
  512 atoms at position 512 mm + a. An atom index a of molecule mm is carried as the 32-bit word of 512 mm + a,
  which is small and nonnegative: read signed it is the number itself, a wrap of negative indices leaves it
  alone, and a clamp into the array leaves it alone. The and of a row of three bits, from 1, is 1 exactly when
  the three bits are. A sum over the flat pairs splits into the molecules' sums, and of the updates scattered
  by flat atom words the ones that land on atom a of molecule mm are the pairs of mm centred at a.
-/
import Idealize.ShloMosaic.PureOps.Ideal
import Idealize.ShloMosaic.Lib.ValueIdx
import Idealize.ShloMosaic.Lib.ReduceAll

noncomputable section

namespace Cert.ReferenceIdeal.RefWords

open Idealize.ShloMosaic Idealize.ShloMosaic.ValueIdx

/-! ## Words -/

/-- i + m · 512 on 32-bit words is the word of 512 m + i. -/
theorem flat_word (i m : Nat) :
    IntOp.addi (BitVec.ofNat 32 i) (IntOp.muli (BitVec.ofNat 32 m) 512#32) = BitVec.ofNat 32 (512 * m + i) := by
  unfold IntOp.addi IntOp.muli
  apply BitVec.eq_of_toNat_eq
  simp only [BitVec.toNat_add, BitVec.toNat_mul, BitVec.toNat_ofNat]
  omega

/-- A number below 2^31, as a 32-bit word read signed, is itself. -/
theorem toInt_ofNat (n : Nat) (hn : n < 2 ^ 31) : (BitVec.ofNat 32 n).toInt = (n : Int) := by
  rw [BitVec.toInt_eq_toNat_cond, BitVec.toNat_ofNat]
  have : n % 2 ^ 32 = n := Nat.mod_eq_of_lt (by omega)
  rw [this, if_pos (by omega)]

/-- The wrap "x + n where x < 0, else x" leaves a nonnegative word alone. -/
theorem wrap_nonneg (n : Nat) (hn : n < 2 ^ 31) (y : BitVec 32) :
    Scalar.select (IntOp.cmpi .slt (BitVec.ofNat 32 n) 0#32) y (BitVec.ofNat 32 n) = BitVec.ofNat 32 n := by
  have h : (BitVec.ofNat 32 n).slt 0#32 = false := by
    rw [BitVec.slt, toInt_ofNat n hn]
    simp
  unfold IntOp.cmpi Scalar.select
  simp only [h]
  rfl

/-- The clamp into [0, N − 1] leaves the word of a number below N alone. -/
theorem clamp_ofNat (n N : Nat) (hn : n < N) (hN : N ≤ 2 ^ 31) :
    min (BitVec.ofNat 32 n).toInt.toNat (N - 1) = n := by
  rw [toInt_ofNat n (by omega)]
  simp only [Int.toNat_natCast]
  omega

/-! ## The and of a row of three bits -/

/-- A left fold by and over one-bit words that are all 1 keeps its start. -/
theorem foldl_andi_of_all_one {ι : Type} (f : ι → BitVec 1) :
    ∀ (l : List ι) (init : BitVec 1), (∀ n ∈ l, f n = 1#1) → l.foldl (fun r n => IntOp.andi r (f n)) init = init
  | [], _, _ => rfl
  | a :: l, init, h => by
    rw [List.foldl_cons, h a (List.mem_cons_self ..)]
    have e : IntOp.andi init 1#1 = init := by
      unfold IntOp.andi
      rcases BitVec.eq_zero_or_eq_one init with h0 | h1 <;> subst_vars <;> decide
    rw [e]
    exact foldl_andi_of_all_one f l init fun n hn => h n (List.mem_cons_of_mem _ hn)

/-- The and of the three bits of row e, from 1, is 1 exactly when the three are. -/
theorem reduce_andi_row (x : (⟨2, ![1048576, 3]⟩ : Shape).Idx → BitVec 1) (init : (⟨0, ![]⟩ : Shape).Idx → BitVec 1)
    (h : (⟨2, ![1048576, 3]⟩ : Shape).ReducesTo [1] ⟨1, ![1048576]⟩) (hu : 0 < (⟨0, ![]⟩ : Shape).numel)
    (hinit : init (Shape.Idx.first hu) = 1#1) (e : Fin 1048576) :
    Host.reduce IntOp.andi x init h hu (ix1 e) = 1#1 ↔ ∀ k : Fin 3, x (ix2 e k) = 1#1 := by
  have hdrop : ∀ i : (⟨2, ![1048576, 3]⟩ : Shape).Idx, h.drop i = ix1 e ↔ i 0 = e := by
    intro i
    constructor
    · intro hi
      have := congrArg (fun j : (⟨1, ![1048576]⟩ : Shape).Idx => (j 0).val) hi
      have h2 := Shape.ReducesTo.drop_apply_val_of_eq h i 0 0
      exact Fin.ext (h2.symm.trans this)
    · intro hi
      funext b
      obtain rfl : b = 0 := Subsingleton.elim _ _
      refine Fin.ext ?_
      have h2 := Shape.ReducesTo.drop_apply_val_of_eq h i 0 0
      rw [h2, hi]
  constructor
  · intro hr k
    exact Host.reduce_andi_eq_one x init h hu (ix1 e) hr (ix2 e k) ((hdrop _).mpr rfl)
  · intro hall
    rw [Host.reduce_eq_foldl, foldl_andi_of_all_one x _ _ ?_, hinit]
    intro i hi
    rw [List.mem_filter] at hi
    have hi0 : i 0 = e := (hdrop i).mp (by simpa using hi.2)
    have : i = ix2 e (i 1) := by rw [← hi0]; exact eq_ix2 i
    rw [this]
    exact hall _

/-! ## The flat positions -/

/-- The flat position of pair p of molecule mm. -/
def fe (mm : Fin 32) (p : Fin 32768) : Fin 1048576 := ⟨32768 * mm.val + p.val, by omega⟩
/-- The flat position of atom a of molecule mm. -/
def fa (mm : Fin 32) (a : Fin 512) : Fin 16384 := ⟨512 * mm.val + a.val, by omega⟩

theorem fe_val (mm : Fin 32) (p : Fin 32768) : (fe mm p).val = 32768 * mm.val + p.val := rfl
theorem fa_val (mm : Fin 32) (a : Fin 512) : (fa mm a).val = 512 * mm.val + a.val := rfl

/-- A sum over the flat pairs is the sum over the molecules of the sums over their pairs. -/
theorem sum_flat {M : Type*} [AddCommMonoid M] (f : Fin 1048576 → M) :
    ∑ e, f e = ∑ mm : Fin 32, ∑ p : Fin 32768, f (fe mm p) := by
  rw [← Fintype.sum_prod_type']
  refine (Fintype.sum_equiv (finProdFinEquiv (m := 32) (n := 32768)) _ _ fun x => ?_).symm
  refine congrArg f (Fin.ext ?_)
  show 32768 * x.1.val + x.2.val = x.2.val + 32768 * x.1.val
  omega

/-- The updates that land on atom a of molecule mm, when pair p of molecule mm' carries the flat atom word
    512 mm' + i0 mm' p: the pairs of molecule mm centred at a. -/
theorem filter_sum_flat (w : Fin 1048576 → BitVec 32) (i0 : Fin 32 → Fin 32768 → Fin 512)
    (hw : ∀ mm p, w (fe mm p) = BitVec.ofNat 32 (512 * mm.val + (i0 mm p).val)) (u : Fin 1048576 → EReal)
    (mm : Fin 32) (a : Fin 512) :
    ∑ e ∈ Finset.univ.filter (fun e => (w e).toInt = ((fa mm a).val : Int)), u e
      = ∑ p : Fin 32768, if i0 mm p = a then u (fe mm p) else 0 := by
  rw [Finset.sum_filter, sum_flat]
  have hc : ∀ (mm' : Fin 32) (p : Fin 32768), ((w (fe mm' p)).toInt = ((fa mm a).val : Int)) ↔ (mm' = mm ∧ i0 mm' p = a) := by
    intro mm' p
    have h1 := mm'.isLt; have h2 := (i0 mm' p).isLt; have h3 := mm.isLt; have h4 := a.isLt
    rw [hw, toInt_ofNat _ (by omega), fa_val]
    constructor
    · intro h
      have h' : 512 * mm'.val + (i0 mm' p).val = 512 * mm.val + a.val := by exact_mod_cast h
      exact ⟨Fin.ext (by omega), Fin.ext (by omega)⟩
    · rintro ⟨rfl, h⟩
      rw [h]
  rw [Finset.sum_eq_single mm]
  · refine Finset.sum_congr rfl fun p _ => ?_
    by_cases h : i0 mm p = a
    · rw [if_pos ((hc mm p).mpr ⟨rfl, h⟩), if_pos h]
    · rw [if_neg (fun hh => h ((hc mm p).mp hh).2), if_neg h]
  · intro mm' _ hne
    refine Finset.sum_eq_zero fun p _ => ?_
    rw [if_neg (fun hh => hne ((hc mm' p).mp hh).1)]
  · intro h; exact absurd (Finset.mem_univ _) h

end Cert.ReferenceIdeal.RefWords

end
-- ==== Proof.RefRows.lean ====
/-
  Row gathers and row scatter-adds whose index column holds small nonnegative words.

  When the index word of row e is the word of a number n below the operand's height, the gather reads operand
  row n (the clamp does nothing), for a matrix of rows and for a vector of entries alike.
-/
import proofs.«426414_j9629316677964_3_alg».proof.Proof.LibRowOps
import proofs.«426414_j9629316677964_3_alg».proof.Proof.RefWords

noncomputable section

namespace Cert.ReferenceIdeal.RefRows

open Idealize.ShloMosaic Idealize.ShloMosaic.ValueIdx Cert.Lib.RowOps Cert.ReferenceIdeal.RefWords

/-- A gather of rows at the word of n reads row n. -/
theorem gath2_at {α : Type} {N D E : Nat} (hN : N ≤ 2 ^ 31) (wf) (x : (⟨2, ![N, D]⟩ : Shape).Idx → α)
    (idx : IVec ⟨2, ![E, 1]⟩ 32) (e : Fin E) (c : Fin D) (n : Fin N)
    (h : idx (ix2 e (0 : Fin 1)) = BitVec.ofNat 32 n.val) :
    Host.gather (gath2 N D E wf) x idx (ix2 e c) = x (ix2 n c) := by
  rw [gath2_apply (by have := n.isLt; omega)]
  refine congrArg (fun t => x (ix2 t c)) (Fin.ext ?_)
  show min (idx (ix2 e (0 : Fin 1))).toInt.toNat (N - 1) = n.val
  rw [h]
  exact clamp_ofNat n.val N n.isLt hN

/-- A gather of entries at the word of n reads entry n. -/
theorem gath1_at {α : Type} {N E : Nat} (hN : N ≤ 2 ^ 31) (wf) (x : (⟨1, ![N]⟩ : Shape).Idx → α)
    (idx : IVec ⟨2, ![E, 1]⟩ 32) (e : Fin E) (n : Fin N)
    (h : idx (ix2 e (0 : Fin 1)) = BitVec.ofNat 32 n.val) :
    Host.gather (gath1 N E wf) x idx (ix1 e) = x (ix1 n) := by
  rw [gath1_apply (by have := n.isLt; omega)]
  refine congrArg (fun t => x (ix1 t)) (Fin.ext ?_)
  show min (idx (ix2 e (0 : Fin 1))).toInt.toNat (N - 1) = n.val
  rw [h]
  exact clamp_ofNat n.val N n.isLt hN

end Cert.ReferenceIdeal.RefRows

end
-- ==== Proof.RefIdx.lean ====
/-
  The reference's index arrays, read at the flat position of pair p of molecule mm.

  The two rows of atom indices are flattened and offset by 512 mm, so that row r at the flat position of
  (mm, p) holds the word of 512 mm + i_r mm p: the flat position of that atom. Every later use slices a row,
  wraps negative entries (there are none) and hands the column to a gather or a scatter.
-/
import proofs.«426414_j9629316677964_3_alg».proof.Proof.Gen.ReferenceIdeal.Read
import proofs.«426414_j9629316677964_3_alg».proof.Proof.RefWords

noncomputable section

namespace Cert.ReferenceIdeal.RefIdx

open Cert.ReferenceIdeal Cert.ReferenceIdeal.Gen Cert.ReferenceIdeal.Read Cert.ReferenceIdeal.RefWords
open Idealize.ShloMosaic Idealize.ShloMosaic.ValueIdx

variable (a11 : Vec Ideal S2x32x32768 .i32)

/-- Row r of the offset index array at the flat position of (mm, p): the entry plus 512 mm. -/
theorem v11_at (r : Fin 2) (mm : Fin 32) (p : Fin 32768) :
    val_main_v11 (F := Ideal) a11 (ix2 r (fe mm p))
      = IntOp.addi (a11 (ix3 r mm p)) (IntOp.muli (BitVec.ofNat 32 mm.val) 512#32) := by
  have hr := r.isLt; have hm := mm.isLt; have hp := p.isLt
  have e1 : idx_main_v8 (ix2 r (fe mm p)) = ix3 r mm p := by
    funext a
    match a with
    | ⟨0, _⟩ => exact Fin.ext (by show (r.val * 1048576 + (32768 * mm.val + p.val)) / 1048576 = r.val; omega)
    | ⟨1, _⟩ => exact Fin.ext (by show (r.val * 1048576 + (32768 * mm.val + p.val)) / 32768 % 32 = mm.val; omega)
    | ⟨2, _⟩ => exact Fin.ext (by show (r.val * 1048576 + (32768 * mm.val + p.val)) % 32768 = p.val; omega)
  have e2 : ((idx_main_v5 (idx_main_v6 (idx_main_v7 (idx_main_v9 (idx_main_v10 (ix2 r (fe mm p))))))) 0).val = mm.val := by
    show (32768 * mm.val + p.val) / 32768 = mm.val
    omega
  rw [val_main_v11_apply, val_main_v8_apply, val_main_v10_apply, val_main_v9_apply, val_main_v7_apply, val_main_v6_apply,
    val_main_v5_apply, val_main_v4_apply, val_main_v2_apply, val_main_v3_apply, val_main_c_apply, e1, e2]

variable (i0 i1 : Fin 32 → Fin 32768 → Fin 512)
variable (h0 : ∀ mm p, a11 (ix3 0 mm p) = BitVec.ofNat 32 (i0 mm p).val)
variable (h1 : ∀ mm p, a11 (ix3 1 mm p) = BitVec.ofNat 32 (i1 mm p).val)

include h0 in
/-- Row 0 holds the flat position of the pair's first atom. -/
theorem row0_word (mm : Fin 32) (p : Fin 32768) :
    val_main_v11 (F := Ideal) a11 (ix2 0 (fe mm p)) = BitVec.ofNat 32 (512 * mm.val + (i0 mm p).val) := by
  rw [v11_at, h0, flat_word]

include h1 in
/-- Row 1 holds the flat position of the pair's second atom. -/
theorem row1_word (mm : Fin 32) (p : Fin 32768) :
    val_main_v11 (F := Ideal) a11 (ix2 1 (fe mm p)) = BitVec.ofNat 32 (512 * mm.val + (i1 mm p).val) := by
  rw [v11_at, h1, flat_word]

/-! The slices of a row, reshaped to a vector, read the row. -/

theorem slice_v18 (e : Fin 1048576) : idx_main_v17 (idx_main_v18 (ix1 e)) = ix2 0 e := by
  funext a
  match a with
  | ⟨0, _⟩ => rfl
  | ⟨1, _⟩ => exact Fin.ext (by show e.val % 1048576 = e.val; have := e.isLt; omega)
theorem slice_v27 (e : Fin 1048576) : idx_main_v26 (idx_main_v27 (ix1 e)) = ix2 1 e := by
  funext a
  match a with
  | ⟨0, _⟩ => rfl
  | ⟨1, _⟩ => exact Fin.ext (by show e.val % 1048576 = e.val; have := e.isLt; omega)
theorem slice_v74 (e : Fin 1048576) : idx_main_v73 (idx_main_v74 (ix1 e)) = ix2 1 e := by
  funext a
  match a with
  | ⟨0, _⟩ => rfl
  | ⟨1, _⟩ => exact Fin.ext (by show e.val % 1048576 = e.val; have := e.isLt; omega)
theorem slice_v91 (e : Fin 1048576) : idx_main_v90 (idx_main_v91 (ix1 e)) = ix2 0 e := by
  funext a
  match a with
  | ⟨0, _⟩ => rfl
  | ⟨1, _⟩ => exact Fin.ext (by show e.val % 1048576 = e.val; have := e.isLt; omega)
theorem slice_v106 (e : Fin 1048576) : idx_main_v105 (idx_main_v106 (ix1 e)) = ix2 0 e := by
  funext a
  match a with
  | ⟨0, _⟩ => rfl
  | ⟨1, _⟩ => exact Fin.ext (by show e.val % 1048576 = e.val; have := e.isLt; omega)

/-- A column's one entry per row is the vector's entry. -/
theorem col_idx (e : Fin 1048576) : (fun a : Fin 1 => match a with | ⟨0, _⟩ => (⟨(ix2 e (0 : Fin 1) 0).val, (ix2 e (0 : Fin 1) 0).isLt⟩ : Fin 1048576)) = ix1 e := by
  funext a
  match a with
  | ⟨0, _⟩ => rfl

include h0 in
/-- The index column of the first gather of coordinates: the first atom's flat position. -/
theorem v24_at (mm : Fin 32) (p : Fin 32768) :
    val_main_v24 (F := Ideal) a11 (ix2 (fe mm p) (0 : Fin 1)) = BitVec.ofNat 32 (512 * mm.val + (i0 mm p).val) := by
  have hm := mm.isLt; have hi := (i0 mm p).isLt
  rw [val_main_v24_apply, show idx_main_v24 (ix2 (fe mm p) (0 : Fin 1)) = ix1 (fe mm p) from col_idx _,
    val_main_v23_apply, val_main_v20_apply, val_main_v18_apply, val_main_v17_apply, slice_v18, row0_word a11 i0 h0,
    val_main_v19_apply, val_main_c_1_apply]
  exact wrap_nonneg _ (by omega) _

include h1 in
/-- The index column of the second gather of coordinates: the second atom's flat position. -/
theorem v33_at (mm : Fin 32) (p : Fin 32768) :
    val_main_v33 (F := Ideal) a11 (ix2 (fe mm p) (0 : Fin 1)) = BitVec.ofNat 32 (512 * mm.val + (i1 mm p).val) := by
  have hm := mm.isLt; have hi := (i1 mm p).isLt
  rw [val_main_v33_apply, show idx_main_v33 (ix2 (fe mm p) (0 : Fin 1)) = ix1 (fe mm p) from col_idx _,
    val_main_v32_apply, val_main_v29_apply, val_main_v27_apply, val_main_v26_apply, slice_v27, row1_word a11 i1 h1,
    val_main_v28_apply, val_main_c_3_apply]
  exact wrap_nonneg _ (by omega) _

include h1 in
/-- The index column of the gather of species: the second atom's flat position. -/
theorem v80_at (mm : Fin 32) (p : Fin 32768) :
    val_main_v80 (F := Ideal) a11 (ix2 (fe mm p) (0 : Fin 1)) = BitVec.ofNat 32 (512 * mm.val + (i1 mm p).val) := by
  have hm := mm.isLt; have hi := (i1 mm p).isLt
  rw [val_main_v80_apply, show idx_main_v80 (ix2 (fe mm p) (0 : Fin 1)) = ix1 (fe mm p) from col_idx _,
    val_main_v79_apply, val_main_v76_apply, val_main_v74_apply, val_main_v73_apply, slice_v74, row1_word a11 i1 h1,
    val_main_v75_apply, val_main_c_12_apply]
  exact wrap_nonneg _ (by omega) _

include h0 in
/-- The index column of the scatter of features: the first atom's flat position. -/
theorem v93_at (mm : Fin 32) (p : Fin 32768) :
    val_main_v93 (F := Ideal) a11 (ix2 (fe mm p) (0 : Fin 1)) = BitVec.ofNat 32 (512 * mm.val + (i0 mm p).val) := by
  rw [val_main_v93_apply, show idx_main_v93 (ix2 (fe mm p) (0 : Fin 1)) = ix1 (fe mm p) from col_idx _,
    val_main_v91_apply, val_main_v90_apply, slice_v91, row0_word a11 i0 h0]

include h0 in
/-- The index column of the scatter of displacements: the first atom's flat position. -/
theorem v108_at (mm : Fin 32) (p : Fin 32768) :
    val_main_v108 (F := Ideal) a11 (ix2 (fe mm p) (0 : Fin 1)) = BitVec.ofNat 32 (512 * mm.val + (i0 mm p).val) := by
  rw [val_main_v108_apply, show idx_main_v108 (ix2 (fe mm p) (0 : Fin 1)) = ix1 (fe mm p) from col_idx _,
    val_main_v106_apply, val_main_v105_apply, slice_v106, row0_word a11 i0 h0]

end Cert.ReferenceIdeal.RefIdx

end
-- ==== Proof.RefPair.lean ====
/-
  One pair of the reference, at its flat position: the mask, the displacement and the length.

  Pair p of molecule mm has atoms i0 mm p and i1 mm p and the shift a1[mm, p, ·]. The two gathers of
  coordinates read the rows of those atoms; the mask is the and of the three comparisons of the shift with the
  sentinel, converted to 0 or 1; the displacement is ((x[i0] − x[i1]) + s) · mask and the length is the square
  root of the sum of its squares plus ε.
-/
import proofs.«426414_j9629316677964_3_alg».proof.Proof.Gen.ReferenceIdeal.Read
import proofs.«426414_j9629316677964_3_alg».proof.Proof.RefRows
import proofs.«426414_j9629316677964_3_alg».proof.Proof.RefIdx
import proofs.«426414_j9629316677964_3_alg».proof.Proof.Spec

noncomputable section

namespace Cert.ReferenceIdeal.RefPair

open Cert.ReferenceIdeal Cert.ReferenceIdeal.Gen Cert.ReferenceIdeal.Read Cert.ReferenceIdeal.RefWords
open Cert.ReferenceIdeal.RefRows Cert.ReferenceIdeal.RefIdx Cert.Lib.RowOps
open Idealize.ShloMosaic Idealize.ShloMosaic.ValueIdx

variable (a0 : Vec Ideal S32x512x3 .f32) (a1 : Vec Ideal S32x32768x3 .f32) (a11 : Vec Ideal S2x32x32768 .i32)

/-- The flattened shifts at the pair's flat position. -/
theorem v12_at (mm : Fin 32) (p : Fin 32768) (k : Fin 3) :
    val_main_v12 (F := Ideal) a1 (ix2 (fe mm p) k) = a1 (ix3 mm p k) := by
  have hm := mm.isLt; have hp := p.isLt; have hk := k.isLt
  rw [val_main_v12_apply]
  refine congrArg a1 (funext fun a => ?_)
  match a with
  | ⟨0, _⟩ => exact Fin.ext (by show ((32768 * mm.val + p.val) * 3 + k.val) / 98304 = mm.val; omega)
  | ⟨1, _⟩ => exact Fin.ext (by show ((32768 * mm.val + p.val) * 3 + k.val) / 3 % 32768 = p.val; omega)
  | ⟨2, _⟩ => exact Fin.ext (by show ((32768 * mm.val + p.val) * 3 + k.val) % 3 = k.val; omega)

/-- The flattened coordinates at an atom's flat position. -/
theorem v1_at (mm : Fin 32) (a : Fin 512) (k : Fin 3) :
    val_main_v1 (F := Ideal) a0 (ix2 (fa mm a) k) = a0 (ix3 mm a k) := by
  have hm := mm.isLt; have ha := a.isLt; have hk := k.isLt
  rw [val_main_v1_apply]
  refine congrArg a0 (funext fun b => ?_)
  match b with
  | ⟨0, _⟩ => exact Fin.ext (by show ((512 * mm.val + a.val) * 3 + k.val) / 1536 = mm.val; omega)
  | ⟨1, _⟩ => exact Fin.ext (by show ((512 * mm.val + a.val) * 3 + k.val) / 3 % 512 = a.val; omega)
  | ⟨2, _⟩ => exact Fin.ext (by show ((512 * mm.val + a.val) * 3 + k.val) % 3 = k.val; omega)

/-! ## The mask -/

/-- "greater than" as a bit. -/
theorem cmp_ogt_eq_one (x y : EReal) : Ideal.cmp .ogt x y = 1#1 ↔ y < x := by
  show BitVec.ofBool (decide (y < x)) = 1#1 ↔ y < x
  by_cases h : y < x
  · rw [decide_eq_true h]; exact ⟨fun _ => h, fun _ => rfl⟩
  · rw [decide_eq_false h]; exact ⟨fun hh => absurd hh (by decide), fun hh => absurd hh h⟩

/-- The and of the three comparisons, as 0 or 1, is the mask of the pair's shift. -/
theorem mask_bit (h : S1048576x3.ReducesTo [1] S1048576) (hu : 0 < S_.numel) (mm : Fin 32) (p : Fin 32768) :
    (FloatOps.uitofp .f32 (Host.reduce IntOp.andi (val_main_v14 (F := Ideal) a1) (val_main_c_0 (F := Ideal)) h hu (ix1 (fe mm p))) : Ideal .f32)
      = Cert.Spec.maskOf (fun k => a1 (ix3 mm p k)) := by
  have key := reduce_andi_row (val_main_v14 (F := Ideal) a1) (val_main_c_0 (F := Ideal)) h hu rfl (fe mm p)
  have hk : ∀ k : Fin 3, val_main_v14 (F := Ideal) a1 (ix2 (fe mm p) k) = 1#1 ↔ Cert.Spec.NEG < a1 (ix3 mm p k) := by
    intro k
    rw [val_main_v14_apply, v12_at, val_main_v13_apply, val_main_cst_apply]
    exact cmp_ogt_eq_one _ _
  rw [forall_congr' hk] at key
  generalize Host.reduce IntOp.andi (val_main_v14 (F := Ideal) a1) (val_main_c_0 (F := Ideal)) h hu (ix1 (fe mm p)) = b at key ⊢
  unfold Cert.Spec.maskOf
  dsimp only
  have hu' : (FloatOps.uitofp .f32 b : Ideal .f32) = ((b.toNat : ℝ) : EReal) := rfl
  rw [hu']
  by_cases hall : ∀ k, Cert.Spec.NEG < a1 (ix3 mm p k)
  · rw [if_pos hall, key.mpr hall]; simp
  · rw [if_neg hall]
    have hb : b = 0#1 := eq_zero_of_ne_one (fun hb => hall (key.mp hb))
    rw [hb]; simp

/-- The mask array at the pair's flat position. -/
theorem v16_at (mm : Fin 32) (p : Fin 32768) :
    val_main_v16 (F := Ideal) a1 (ix1 (fe mm p)) = Cert.Spec.maskOf (fun k => a1 (ix3 mm p k)) := by
  rw [val_main_v16_apply]
  unfold val_main_v15
  exact mask_bit a1 _ _ mm p

/-! ## The displacement and the length -/

variable (i0 i1 : Fin 32 → Fin 32768 → Fin 512)
variable (h0 : ∀ mm p, a11 (ix3 0 mm p) = BitVec.ofNat 32 (i0 mm p).val)
variable (h1 : ∀ mm p, a11 (ix3 1 mm p) = BitVec.ofNat 32 (i1 mm p).val)

include h0 in
/-- The first gather reads the first atom's coordinates. -/
theorem v25_at (mm : Fin 32) (p : Fin 32768) (k : Fin 3) :
    val_main_v25 (F := Ideal) a0 a11 (ix2 (fe mm p) k) = a0 (ix3 mm (i0 mm p) k) := by
  unfold val_main_v25
  have hg : (gather_S16384x3_S1048576x1_S1048576x3_1_0_n_n_0_1_13 : GatherDims S16384x3 S1048576x1 S1048576x3)
      = gath2 16384 3 1048576 gather_S16384x3_S1048576x1_S1048576x3_1_0_n_n_0_1_13_wf := rfl
  rw [hg, gath2_at (by norm_num) _ _ _ (fe mm p) k (fa mm (i0 mm p)) (v24_at a11 i0 h0 mm p), v1_at]

include h1 in
/-- The second gather reads the second atom's coordinates. -/
theorem v34_at (mm : Fin 32) (p : Fin 32768) (k : Fin 3) :
    val_main_v34 (F := Ideal) a0 a11 (ix2 (fe mm p) k) = a0 (ix3 mm (i1 mm p) k) := by
  unfold val_main_v34
  have hg : (gather_S16384x3_S1048576x1_S1048576x3_1_0_n_n_0_1_13 : GatherDims S16384x3 S1048576x1 S1048576x3)
      = gath2 16384 3 1048576 gather_S16384x3_S1048576x1_S1048576x3_1_0_n_n_0_1_13_wf := rfl
  rw [hg, gath2_at (by norm_num) _ _ _ (fe mm p) k (fa mm (i1 mm p)) (v33_at a11 i1 h1 mm p), v1_at]

include h0 h1 in
/-- The masked displacement of the pair. -/
theorem v39_at (mm : Fin 32) (p : Fin 32768) (k : Fin 3) :
    val_main_v39 (F := Ideal) a0 a1 a11 (ix2 (fe mm p) k)
      = Cert.Spec.dvP (fun a k => a0 (ix3 mm a k)) (fun k => a1 (ix3 mm p k)) (i0 mm p) (i1 mm p) k := by
  have e : idx_main_v37 (idx_main_v38 (ix2 (fe mm p) k)) = ix1 (fe mm p) := by
    funext a
    match a with
    | ⟨0, _⟩ => rfl
  rw [val_main_v39_apply, val_main_v36_apply, val_main_v35_apply, v25_at a0 a11 i0 h0, v34_at a0 a11 i1 h1, v12_at,
    val_main_v38_apply, val_main_v37_apply, e, v16_at]
  rfl

include h0 h1 in
/-- The safe length of the pair's displacement. -/
theorem v44_at (mm : Fin 32) (p : Fin 32768) :
    val_main_v44 (F := Ideal) a0 a1 a11 (ix1 (fe mm p))
      = Cert.Spec.distOf (Cert.Spec.dvP (fun a k => a0 (ix3 mm a k)) (fun k => a1 (ix3 mm p k)) (i0 mm p) (i1 mm p)) := by
  have hs : ∀ k : Fin 3, val_main_v40 (F := Ideal) a0 a1 a11 (idx_main_v41 (ix1 (fe mm p)) k)
      = Cert.Spec.dvP (fun a k => a0 (ix3 mm a k)) (fun k => a1 (ix3 mm p k)) (i0 mm p) (i1 mm p) k
        * Cert.Spec.dvP (fun a k => a0 (ix3 mm a k)) (fun k => a1 (ix3 mm p k)) (i0 mm p) (i1 mm p) k := by
    intro k
    have e : idx_main_v41 (ix1 (fe mm p)) k = ix2 (fe mm p) k := by
      funext a
      match a with
      | ⟨0, _⟩ => rfl
      | ⟨1, _⟩ => rfl
    rw [e, val_main_v40_apply, v39_at a0 a1 a11 i0 i1 h0 h1]
    rfl
  have z : (FloatOps.ofBits .f32 0x00000000#32 : Ideal .f32) = 0 := Ideal.ofBits_zero_f32
  rw [val_main_v44_apply, val_main_v43_apply, val_main_v41_apply, val_main_v42_apply, val_main_cst_6_apply,
    val_main_cst_5_apply, Finset.sum_congr rfl (fun k _ => hs k), z, zero_add]
  rfl

end Cert.ReferenceIdeal.RefPair

end
-- ==== Proof.RefScat.lean ====
/-
  The reference's two scatter-adds, read at atom a of molecule mm.

  Both scatter the flat pairs' rows into a zero array of the 16384 flat atoms by the first atom's flat
  position. Row 512 mm + a receives exactly the pairs of molecule mm centred at a: the density is the sum of
  their features, the vector the sum of their displacements.
-/
import proofs.«426414_j9629316677964_3_alg».proof.Proof.Gen.ReferenceIdeal.Read
import proofs.«426414_j9629316677964_3_alg».proof.Proof.RefRows
import proofs.«426414_j9629316677964_3_alg».proof.Proof.RefIdx
import proofs.«426414_j9629316677964_3_alg».proof.Proof.RefPair
import proofs.«426414_j9629316677964_3_alg».proof.Proof.Spec

noncomputable section

namespace Cert.ReferenceIdeal.RefScat

open Cert.ReferenceIdeal Cert.ReferenceIdeal.Gen Cert.ReferenceIdeal.Read Cert.ReferenceIdeal.RefWords
open Cert.ReferenceIdeal.RefRows Cert.ReferenceIdeal.RefIdx Cert.ReferenceIdeal.RefPair Cert.Lib.RowOps
open Idealize.ShloMosaic Idealize.ShloMosaic.ValueIdx

variable (a0 : Vec Ideal S32x512x3 .f32) (a1 : Vec Ideal S32x32768x3 .f32) (a2 a3 : Vec Ideal S64 .f32)
  (a4 : Vec Ideal S8x64 .f32) (a10 : Vec Ideal S32x512 .i32) (a11 : Vec Ideal S2x32x32768 .i32)
variable (i0 i1 : Fin 32 → Fin 32768 → Fin 512)
variable (h0 : ∀ mm p, a11 (ix3 0 mm p) = BitVec.ofNat 32 (i0 mm p).val)
variable (h1 : ∀ mm p, a11 (ix3 1 mm p) = BitVec.ofNat 32 (i1 mm p).val)

/-! ## The vector -/

/-- The scatter of displacements is the ideal instance's exact sum. -/
theorem v109_eq : val_main_v109 (F := Ideal) a0 a1 a11
    = Ideal.hostScatterAdd (scat2 16384 3 1048576 scatter_S16384x3_S1048576x1_S1048576x3_1_0_0_1_wf) (val_main_v107 (F := Ideal))
        (val_main_v108 (F := Ideal) a11) (val_main_v39 (F := Ideal) a0 a1 a11) := rfl

include h0 h1 in
/-- Zero plus the displacements that land on atom a of molecule mm. -/
theorem v109_sum (mm : Fin 32) (a : Fin 512) (k : Fin 3) :
    val_main_v107 (F := Ideal) (ix2 (fa mm a) k)
      + ∑ e ∈ Finset.univ.filter (fun e : Fin 1048576 => (val_main_v108 (F := Ideal) a11 (ix2 e (0 : Fin 1))).toInt = ((fa mm a).val : Int)),
          val_main_v39 (F := Ideal) a0 a1 a11 (ix2 e k)
      = Cert.Spec.totP (fun a k => a0 (ix3 mm a k)) (fun p k => a1 (ix3 mm p k)) (i0 mm) (i1 mm) a k := by
  have z : val_main_v107 (F := Ideal) (ix2 (fa mm a) k) = 0 := by
    rw [val_main_v107_apply, val_main_cst_17_apply]
    exact Ideal.ofBits_zero_f32
  rw [z, zero_add]
  refine (filter_sum_flat (fun e => val_main_v108 (F := Ideal) a11 (ix2 e (0 : Fin 1))) i0
      (fun mm p => v108_at a11 i0 h0 mm p) (fun e => val_main_v39 (F := Ideal) a0 a1 a11 (ix2 e k)) mm a).trans ?_
  unfold Cert.Spec.totP
  refine Finset.sum_congr rfl fun p _ => ?_
  rw [v39_at a0 a1 a11 i0 i1 h0 h1]

include h0 h1 in
/-- The vector of atom a of molecule mm: the displacements of its molecule's pairs centred at it. -/
theorem v109_at (mm : Fin 32) (a : Fin 512) (k : Fin 3) :
    val_main_v109 (F := Ideal) a0 a1 a11 (ix2 (fa mm a) k)
      = Cert.Spec.totP (fun a k => a0 (ix3 mm a k)) (fun p k => a1 (ix3 mm p k)) (i0 mm) (i1 mm) a k :=
  (congrFun (v109_eq a0 a1 a11) (ix2 (fa mm a) k)).trans
    ((scat2_apply scatter_S16384x3_S1048576x1_S1048576x3_1_0_0_1_wf (val_main_v107 (F := Ideal)) (val_main_v108 (F := Ideal) a11)
      (val_main_v39 (F := Ideal) a0 a1 a11) (fa mm a) k).trans (v109_sum a0 a1 a11 i0 i1 h0 h1 mm a k))

/-! ## The density -/

/-- The scatter of features is the ideal instance's exact sum. -/
theorem v94_eq : val_main_v94 (F := Ideal) a0 a1 a2 a3 a4 a10 a11
    = Ideal.hostScatterAdd (scat2 16384 64 1048576 scatter_S16384x64_S1048576x1_S1048576x64_1_0_0_1_wf) (val_main_v92 (F := Ideal))
        (val_main_v93 (F := Ideal) a11) (val_main_v89 (F := Ideal) a0 a1 a2 a3 a4 a10 a11) := rfl

include h0 in
/-- Zero plus the features that land on atom a of molecule mm. -/
theorem v94_sum (emb : Fin 512 → Fin 64 → EReal) (cen wid : Fin 64 → EReal) (mm : Fin 32)
    (hpf : ∀ (p : Fin 32768) (b : Fin 64), val_main_v89 (F := Ideal) a0 a1 a2 a3 a4 a10 a11 (ix2 (fe mm p) b)
      = Cert.Spec.pfP (fun a k => a0 (ix3 mm a k)) emb cen wid (fun k => a1 (ix3 mm p k)) (i0 mm p) (i1 mm p) b)
    (a : Fin 512) (b : Fin 64) :
    val_main_v92 (F := Ideal) (ix2 (fa mm a) b)
      + ∑ e ∈ Finset.univ.filter (fun e : Fin 1048576 => (val_main_v93 (F := Ideal) a11 (ix2 e (0 : Fin 1))).toInt = ((fa mm a).val : Int)),
          val_main_v89 (F := Ideal) a0 a1 a2 a3 a4 a10 a11 (ix2 e b)
      = Cert.Spec.densP (fun a k => a0 (ix3 mm a k)) emb cen wid (fun p k => a1 (ix3 mm p k)) (i0 mm) (i1 mm) a b := by
  have z : val_main_v92 (F := Ideal) (ix2 (fa mm a) b) = 0 := by
    rw [val_main_v92_apply, val_main_cst_16_apply]
    exact Ideal.ofBits_zero_f32
  rw [z, zero_add]
  refine (filter_sum_flat (fun e => val_main_v93 (F := Ideal) a11 (ix2 e (0 : Fin 1))) i0
      (fun mm p => v93_at a11 i0 h0 mm p) (fun e => val_main_v89 (F := Ideal) a0 a1 a2 a3 a4 a10 a11 (ix2 e b)) mm a).trans ?_
  unfold Cert.Spec.densP
  refine Finset.sum_congr rfl fun p _ => ?_
  rw [hpf p b]

include h0 in
/-- The density of atom a of molecule mm in basis b: the features of its molecule's pairs centred at it,
    whatever the feature of a pair is shown to be (hpf). -/
theorem v94_at (emb : Fin 512 → Fin 64 → EReal) (cen wid : Fin 64 → EReal) (mm : Fin 32)
    (hpf : ∀ (p : Fin 32768) (b : Fin 64), val_main_v89 (F := Ideal) a0 a1 a2 a3 a4 a10 a11 (ix2 (fe mm p) b)
      = Cert.Spec.pfP (fun a k => a0 (ix3 mm a k)) emb cen wid (fun k => a1 (ix3 mm p k)) (i0 mm p) (i1 mm p) b)
    (a : Fin 512) (b : Fin 64) :
    val_main_v94 (F := Ideal) a0 a1 a2 a3 a4 a10 a11 (ix2 (fa mm a) b)
      = Cert.Spec.densP (fun a k => a0 (ix3 mm a k)) emb cen wid (fun p k => a1 (ix3 mm p k)) (i0 mm) (i1 mm) a b :=
  (congrFun (v94_eq a0 a1 a2 a3 a4 a10 a11) (ix2 (fa mm a) b)).trans
    ((scat2_apply scatter_S16384x64_S1048576x1_S1048576x64_1_0_0_1_wf (val_main_v92 (F := Ideal)) (val_main_v93 (F := Ideal) a11)
      (val_main_v89 (F := Ideal) a0 a1 a2 a3 a4 a10 a11) (fa mm a) b).trans
      (v94_sum a0 a1 a2 a3 a4 a10 a11 i0 i1 h0 emb cen wid mm hpf a b))

end Cert.ReferenceIdeal.RefScat

end
-- ==== Proof.RefFeat.lean ====
/-
  One pair's features in the reference, at the pair's flat position.

  The species of the pair's second atom is read by a gather of the flattened species at the atom's flat position, and
  the embedding row of that species by a gather of rows; a species is a small nonnegative word, so the wrap of negative
  indices and the clamp leave it alone. The Gaussian of basis b is exp((-w_b) (d - c_b)²) at the pair's length d, the
  cutoff is ½ (cos(π d / 5) + 1) times the comparison d < 5 converted to 0 or 1, and the feature is the Gaussian times
  (cutoff · mask) times the embedding entry.
-/
import proofs.«426414_j9629316677964_3_alg».proof.Proof.Gen.ReferenceIdeal.Read
import proofs.«426414_j9629316677964_3_alg».proof.Proof.RefRows
import proofs.«426414_j9629316677964_3_alg».proof.Proof.RefIdx
import proofs.«426414_j9629316677964_3_alg».proof.Proof.RefPair
import proofs.«426414_j9629316677964_3_alg».proof.Proof.Spec

noncomputable section

namespace Cert.ReferenceIdeal.RefFeat

open Cert.ReferenceIdeal Cert.ReferenceIdeal.Gen Cert.ReferenceIdeal.Read Cert.ReferenceIdeal.RefWords
open Cert.ReferenceIdeal.RefRows Cert.ReferenceIdeal.RefIdx Cert.ReferenceIdeal.RefPair Cert.Lib.RowOps
open Idealize.ShloMosaic Idealize.ShloMosaic.ValueIdx

variable (a0 : Vec Ideal S32x512x3 .f32) (a1 : Vec Ideal S32x32768x3 .f32) (a2 a3 : Vec Ideal S64 .f32)
  (a4 : Vec Ideal S8x64 .f32) (a10 : Vec Ideal S32x512 .i32) (a11 : Vec Ideal S2x32x32768 .i32)

/-! ## The embedding row of the second atom's species -/

/-- The flattened species at an atom's flat position. -/
theorem v0_at (mm : Fin 32) (a : Fin 512) :
    val_main_v0 (F := Ideal) a10 (ix1 (fa mm a)) = a10 (ix2 mm a) := by
  have hm := mm.isLt; have ha := a.isLt
  rw [val_main_v0_apply]
  refine congrArg a10 (funext fun b => ?_)
  match b with
  | ⟨0, _⟩ => exact Fin.ext (by show (512 * mm.val + a.val) / 512 = mm.val; omega)
  | ⟨1, _⟩ => exact Fin.ext (by show (512 * mm.val + a.val) % 512 = a.val; omega)

variable (i1 : Fin 32 → Fin 32768 → Fin 512) (sp : Fin 32 → Fin 512 → Fin 8)
variable (h1 : ∀ mm p, a11 (ix3 1 mm p) = BitVec.ofNat 32 (i1 mm p).val)
variable (hs : ∀ mm a, a10 (ix2 mm a) = BitVec.ofNat 32 (sp mm a).val)

include h1 hs in
/-- The gather of species reads the species of the pair's second atom. -/
theorem v81_at (mm : Fin 32) (p : Fin 32768) :
    val_main_v81 (F := Ideal) a10 a11 (ix1 (fe mm p)) = BitVec.ofNat 32 (sp mm (i1 mm p)).val := by
  unfold val_main_v81
  have hg : (gather_S16384_S1048576x1_S1048576_n_0_n_n_0_1_1 : GatherDims S16384 S1048576x1 S1048576)
      = gath1 16384 1048576 gather_S16384_S1048576x1_S1048576_n_0_n_n_0_1_1_wf := rfl
  rw [hg, gath1_at (by norm_num) _ _ _ (fe mm p) (fa mm (i1 mm p)) (v80_at a11 i1 h1 mm p), v0_at, hs]

include h1 hs in
/-- The wrap of negative indices leaves the species alone. -/
theorem v86_at (mm : Fin 32) (p : Fin 32768) :
    val_main_v86 (F := Ideal) a10 a11 (ix1 (fe mm p)) = BitVec.ofNat 32 (sp mm (i1 mm p)).val := by
  have hsp := (sp mm (i1 mm p)).isLt
  rw [val_main_v86_apply, val_main_v83_apply, v81_at a10 a11 i1 sp h1 hs, val_main_v82_apply, val_main_c_14_apply]
  exact wrap_nonneg _ (by omega) _

include h1 hs in
/-- The gather of embedding rows reads the row of the second atom's species. -/
theorem v88_at (mm : Fin 32) (p : Fin 32768) (b : Fin 64) :
    val_main_v88 (F := Ideal) a4 a10 a11 (ix2 (fe mm p) b) = a4 (ix2 (sp mm (i1 mm p)) b) := by
  have hidx : val_main_v87 (F := Ideal) a10 a11 (ix2 (fe mm p) (0 : Fin 1)) = BitVec.ofNat 32 (sp mm (i1 mm p)).val := by
    rw [val_main_v87_apply, show idx_main_v87 (ix2 (fe mm p) (0 : Fin 1)) = ix1 (fe mm p) from col_idx _,
      v86_at a10 a11 i1 sp h1 hs]
  unfold val_main_v88
  have hg : (gather_S8x64_S1048576x1_S1048576x64_1_0_n_n_0_1_164 : GatherDims S8x64 S1048576x1 S1048576x64)
      = gath2 8 64 1048576 gather_S8x64_S1048576x1_S1048576x64_1_0_n_n_0_1_164_wf := rfl
  rw [hg, gath2_at (by norm_num) _ _ _ (fe mm p) b (sp mm (i1 mm p)) hidx]

/-! ## The Gaussian and the cutoff -/

omit i1 sp in
/-- The Gaussian of basis b at the length of the pair at flat position e. -/
theorem v55_at (e : Fin 1048576) (b : Fin 64) :
    val_main_v55 (F := Ideal) a0 a1 a2 a3 a11 (ix2 e b)
      = Cert.Spec.rbfOf (a3 (ix1 b)) (a2 (ix1 b)) (val_main_v44 (F := Ideal) a0 a1 a11 (ix1 e)) := by
  have e1 : idx_main_v45 (idx_main_v53 (ix2 e b)) = ix1 b := funext fun a => Fin.ext (by
    match a with
    | ⟨0, _⟩ => rfl)
  have e2 : idx_main_v47 (idx_main_v49 (ix2 e b)) = ix1 e := funext fun a => Fin.ext (by
    match a with
    | ⟨0, _⟩ => rfl)
  have e3 : idx_main_v48 (idx_main_v50 (ix2 e b)) = ix1 b := funext fun a => Fin.ext (by
    match a with
    | ⟨0, _⟩ => rfl)
  rw [val_main_v55_apply, val_main_v54_apply, val_main_v53_apply, val_main_v46_apply, val_main_v45_apply, e1,
    val_main_v52_apply, val_main_v51_apply, val_main_v49_apply, val_main_v47_apply, e2, val_main_v50_apply,
    val_main_v48_apply, e3]
  rfl

/-- A comparison "less than", converted to a float, is 1 or 0. -/
theorem olt_float (x y : EReal) :
    (FloatOps.uitofp .f32 (FloatOps.cmpf (F := Ideal) (φ := .f32) .olt x y) : Ideal .f32) = if x < y then 1 else 0 := by
  show (((BitVec.ofBool (decide (x < y))).toNat : ℝ) : EReal) = _
  by_cases h : x < y
  · rw [decide_eq_true h, if_pos h]; simp
  · rw [decide_eq_false h, if_neg h]; simp

omit i1 sp in
/-- The cutoff at the length of the pair at flat position e. -/
theorem v68_at (e : Fin 1048576) :
    val_main_v68 (F := Ideal) a0 a1 a11 (ix1 e) = Cert.Spec.fcOf (val_main_v44 (F := Ideal) a0 a1 a11 (ix1 e)) := by
  rw [val_main_v68_apply, val_main_v64_apply, val_main_v63_apply, val_main_cst_10_apply, val_main_v62_apply,
    val_main_v60_apply, val_main_v59_apply, val_main_v57_apply, val_main_v56_apply, val_main_cst_7_apply,
    val_main_v58_apply, val_main_cst_8_apply, val_main_v61_apply, val_main_cst_9_apply, val_main_v67_apply,
    val_main_v66_apply, val_main_v65_apply, val_main_cst_11_apply]
  generalize val_main_v44 (F := Ideal) a0 a1 a11 (ix1 e) = d
  show (Cert.Spec.HALF * (Ideal.cos (Ideal.div (Cert.Spec.PI * d) Cert.Spec.FIVE) + Cert.Spec.ONE))
      * (FloatOps.uitofp .f32 (FloatOps.cmpf (F := Ideal) (φ := .f32) .olt d Cert.Spec.FIVE) : Ideal .f32) = _
  rw [olt_float]
  rfl

/-! ## The features -/

variable (i0 : Fin 32 → Fin 32768 → Fin 512)
variable (h0 : ∀ mm p, a11 (ix3 0 mm p) = BitVec.ofNat 32 (i0 mm p).val)

include h0 h1 hs in
/-- The feature of pair p of molecule mm in basis b. -/
theorem v89_at (mm : Fin 32) (p : Fin 32768) (b : Fin 64) :
    val_main_v89 (F := Ideal) a0 a1 a2 a3 a4 a10 a11 (ix2 (fe mm p) b)
      = Cert.Spec.pfP (fun a k => a0 (ix3 mm a k)) (fun a b => a4 (ix2 (sp mm a) b)) (fun b => a2 (ix1 b))
          (fun b => a3 (ix1 b)) (fun k => a1 (ix3 mm p k)) (i0 mm p) (i1 mm p) b := by
  have e : idx_main_v70 (idx_main_v71 (ix2 (fe mm p) b)) = ix1 (fe mm p) := funext fun a => Fin.ext (by
    match a with
    | ⟨0, _⟩ => rfl)
  rw [val_main_v89_apply, val_main_v72_apply, v55_at, val_main_v71_apply, val_main_v70_apply, e, val_main_v69_apply,
    v68_at, v16_at, v44_at a0 a1 a11 i0 i1 h0 h1, v88_at a4 a10 a11 i1 sp h1 hs]
  rfl

end Cert.ReferenceIdeal.RefFeat

end
-- ==== Proof.RefHead.lean ====
/-
  The head of the reference: from the flat density array (16384 atoms by 64 basis functions) and the flat vector array
  (16384 atoms by 3 components) to every molecule's dipole.

  Atom a of molecule mm is row 512·mm + a of both arrays. A row of the densities times the first layer's weights plus
  the bias, through t · (1 / (1 + exp(-t))), times the second layer's column plus the scalar bias is the atom's scalar;
  the scalar is repeated over the three components, multiplied with the vector array, and the rows of one molecule are
  summed. The word 0x3F800000 is the number 1, so the quotient is the logistic function, and a sum that starts from the
  zero word starts from 0.
-/
import proofs.«426414_j9629316677964_3_alg».proof.Proof.Gen.ReferenceIdeal.Read
import proofs.«426414_j9629316677964_3_alg».proof.Proof.Spec
import Idealize.ShloMosaic.Lib.ValueIdx
import Idealize.ShloMosaic.PureOps.Ideal.Laws

noncomputable section

namespace Cert.ReferenceIdeal.RefHead

open Idealize.ShloMosaic Idealize.ShloMosaic.ValueIdx Cert.ReferenceIdeal Cert.ReferenceIdeal.Read

/-- Atom a of molecule mm in the flat numbering of all 16384 atoms. -/
def atomIx (mm : Fin 32) (a : Fin 512) : Fin 16384 := ⟨512 * mm.val + a.val, by have := mm.isLt; have := a.isLt; omega⟩

@[simp] theorem atomIx_val (mm : Fin 32) (a : Fin 512) : (atomIx mm a).val = 512 * mm.val + a.val := rfl

/-- The word of 1.0 is the number 1. -/
theorem one_f32 : Ideal.ofBits .f32 0x3F800000#32 = 1 := by
  simp [Ideal.ofBits, Ideal.ieee, -EReal.coe_mul]; norm_num

section
variable (x0 : (⟨S32x512x3, .f32⟩ : BufTy).Contents (Elt Ideal)) (x1 : (⟨S32x32768x3, .f32⟩ : BufTy).Contents (Elt Ideal)) (x2 x3 : (⟨S64, .f32⟩ : BufTy).Contents (Elt Ideal))
  (x4 : (⟨S8x64, .f32⟩ : BufTy).Contents (Elt Ideal)) (x5 : (⟨S64x256, .f32⟩ : BufTy).Contents (Elt Ideal)) (x6 : (⟨S256, .f32⟩ : BufTy).Contents (Elt Ideal)) (x7 : (⟨S256x1, .f32⟩ : BufTy).Contents (Elt Ideal))
  (x8 : (⟨S1, .f32⟩ : BufTy).Contents (Elt Ideal)) (x10 : (⟨S32x512, .i32⟩ : BufTy).Contents (Elt Ideal)) (x11 : (⟨S2x32x32768, .i32⟩ : BufTy).Contents (Elt Ideal))

/-- The first layer before the activation, at flat atom n and hidden unit h. -/
theorem hpre_apply (n : Fin 16384) (h : Fin 256) :
    val_main_v98 (F := Ideal) x0 x1 x2 x3 x4 x5 x6 x10 x11 (ix2 n h)
      = (∑ b : Fin 64, val_main_v94 (F := Ideal) x0 x1 x2 x3 x4 x10 x11 (ix2 n b) * x5 (ix2 b h)) + x6 (ix1 h) := by
  rw [val_main_v98_apply, val_main_v95_apply, val_main_v97_apply, val_main_v96_apply]
  have el : ∀ b : Fin 64, lidx_main_v95 (ix2 n h) b = ix2 n b := fun b => funext fun a => Fin.ext (by
    match a with
    | ⟨0, _⟩ => rfl
    | ⟨1, _⟩ => rfl)
  have er : ∀ b : Fin 64, ridx_main_v95 (ix2 n h) b = ix2 b h := fun b => funext fun a => Fin.ext (by
    match a with
    | ⟨0, _⟩ => rfl
    | ⟨1, _⟩ => rfl)
  have eb : idx_main_v96 (idx_main_v97 (ix2 n h)) = ix1 h := funext fun a => Fin.ext (by
    match a with
    | ⟨0, _⟩ => rfl)
  simp only [el, er, eb]
  rfl

/-- The activation is t · logistic t. -/
theorem silu_apply (j : S16384x256.Idx) :
    val_main_v99 (F := Ideal) x0 x1 x2 x3 x4 x5 x6 x10 x11 j = Cert.Spec.act (val_main_v98 (F := Ideal) x0 x1 x2 x3 x4 x5 x6 x10 x11 j) := by
  rw [val_main_v99_apply, val_main_call0_v5_apply, val_main_call0_v4_apply, val_main_call0_cst_0_apply,
    val_main_call0_v3_apply, val_main_call0_v2_apply, val_main_call0_cst_apply, val_main_call0_v1_apply,
    val_main_call0_v0_apply]
  generalize val_main_v98 (F := Ideal) x0 x1 x2 x3 x4 x5 x6 x10 x11 j = t
  show t * Ideal.div (Ideal.ofBits .f32 0x3F800000#32) (Ideal.ofBits .f32 0x3F800000#32 + Ideal.exp (-t))
    = t * Ideal.div 1 (1 + Ideal.exp (-t))
  rw [one_f32]

/-- The atom's scalar, at flat atom n. -/
theorem out_apply (n : Fin 16384) :
    val_main_v103 (F := Ideal) x0 x1 x2 x3 x4 x5 x6 x7 x8 x10 x11 (ix2 n 0)
      = (∑ h : Fin 256, val_main_v99 (F := Ideal) x0 x1 x2 x3 x4 x5 x6 x10 x11 (ix2 n h) * x7 (ix2 h 0)) + x8 (ix1 0) := by
  rw [val_main_v103_apply, val_main_v100_apply, val_main_v102_apply, val_main_v101_apply]
  have el : ∀ h : Fin 256, lidx_main_v100 (ix2 n 0) h = ix2 n h := fun h => funext fun a => Fin.ext (by
    match a with
    | ⟨0, _⟩ => rfl
    | ⟨1, _⟩ => rfl)
  have er : ∀ h : Fin 256, ridx_main_v100 (ix2 n 0) h = ix2 h 0 := fun h => funext fun a => Fin.ext (by
    match a with
    | ⟨0, _⟩ => rfl
    | ⟨1, _⟩ => rfl)
  have eb : idx_main_v101 (idx_main_v102 (ix2 n 0)) = ix1 0 := funext fun a => Fin.ext (by
    match a with
    | ⟨0, _⟩ => rfl)
  simp only [el, er, eb]
  rfl

/-- A molecule's dipole: the sum over its atoms of the vector's component times the atom's scalar. -/
theorem dip_apply (mm : Fin 32) (k : Fin 3) :
    val_main_v114 (F := Ideal) x0 x1 x2 x3 x4 x5 x6 x7 x8 x10 x11 (ix2 mm k)
      = ∑ a : Fin 512, val_main_v109 (F := Ideal) x0 x1 x11 (ix2 (atomIx mm a) k)
          * val_main_v103 (F := Ideal) x0 x1 x2 x3 x4 x5 x6 x7 x8 x10 x11 (ix2 (atomIx mm a) 0) := by
  rw [val_main_v114_apply, val_main_cst_18_apply]
  show Ideal.ofBits .f32 0x00000000#32 + _ = _
  rw [Ideal.ofBits_zero_f32, zero_add]
  refine Finset.sum_congr rfl fun a _ => ?_
  rw [val_main_v113_apply, val_main_v112_apply, val_main_v111_apply, val_main_v110_apply, val_main_v104_apply]
  have e1 : idx_main_v113 (idx_main_v114 (ix2 mm k) a) = ix2 (atomIx mm a) k := funext fun x => Fin.ext (by
    have := mm.isLt; have := a.isLt; have := k.isLt
    match x with
    | ⟨0, _⟩ => show ((mm.val * 512 + a.val) * 3 + k.val) / 3 = 512 * mm.val + a.val; omega
    | ⟨1, _⟩ => show ((mm.val * 512 + a.val) * 3 + k.val) % 3 = k.val; omega)
  rw [e1]
  have e2 : idx_main_v104 (idx_main_v110 (idx_main_v111 (ix2 (atomIx mm a) k))) = ix2 (atomIx mm a) 0 :=
    funext fun x => Fin.ext (by
      match x with
      | ⟨0, _⟩ => show (512 * mm.val + a.val) / 1 = 512 * mm.val + a.val; omega
      | ⟨1, _⟩ => rfl)
  rw [e2]
  exact mul_comm _ _

/-- The reference's result at molecule mm and component k is the dipole of the rows 512·mm + a of the density array
    and of the vector array. -/
theorem ref_head (mm : Fin 32) (k : Fin 3) :
    val_main_v114 (F := Ideal) x0 x1 x2 x3 x4 x5 x6 x7 x8 x10 x11 (ix2 mm k)
      = Cert.Spec.dipOf (fun b h => x5 (ix2 b h)) (fun h => x6 (ix1 h)) (fun h => x7 (ix2 h 0)) (x8 (ix1 0))
          (fun a b => val_main_v94 (F := Ideal) x0 x1 x2 x3 x4 x10 x11 (ix2 (atomIx mm a) b))
          (fun a kk => val_main_v109 (F := Ideal) x0 x1 x11 (ix2 (atomIx mm a) kk)) k := by
  rw [dip_apply]
  unfold Cert.Spec.dipOf Cert.Spec.outOf Cert.Spec.hpre
  refine Finset.sum_congr rfl fun a _ => congrArg (_ * ·) ?_
  rw [out_apply]
  refine congrArg (fun s => s + x8 (ix1 0)) (Finset.sum_congr rfl fun h _ => ?_)
  rw [silu_apply, hpre_apply]

/-- The same with the two arrays named. -/
theorem ref_head_named (D : (⟨S16384x64, .f32⟩ : BufTy).Contents (Elt Ideal)) (Tv : (⟨S16384x3, .f32⟩ : BufTy).Contents (Elt Ideal))
    (hD : val_main_v94 (F := Ideal) x0 x1 x2 x3 x4 x10 x11 = D) (hT : val_main_v109 (F := Ideal) x0 x1 x11 = Tv)
    (mm : Fin 32) (k : Fin 3) :
    val_main_v114 (F := Ideal) x0 x1 x2 x3 x4 x5 x6 x7 x8 x10 x11 (ix2 mm k)
      = Cert.Spec.dipOf (fun b h => x5 (ix2 b h)) (fun h => x6 (ix1 h)) (fun h => x7 (ix2 h 0)) (x8 (ix1 0))
          (fun a b => D (ix2 (atomIx mm a) b)) (fun a kk => Tv (ix2 (atomIx mm a) kk)) k := by
  subst hD hT
  exact ref_head x0 x1 x2 x3 x4 x5 x6 x7 x8 x10 x11 mm k

end

end Cert.ReferenceIdeal.RefHead

end
-- ==== Proof.RefResult.lean ====
/-
  The reference's result, molecule by molecule: the dipole of the molecule's tables.

  The head reads rows 512·mm + a of the flat density and vector arrays; the two scatter-adds put into those rows the sums
  over molecule mm's pairs centred at atom a of the pairs' features and displacements; a pair's feature is the
  Gaussian of its length times (cutoff · mask) times the embedding of its second atom's species. Together: the
  reference's entry (mm, k) is the dipole of molecule mm, component k.
-/
import proofs.«426414_j9629316677964_3_alg».proof.Proof.Gen.ReferenceIdeal.Read
import proofs.«426414_j9629316677964_3_alg».proof.Proof.RefScat
import proofs.«426414_j9629316677964_3_alg».proof.Proof.RefFeat
import proofs.«426414_j9629316677964_3_alg».proof.Proof.RefHead
import proofs.«426414_j9629316677964_3_alg».proof.Proof.Spec

noncomputable section

namespace Cert.ReferenceIdeal.RefResult

open Cert.ReferenceIdeal Cert.ReferenceIdeal.Gen Cert.ReferenceIdeal.Read Cert.ReferenceIdeal.RefWords
open Idealize.ShloMosaic Idealize.SL.Sem Idealize.ShloMosaic.ValueIdx Idealize.ShloMosaic.TcCoe

section Vals
variable (a0 : Vec Ideal S32x512x3 .f32) (a1 : Vec Ideal S32x32768x3 .f32) (a2 a3 : Vec Ideal S64 .f32)
  (a4 : Vec Ideal S8x64 .f32) (a5 : Vec Ideal S64x256 .f32) (a6 : Vec Ideal S256 .f32) (a7 : Vec Ideal S256x1 .f32)
  (a8 : Vec Ideal S1 .f32) (a10 : Vec Ideal S32x512 .i32) (a11 : Vec Ideal S2x32x32768 .i32)

/-- The reference's result at molecule mm and component k, over the argument arrays: the molecule's dipole. -/
theorem ref_result_vals (sp : Fin 32 → Fin 512 → Fin 8) (i0 i1 : Fin 32 → Fin 32768 → Fin 512)
    (hs : ∀ mm a, a10 (ix2 mm a) = BitVec.ofNat 32 (sp mm a).val)
    (h0 : ∀ mm p, a11 (ix3 (0 : Fin 2) mm p) = BitVec.ofNat 32 (i0 mm p).val)
    (h1 : ∀ mm p, a11 (ix3 (1 : Fin 2) mm p) = BitVec.ofNat 32 (i1 mm p).val)
    (mm : Fin 32) (k : Fin 3) :
    val_main_v114 (F := Ideal) a0 a1 a2 a3 a4 a5 a6 a7 a8 a10 a11 (ix2 mm k)
      = Cert.Spec.dipoleMol (fun a k => a0 (ix3 mm a k)) (fun a b => a4 (ix2 (sp mm a) b)) (fun b => a2 (ix1 b))
          (fun b => a3 (ix1 b)) (fun b h => a5 (ix2 b h)) (fun h => a6 (ix1 h)) (fun h => a7 (ix2 h (0 : Fin 1)))
          (a8 (ix1 (0 : Fin 1))) (fun p k => a1 (ix3 mm p k)) (i0 mm) (i1 mm) k := by
  have hD : (fun (a : Fin 512) (b : Fin 64) =>
        val_main_v94 (F := Ideal) a0 a1 a2 a3 a4 a10 a11 (ix2 (RefHead.atomIx mm a) b))
      = Cert.Spec.densP (fun a k => a0 (ix3 mm a k)) (fun a b => a4 (ix2 (sp mm a) b)) (fun b => a2 (ix1 b))
          (fun b => a3 (ix1 b)) (fun p k => a1 (ix3 mm p k)) (i0 mm) (i1 mm) :=
    funext fun a => funext fun b =>
      RefScat.v94_at a0 a1 a2 a3 a4 a10 a11 i0 i1 h0 (fun a b => a4 (ix2 (sp mm a) b)) (fun b => a2 (ix1 b))
        (fun b => a3 (ix1 b)) mm (fun p b => RefFeat.v89_at a0 a1 a2 a3 a4 a10 a11 i1 sp h1 hs i0 h0 mm p b) a b
  have hT : (fun (a : Fin 512) (kk : Fin 3) => val_main_v109 (F := Ideal) a0 a1 a11 (ix2 (RefHead.atomIx mm a) kk))
      = Cert.Spec.totP (fun a k => a0 (ix3 mm a k)) (fun p k => a1 (ix3 mm p k)) (i0 mm) (i1 mm) :=
    funext fun a => funext fun kk => RefScat.v109_at a0 a1 a11 i0 i1 h0 h1 mm a kk
  refine (RefHead.ref_head a0 a1 a2 a3 a4 a5 a6 a7 a8 a10 a11 mm k).trans ?_
  rw [hD, hT]
  rfl

end Vals

section Run
variable (m : (ℓ : Loc nD τ sig) → Buf (Elt Ideal) ℓ) (c : Dev nD)

/-- The same for the result of the reference's run from a memory m on device c. -/
theorem ref_result
    (sp : Fin 32 → Fin 512 → Fin 8) (i0 i1 : Fin 32 → Fin 32768 → Fin 512)
    (hs : ∀ mm a, (m ((c : Thread nD τ).loc main_arg10) : Vec Ideal S32x512 .i32) (ix2 mm a) = BitVec.ofNat 32 (sp mm a).val)
    (h0 : ∀ mm p, (m ((c : Thread nD τ).loc main_arg11) : Vec Ideal S2x32x32768 .i32) (ix3 (0 : Fin 2) mm p) = BitVec.ofNat 32 (i0 mm p).val)
    (h1 : ∀ mm p, (m ((c : Thread nD τ).loc main_arg11) : Vec Ideal S2x32x32768 .i32) (ix3 (1 : Fin 2) mm p) = BitVec.ofNat 32 (i1 mm p).val)
    (mm : Fin 32) (k : Fin 3) :
    (Cert.ReferenceIdeal.Value.res_main_v114 m c : Vec Ideal S32x3 .f32) (ix2 mm k)
      = Cert.Spec.dipoleMol (fun a k => (m ((c : Thread nD τ).loc main_arg0) : Vec Ideal S32x512x3 .f32) (ix3 mm a k))
          (fun a b => (m ((c : Thread nD τ).loc main_arg4) : Vec Ideal S8x64 .f32) (ix2 (sp mm a) b))
          (fun b => (m ((c : Thread nD τ).loc main_arg2) : Vec Ideal S64 .f32) (ix1 b))
          (fun b => (m ((c : Thread nD τ).loc main_arg3) : Vec Ideal S64 .f32) (ix1 b))
          (fun b h => (m ((c : Thread nD τ).loc main_arg5) : Vec Ideal S64x256 .f32) (ix2 b h))
          (fun h => (m ((c : Thread nD τ).loc main_arg6) : Vec Ideal S256 .f32) (ix1 h))
          (fun h => (m ((c : Thread nD τ).loc main_arg7) : Vec Ideal S256x1 .f32) (ix2 h (0 : Fin 1)))
          ((m ((c : Thread nD τ).loc main_arg8) : Vec Ideal S1 .f32) (ix1 (0 : Fin 1)))
          (fun p k => (m ((c : Thread nD τ).loc main_arg1) : Vec Ideal S32x32768x3 .f32) (ix3 mm p k))
          (i0 mm) (i1 mm) k := by
  rw [Read.val_main_v114_eq]
  exact ref_result_vals _ _ _ _ _ _ _ _ _ _ _ sp i0 i1 hs h0 h1 mm k

end Run

end Cert.ReferenceIdeal.RefResult

end
-- ==== Proof.lean ====
/-
  The certificate of the dipole kernel against its reference, over the extended reals.

  Both programs compute, for each of 32 molecules, the dipole Σ_a vector[a] · scalar[a] of Proof/Spec.lean: the kernel
  chunk by chunk on a grid, gathering and scatter-adding by products with one-hot matrices and accumulating the atoms'
  densities and vectors across the sixteen chunks of a molecule (Proof/KFinal.lean); the reference by flat gathers and
  scatter-adds over all 1048576 pairs at once (Proof/RefResult.lean). The two agree where the precondition holds: the
  coordinates and the shifts are real numbers (the kernel's two-term splitting x = hi + lo reads x + (x - x), which is x
  only for a real x), every species is below 8 and every atom index is an atom of its own molecule, below 512
  (Proof/PreFacts.lean). The frames are the generated ones; the reference's is its generated run.
-/
import proofs.«426414_j9629316677964_3_alg».proof.Defs
import proofs.«426414_j9629316677964_3_alg».proof.Proof.Gen.Kernel
import proofs.«426414_j9629316677964_3_alg».proof.Proof.Gen.Kernel.Skeleton
import proofs.«426414_j9629316677964_3_alg».proof.Proof.Gen.Kernel.Launch
import proofs.«426414_j9629316677964_3_alg».proof.Proof.Gen.Kernel.Points
import proofs.«426414_j9629316677964_3_alg».proof.Proof.Gen.Kernel.Frame
import proofs.«426414_j9629316677964_3_alg».proof.Proof.Gen.KernelIdeal
import proofs.«426414_j9629316677964_3_alg».proof.Proof.Gen.KernelIdeal.Skeleton
import proofs.«426414_j9629316677964_3_alg».proof.Proof.Gen.KernelIdeal.Launch
import proofs.«426414_j9629316677964_3_alg».proof.Proof.Gen.KernelIdeal.Points
import proofs.«426414_j9629316677964_3_alg».proof.Proof.Gen.KernelIdeal.Frame
import proofs.«426414_j9629316677964_3_alg».proof.Proof.Gen.ReferenceIdeal
import proofs.«426414_j9629316677964_3_alg».proof.Proof.Gen.Pre_finite_inputs
import proofs.«426414_j9629316677964_3_alg».proof.Proof.Gen.ReferenceIdeal.Run
import proofs.«426414_j9629316677964_3_alg».proof.Proof.Gen.ReferenceIdeal.Read
import proofs.«426414_j9629316677964_3_alg».proof.Proof.PreFacts
import proofs.«426414_j9629316677964_3_alg».proof.Proof.KFinal
import proofs.«426414_j9629316677964_3_alg».proof.Proof.RefResult
import Idealize.ShloMosaic.Adequacy
import Idealize.ShloMosaic.Init

noncomputable section

namespace Cert.Proof

open Idealize.ShloMosaic Idealize.SL.Sem Idealize.ShloMosaic.ValueIdx Idealize.ShloMosaic.TcCoe

theorem frame_p : Cert.frame_Kernel := fun m ρ _ => Cert.Kernel.Gen.frame m ρ

theorem frame_pi : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The two places where the kernel narrows a value to bf16 and widens it back: the identity on the extended reals. -/
theorem preserves : Cert.preserves_Kernel_KernelIdeal :=
  ⟨IdealRules.truncf_extf.statement Cert.KernelIdeal.S3x512 .f32 .bf16,
    IdealRules.truncf_extf.statement Cert.KernelIdeal.S3x2048 .f32 .bf16⟩

/-- Both runs end with the dipole of every molecule: the kernel's accumulated over its sixteen chunks, the reference's
    scattered over the flat pair list, of arguments that agree. -/
theorem algebraic : Cert.algebraic_KernelIdeal_ReferenceIdeal := by
  intro m ρ m' ρ' hpre hagree
  refine ⟨fun c => Cert.KernelIdeal.KFrameRun.res m c, Cert.KernelIdeal.KFrameRun.run_named m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9, e10, e11⟩ := hagree c
  obtain ⟨hf0, hf1, -, -⟩ := Cert.PreFacts.decode _ _ _ _ _ _ _ _ _ _ _ _ (hpre c)
  obtain ⟨sp, i0, i1, hs, h0, h1⟩ := Cert.PreFacts.tables _ _ _ _ _ _ _ _ _ _ _ _ (hpre c)
  funext i
  obtain ⟨mm, k, rfl⟩ : ∃ (mm : Fin 32) (k : Fin 3), i = ix2 mm k := ⟨i 0, i 1, eq_ix2 i⟩
  show Cert.ReferenceIdeal.Value.res_main_v114 m' c (ix2 mm k) = Cert.KernelIdeal.KFrameRun.res m c (ix2 mm k)
  rw [Cert.KernelIdeal.KFinal.kernel_result m c hf0 hf1 sp i0 i1 hs h0 h1 mm k]
  rw [Cert.ReferenceIdeal.RefResult.ref_result m' c sp i0 i1 (by rw [e10]; exact hs) (by rw [e11]; exact h0)
    (by rw [e11]; exact h1) mm k]
  rw [e0, e1, e2, e3, e4, e5, e6, e7, e8]

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
